-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x64 .f32 .bf16
  ∧ IdealRules.truncf_extf.Statement Cert.KernelIdeal.S1024x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x64 : Shape := ⟨2, ![512, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S8192x512 .f32) (main_arg1 : FVec F S512x64 .f32) (main_arg2 : FVec F S512x64 .f32) (main_arg3 : FVec F S512x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S8192x512 : Shape := ⟨2, ![8192, 512]⟩
abbrev S512x64 : Shape := ⟨2, ![512, 64]⟩
abbrev S8192x64 : Shape := ⟨2, ![8192, 64]⟩
abbrev S2048x512 : Shape := ⟨2, ![2048, 512]⟩
abbrev S2048x64 : Shape := ⟨2, ![2048, 64]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 8
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S8192x64, .f32⟩
  | .hbm, ⟨5, _⟩ => ⟨S8192x64, .f32⟩
  | .hbm, ⟨6, _⟩ => ⟨S8192x64, .bf16⟩
  | .hbm, ⟨7, _⟩ => ⟨S8192x64, .f32⟩
  | .local _ .vmem, ⟨0, _⟩ => ⟨S2048x512, .f32⟩
  | .local _ .vmem, ⟨1, _⟩ => ⟨S2048x512, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .bf16⟩
  | .local _ .vmem, ⟨10, _⟩ => ⟨S2048x64, .bf16⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .bf16⟩
  | .local _ .vmem, ⟨16, _⟩ => ⟨S1024x64, .bf16⟩
  | .local _ .vmem, ⟨17, _⟩ => ⟨S1024x64, .f32⟩
  | .local _ .vmem, ⟨18, _⟩ => ⟨S1024x64, .f32⟩
  | .local _ .vmem, ⟨19, _⟩ => ⟨S1024x1, .f32⟩
  | .local _ .vmem, ⟨20, _⟩ => ⟨S1024x1, .f32⟩
  | .local _ .vmem, ⟨21, _⟩ => ⟨S1024x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_25 : BitVec 32 := 0#32
  let v57 : BitVec 1 := Scalar.cmpi .ne v56 c0_i32_25
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2048x512_S2048x512_0_0 : ∀ a, (![0, 0] : Fin 2 → Nat) a + S2048x512.size a ≤ S2048x512.size a
  h_S2048x512 : 0 < S2048x512.numel
  inb_S512x64_S512x64_0_0 : ∀ a, (![0, 0] : Fin 2 → Nat) a + S512x64.size a ≤ S512x64.size a
  h_S512x64 : 0 < S512x64.numel
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  packedbf16_S2048x64_S2048x64_0_0 : (Rect.unit (s := S2048x64) ![0, 0] S2048x64.size inb_S2048x64_S2048x64_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  dot_S2048x512_S512x64_S2048x64_1_0_0_1_n_n_wf : DotDims.WF S2048x512 S512x64 S2048x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S8192x64.size a
  hwx0_4 : ∀ i : grid0.Coords, EltTy.bits .f32 = 32 ∨ (Rect.block (s := S8192x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .f32 = 32 ∨ (Rect.block (s := S8192x64) S2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S8192x64.size a
  hwx0_6 : ∀ i : grid0.Coords, EltTy.bits .bf16 = 32 ∨ (Rect.block (s := S8192x64) S2048x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .bf16 = 32 ∨ (Rect.block (s := S8192x64) S1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S512x64 : Shape := ⟨2, ![512, 64]⟩
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S64x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x64_S8192x64_1_0_0_1_n_n_wf : DotDims.WF S8192x512 S512x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KernelR0.lean ====
/-
  Region 0 of the kernel's program: the projection call. On a grid of four row tiles of 2048 rows it
  reads a tile of the input and the three weight matrices whole, and writes the tile's rows of
  Q = (x · Wq) · (1/8), K = x · Wk and V = x · Wv. This module names what the body leaves in each output
  window's staging buffer as the body's own arithmetic (the skeleton's payloads) of the input blocks, proves the
  body's triple, and gives the region's proof data and body obligation at ANY contents `V` of the core's buffers
  at the region's entry.
-/
import proofs.«422835_j70282844832522_3_alg».proof.Proof.Gen.Kernel.Launch
import proofs.«422835_j70282844832522_3_alg».proof.Proof.Gen.Kernel.Skeleton
import proofs.«422835_j70282844832522_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of Q: the input tile times Wq, scaled by 1/8. -/
def outQ (x : Vec F S2048x512 .f32) (wq : Vec F S512x64 .f32) : Vec F S2048x64 .f32 := k0_pay1 x wq
/-- The tile of K: the input tile times Wk. -/
def outK (x : Vec F S2048x512 .f32) (wk : Vec F S512x64 .f32) : Vec F S2048x64 .f32 := k0_pay2 x wk
/-- The tile of V: the input tile times Wv (both rounded to bf16 on the way in, the product on the way out). -/
def outV (x : Vec F S2048x512 .f32) (wv : Vec F S512x64 .f32) : Vec F S2048x64 .bf16 := k0_pay3 x wv

/-- The proof data of the projection pipeline on core `c`: the arrays as the region finds them; after the body at
    point `t` each input's buffer at its block and the three outputs' at the tile's Q, K and V; the region
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

/-! ## What the body finds in each input window's buffer

An input window's body leaves its block in place, so at every point its current buffer holds the block the window's
index map names there, whether that point fetched it or not (an unfetched point's index has not moved). -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## Loads and stores through a whole buffer

Every access of the body is through the rectangle that is its buffer's whole shape at offset zero: a load through it
reads the contents, and one store through it leaves its payload whatever was there. -/

private theorem zeros2 : (![0, 0] : Fin 2 → ℕ) = fun _ => 0 := funext fun a => by fin_cases a <;> rfl

private theorem readAt_whole {κ : Kind} {sp : Space} {S : Shape} {e : EltTy} (v : View sig κ sp S e)
    (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

private theorem read_writes_whole {κ : Kind} {sp : Space} {S : Shape} {e : EltTy} (v : View sig κ sp S e)
    (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-! ## The body's triple -/

set_option maxHeartbeats 1000000 in
/-- The kernel body on whole staging memrefs, the four inputs' at read contents `x`, `wq`, `wk`, `wv` and the three
    outputs' at anything, runs to the continuation holding the inputs' as they were and the outputs' at the tile's
    Q, K and V of them: three loads, then per output one whole-buffer store of the body's own arithmetic. -/
theorem sound_kernel0 (c : Dev nD) (E : Set ℕ) (i : grid0.Coords)
    (a1 : Memref sig .tc .vmem S2048x512 .f32) (h1 : a1.IsWhole)
    (a2 : Memref sig .tc .vmem S512x64 .f32) (h2 : a2.IsWhole)
    (a3 : Memref sig .tc .vmem S512x64 .f32) (h3 : a3.IsWhole)
    (a4 : Memref sig .tc .vmem S512x64 .f32) (h4 : a4.IsWhole)
    (a5 : Memref sig .tc .vmem S2048x64 .f32) (h5 : a5.IsWhole)
    (a6 : Memref sig .tc .vmem S2048x64 .f32) (h6 : a6.IsWhole)
    (a7 : Memref sig .tc .vmem S2048x64 .bf16) (h7 : a7.IsWhole)
    (x : Vec F S2048x512 .f32) (wq wk wv : Vec F S512x64 .f32) (K : PUnit → sProp 𝕄) :
    iprop(owns (c : Thread nD τ) a1 fullShare x ∗ owns (c : Thread nD τ) a2 fullShare wq
        ∗ owns (c : Thread nD τ) a3 fullShare wk ∗ owns (c : Thread nD τ) a4 fullShare wv
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare wq
            ∗ owns (c : Thread nD τ) a3 fullShare wk ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__proj_kernel i a1 h1 a2 h2 a3 h3 a4 h4 a5 h5 a6 h6 a7 h7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole _ _ zeros2, readAt_whole _ _ zeros2, readAt_whole _ _ zeros2]; rfl
  isplitl [H6]
  · iexists _; isplitr
    swap; · iexact H6
    ipureintro
    rw [read_writes_whole _ _ zeros2, readAt_whole _ _ zeros2, readAt_whole _ _ zeros2]; rfl
  iexists _; isplitr
  swap; · iexact H7
  ipureintro
  rw [read_writes_whole _ _ zeros2, readAt_whole _ _ zeros2, readAt_whole _ _ zeros2]; rfl

/-! ## The body obligation, at a generic point -/

/-- What the body is called with at point `t`: the region invariant, the core's debt, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the projection kernel, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelR1.lean ====
/-
  Region 1 of the kernel's program: the attention call, on a grid of 8 query tiles by 8 key/value tiles
  (point t = 8·i + j), each tile 1024 rows. Three scratch buffers carry, for the current query tile, the running row
  maximum m, the running normalizer l and the running weighted sum acc across the key/value tiles: reset at j = 0,
  updated at every j by the online-softmax step, and at j = 7 the output tile acc / l is stored and written back.
  This module names the step as the body's own arithmetic (the skeleton's payloads), the carried state after every
  grid point, the region invariant holding the scratch buffers at that state, the proof data and the body obligation,
  at ANY contents `V` of the core's buffers at the region's entry.
-/
import proofs.«422835_j70282844832522_3_alg».proof.Proof.Gen.Kernel.Launch
import proofs.«422835_j70282844832522_3_alg».proof.Proof.Gen.Kernel.Skeleton
import proofs.«422835_j70282844832522_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the three scratch buffers carry for the current query tile: the running row maximum, the running
    normalizer and the running weighted sum. -/
abbrev Carry (F : FTy → Type) [FloatOps F] : Type := Vec F S1024x1 .f32 × Vec F S1024x1 .f32 × Vec F S1024x64 .f32

/-- The state a query tile starts from: maximum −∞, normalizer 0, sum 0. -/
def carry0 : Carry F := (k1_pay5, k1_pay6, k1_pay7)

/-- The new running maximum: the old one against the row maxima of this tile's scores. -/
def mStep (q k : Vec F S1024x64 .f32) (m : Vec F S1024x1 .f32) : Vec F S1024x1 .f32 := k1_pay3 (k1_pay10 q k m)
/-- The new normalizer: the old one rescaled by exp (m_old − m_new), plus the row sums of exp (s − m_new). -/
def lStep (q k : Vec F S1024x64 .f32) (m l : Vec F S1024x1 .f32) : Vec F S1024x1 .f32 :=
  k1_pay1 (k1_pay13 q k m m l) (k1_pay14 q k m)
/-- The new weighted sum: the old one rescaled the same way, plus exp (s − m_new) · v. -/
def accStep (q k : Vec F S1024x64 .f32) (v : Vec F S1024x64 .bf16) (m : Vec F S1024x1 .f32) (acc : Vec F S1024x64 .f32) :
    Vec F S1024x64 .f32 :=
  k1_pay2 (k1_pay8 v) (k1_pay11 q k m m) (k1_pay12 q k m) acc
/-- One online-softmax step of the carried state over a key/value tile. -/
def stepCarry (q k : Vec F S1024x64 .f32) (v : Vec F S1024x64 .bf16) (s : Carry F) : Carry F :=
  (mStep q k s.1, lStep q k s.1 s.2.1, accStep q k v s.1 s.2.2)
/-- The output tile of a finished query tile: the weighted sum over the normalizer. -/
def outFin (s : Carry F) : Vec F S1024x64 .f32 := k1_pay4 s.2.2 s.2.1

/-- The carried state after the body at position `n` of the grid: the step over that point's blocks, from the start
    state where a query tile begins (n a multiple of 8) and from what the point before left otherwise. -/
def scAt (c : Dev nD) : (n : ℕ) → n < cfg1.N → Carry F
  | 0, hn => stepCarry (iblk1 V c 0 ⟨0, hn⟩) (iblk1 V c 1 ⟨0, hn⟩) (iblk1 V c 2 ⟨0, hn⟩) carry0
  | n + 1, hn => stepCarry (iblk1 V c 0 ⟨n + 1, hn⟩) (iblk1 V c 1 ⟨n + 1, hn⟩) (iblk1 V c 2 ⟨n + 1, hn⟩)
      (if (n + 1) % 8 = 0 then carry0 else scAt c n (Nat.lt_of_succ_lt hn))

theorem scAt_first (c : Dev nD) (t : Fin cfg1.N) (h : t.val % 8 = 0) :
    scAt V c t.val t.isLt = stepCarry (iblk1 V c 0 t) (iblk1 V c 1 t) (iblk1 V c 2 t) carry0 := by
  obtain ⟨n, hn⟩ := t
  cases n with
  | zero => rfl
  | succ n => exact congrArg _ (if_pos h)

theorem scAt_next (c : Dev nD) (t : Fin cfg1.N) (h : ¬ t.val % 8 = 0) :
    scAt V c t.val t.isLt = stepCarry (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact congrArg _ (if_neg h)

/-- The three scratch operands, whole buffers. -/
abbrev scM0 : Memref sig .tc .vmem S1024x1 .f32 := Memref.whole cc1_scratch0
abbrev scM1 : Memref sig .tc .vmem S1024x1 .f32 := Memref.whole cc1_scratch1
abbrev scM2 : Memref sig .tc .vmem S1024x64 .f32 := Memref.whole cc1_scratch2

/-- The core's scoped buffers that are neither a staging buffer nor a scratch of this call (the projection call's
    staging buffers), each whole at some contents. -/
def stgRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region invariant before position `n`: before the first point whatever the launch hands the region (every
    scratch at anything); afterwards the scratch buffers at the carried state the point before left, the other scoped
    buffers at anything, and the generator register at some state. -/
def PhiS1 (c : Dev nD) : (n : ℕ) → n ≤ cfg1.N → sProp 𝕄
  | 0, _ => Pipeline.ΦA spec1 c
  | n + 1, hn => iprop(owns (c : Thread nD τ) scM0 fullShare (scAt V c n hn).1
      ∗ owns (c : Thread nD τ) scM1 fullShare (scAt V c n hn).2.1
      ∗ owns (c : Thread nD τ) scM2 fullShare (scAt V c n hn).2.2
      ∗ stgRest1 c ∗ (∃ r, prngReg c r))

/-- The proof data of the attention pipeline on core `c`: the arrays as the region finds them; after the body at
    point `t` each input's buffer at its block and the output's at the finished tile of the carried state; the region
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outFin (scAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outFin (scAt V c t.val t.isLt) := by dsimp only [dat1]

/-! ## Whole-rectangle stores and loads

Every store and load of the body goes through the rectangle of its buffer's whole shape at zero offsets: a load
through it reads the contents, a store through it, made last, leaves its payload whatever was stored before, and a
load after such a store reads that payload. -/

section Whole

variable {Val : EltTy → Type} [∀ e, Nonempty (Val e)] {sg : RefSig} {κ : Kind} {sp : Space} {S : Shape} {e : EltTy}

/-- The zero offsets of a rank-2 rectangle, however they are spelt. -/
private theorem hz2 : (![0, 0] : Fin 2 → Nat) = fun _ => 0 := funext fun a => by fin_cases a <;> rfl

/-- A load through the whole-shape rectangle reads the contents. -/
private theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- A store through the whole-shape rectangle, made last, leaves its payload. -/
private theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A load through it after one store through it reads the store's payload. -/
private theorem readCov_whole (v : View sg κ sp S e) {off : Fin S.rank → Nat} (h : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v h inb w

end Whole

/-! ## The body's triple, one per control case

The body branches twice on the key/value coordinate j of the grid point: at j = 0 it first stores the start state
into the three scratch buffers, and at j = 7 it finally divides the weighted sum by the normalizer into the output
tile. In between, always, it loads the query, key and value tiles and the carried state, and stores the stepped
state back. Each triple is over arbitrary whole memrefs. -/

/-- The condition of the first conditional of the body: the key/value tile is the first of its query tile. -/
abbrev cond1_0 (i : grid1.Coords) : Prop :=
  (Scalar.cmpi .ne (Scalar.extui (Scalar.cmpi .eq (BitVec.ofNat 32 (i 1).val) 0#32)) 0#32) = 1#1

set_option maxHeartbeats 1000000 in
/-- j = 0: whatever the scratch buffers held, they end at the step from the start state; the output tile's buffer
    is not touched. -/
theorem sound_kernel1_A (c : Dev nD) (E : Set ℕ) (i : grid1.Coords)
    (a2 : Memref sig .tc .vmem S1024x64 .f32) (h2 : a2.IsWhole)
    (a3 : Memref sig .tc .vmem S1024x64 .f32) (h3 : a3.IsWhole)
    (a4 : Memref sig .tc .vmem S1024x64 .bf16) (h4 : a4.IsWhole)
    (a5 : Memref sig .tc .vmem S1024x64 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x64 .f32) (h8 : a8.IsWhole)
    (hc1 : cond1_0 i) (hc2 : ¬ k1_cond2 i = 1#1)
    (q k : Vec F S1024x64 .f32) (v : Vec F S1024x64 .bf16) (o : Vec F S1024x64 .f32)
    (K : PUnit → sProp 𝕄) :
    iprop(owns (c : Thread nD τ) a2 fullShare q ∗ owns (c : Thread nD τ) a3 fullShare k
        ∗ owns (c : Thread nD τ) a4 fullShare v ∗ owns (c : Thread nD τ) a5 fullShare o
        ∗ (∃ d, owns (c : Thread nD τ) a6 fullShare d) ∗ (∃ d, owns (c : Thread nD τ) a7 fullShare d)
        ∗ (∃ d, owns (c : Thread nD τ) a8 fullShare d)
        ∗ (iprop(owns (c : Thread nD τ) a2 fullShare q ∗ owns (c : Thread nD τ) a3 fullShare k
            ∗ owns (c : Thread nD τ) a4 fullShare v ∗ owns (c : Thread nD τ) a5 fullShare o
            ∗ owns (c : Thread nD τ) a6 fullShare (stepCarry q k v carry0).1
            ∗ owns (c : Thread nD τ) a7 fullShare (stepCarry q k v carry0).2.1
            ∗ owns (c : Thread nD τ) a8 fullShare (stepCarry q k v carry0).2.2) -∗ K ⟨⟩))
      ⊢ wp frame (wpE (defs₀ (F := F)) Variants.none c none) E
          (cc1__attn_kernel i a2 h2 a3 h3 a4 h4 a5 h5 a6 h6 a7 h7 a8 h8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2; subst hf3; subst hf4; subst hf5
  sl_exec (disch := first | exact hc1 | exact hc2)
  sl_step
  iapply Hk
  isplitl [H2]
  · iexists f2; isplitr; · ipureintro; exact rfl
    iexact H2
  isplitl [H3]
  · iexists f3; isplitr; · ipureintro; exact rfl
    iexact H3
  isplitl [H4]
  · iexists f4; isplitr; · ipureintro; exact rfl
    iexact H4
  isplitl [H5]
  · iexists f5; isplitr; · ipureintro; exact rfl
    iexact H5
  -- each scratch buffer: the step's store, made last, over the reset; the loads after the reset read the start state
  isplitl [H6]
  · iexists _; isplitr
    swap; · iexact H6
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readCov_whole (Val := Elt F) (S := S1024x1) a6.view hz2]
    exact rfl
  isplitl [H7]
  · iexists _; isplitr
    swap; · iexact H7
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readCov_whole (Val := Elt F) (S := S1024x1) a6.view hz2, readCov_whole (Val := Elt F) (S := S1024x1) a7.view hz2]
    exact rfl
  · iexists _; isplitr
    swap; · iexact H8
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x64) a4.view f4 hz2,
      readCov_whole (Val := Elt F) (S := S1024x1) a6.view hz2, readCov_whole (Val := Elt F) (S := S1024x64) a8.view hz2]
    exact rfl

set_option maxHeartbeats 1000000 in
/-- 0 < j < 7: the scratch buffers go from a state to its step; the output tile's buffer is not touched. -/
theorem sound_kernel1_B (c : Dev nD) (E : Set ℕ) (i : grid1.Coords)
    (a2 : Memref sig .tc .vmem S1024x64 .f32) (h2 : a2.IsWhole)
    (a3 : Memref sig .tc .vmem S1024x64 .f32) (h3 : a3.IsWhole)
    (a4 : Memref sig .tc .vmem S1024x64 .bf16) (h4 : a4.IsWhole)
    (a5 : Memref sig .tc .vmem S1024x64 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x64 .f32) (h8 : a8.IsWhole)
    (hc1 : ¬ cond1_0 i) (hc2 : ¬ k1_cond2 i = 1#1)
    (q k : Vec F S1024x64 .f32) (v : Vec F S1024x64 .bf16) (s : Carry F) (o : Vec F S1024x64 .f32)
    (K : PUnit → sProp 𝕄) :
    iprop(owns (c : Thread nD τ) a2 fullShare q ∗ owns (c : Thread nD τ) a3 fullShare k
        ∗ owns (c : Thread nD τ) a4 fullShare v ∗ owns (c : Thread nD τ) a5 fullShare o
        ∗ owns (c : Thread nD τ) a6 fullShare s.1 ∗ owns (c : Thread nD τ) a7 fullShare s.2.1
        ∗ owns (c : Thread nD τ) a8 fullShare s.2.2
        ∗ (iprop(owns (c : Thread nD τ) a2 fullShare q ∗ owns (c : Thread nD τ) a3 fullShare k
            ∗ owns (c : Thread nD τ) a4 fullShare v ∗ owns (c : Thread nD τ) a5 fullShare o
            ∗ owns (c : Thread nD τ) a6 fullShare (stepCarry q k v s).1
            ∗ owns (c : Thread nD τ) a7 fullShare (stepCarry q k v s).2.1
            ∗ owns (c : Thread nD τ) a8 fullShare (stepCarry q k v s).2.2) -∗ K ⟨⟩))
      ⊢ wp frame (wpE (defs₀ (F := F)) Variants.none c none) E
          (cc1__attn_kernel i a2 h2 a3 h3 a4 h4 a5 h5 a6 h6 a7 h7 a8 h8) K := by
  obtain ⟨m, l, acc⟩ := s
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  have hf6 : View.read (Elt F) a6.view f6 = m := hf6
  have hf7 : View.read (Elt F) a7.view f7 = l := hf7
  have hf8 : View.read (Elt F) a8.view f8 = acc := hf8
  subst hf2; subst hf3; subst hf4; subst hf5; subst hf6; subst hf7; subst hf8
  sl_exec (disch := first | exact hc1 | exact hc2)
  sl_step
  iapply Hk
  isplitl [H2]
  · iexists f2; isplitr; · ipureintro; exact rfl
    iexact H2
  isplitl [H3]
  · iexists f3; isplitr; · ipureintro; exact rfl
    iexact H3
  isplitl [H4]
  · iexists f4; isplitr; · ipureintro; exact rfl
    iexact H4
  isplitl [H5]
  · iexists f5; isplitr; · ipureintro; exact rfl
    iexact H5
  -- each scratch buffer: one store through its whole rectangle, its payload over the loads of the state
  isplitl [H6]
  · iexists _; isplitr
    swap; · iexact H6
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2]
    exact rfl
  isplitl [H7]
  · iexists _; isplitr
    swap; · iexact H7
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2, readAt_whole (Val := Elt F) (S := S1024x1) a7.view f7 hz2]
    exact rfl
  · iexists _; isplitr
    swap; · iexact H8
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x64) a4.view f4 hz2,
      readAt_whole (Val := Elt F) (S := S1024x1) a6.view f6 hz2, readAt_whole (Val := Elt F) (S := S1024x64) a8.view f8 hz2]
    exact rfl

set_option maxHeartbeats 1000000 in
/-- j = 7: as in between, and the output tile's buffer, whatever it held, ends at the stepped state's weighted sum
    over its normalizer. -/
theorem sound_kernel1_C (c : Dev nD) (E : Set ℕ) (i : grid1.Coords)
    (a2 : Memref sig .tc .vmem S1024x64 .f32) (h2 : a2.IsWhole)
    (a3 : Memref sig .tc .vmem S1024x64 .f32) (h3 : a3.IsWhole)
    (a4 : Memref sig .tc .vmem S1024x64 .bf16) (h4 : a4.IsWhole)
    (a5 : Memref sig .tc .vmem S1024x64 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x64 .f32) (h8 : a8.IsWhole)
    (hc1 : ¬ cond1_0 i) (hc2 : k1_cond2 i = 1#1)
    (q k : Vec F S1024x64 .f32) (v : Vec F S1024x64 .bf16) (s : Carry F)
    (K : PUnit → sProp 𝕄) :
    iprop(owns (c : Thread nD τ) a2 fullShare q ∗ owns (c : Thread nD τ) a3 fullShare k
        ∗ owns (c : Thread nD τ) a4 fullShare v ∗ (∃ d, owns (c : Thread nD τ) a5 fullShare d)
        ∗ owns (c : Thread nD τ) a6 fullShare s.1 ∗ owns (c : Thread nD τ) a7 fullShare s.2.1
        ∗ owns (c : Thread nD τ) a8 fullShare s.2.2
        ∗ (iprop(owns (c : Thread nD τ) a2 fullShare q ∗ owns (c : Thread nD τ) a3 fullShare k
            ∗ owns (c : Thread nD τ) a4 fullShare v
            ∗ owns (c : Thread nD τ) a5 fullShare (outFin (stepCarry q k v s))
            ∗ owns (c : Thread nD τ) a6 fullShare (stepCarry q k v s).1
            ∗ owns (c : Thread nD τ) a7 fullShare (stepCarry q k v s).2.1
            ∗ owns (c : Thread nD τ) a8 fullShare (stepCarry q k v s).2.2) -∗ K ⟨⟩))
      ⊢ wp frame (wpE (defs₀ (F := F)) Variants.none c none) E
          (cc1__attn_kernel i a2 h2 a3 h3 a4 h4 a5 h5 a6 h6 a7 h7 a8 h8) K := by
  obtain ⟨m, l, acc⟩ := s
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  have hf6 : View.read (Elt F) a6.view f6 = m := hf6
  have hf7 : View.read (Elt F) a7.view f7 = l := hf7
  have hf8 : View.read (Elt F) a8.view f8 = acc := hf8
  subst hf2; subst hf3; subst hf4; subst hf6; subst hf7; subst hf8
  sl_exec (disch := first | exact hc1 | exact hc2)
  sl_step
  iapply Hk
  isplitl [H2]
  · iexists f2; isplitr; · ipureintro; exact rfl
    iexact H2
  isplitl [H3]
  · iexists f3; isplitr; · ipureintro; exact rfl
    iexact H3
  isplitl [H4]
  · iexists f4; isplitr; · ipureintro; exact rfl
    iexact H4
  -- the output tile: one store; the two loads before it read the stores just made into the scratch buffers
  isplitl [H5]
  · iexists _; isplitr
    swap; · iexact H5
    ipureintro
    refine (read_writes_whole _ _ hz2 _ _ _).trans ?_
    sl_unfold_words
    rw [readCov_whole (Val := Elt F) (S := S1024x64) a8.view hz2, readCov_whole (Val := Elt F) (S := S1024x1) a7.view hz2,
      readAt_whole (Val := Elt F) (S := S1024x64) a2.view f2 hz2, readAt_whole (Val := Elt F) (S := S1024x64) a3.view f3 hz2,
      readAt_whole (Val := Elt F) (S := S1024x64) a4.view f4 hz2,
      readAt_whole (Val := Elt F) (S := S1024x1) a6.view f6 hz2, readAt_whole (Val := Elt F) (S := S1024x1) a7.view f7 hz2,
      readAt_whole (Val := Elt F) (S := S1024x64) a8.view f8 hz2]
    exact rfl
  isplitl [H6]
  · iexists _; isplitr
    swap; · iexact H6
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2]
    exact rfl
  isplitl [H7]
  · iexists _; isplitr
    swap; · iexact H7
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2, readAt_whole (Val := Elt F) (S := S1024x1) a7.view f7 hz2]
    exact rfl
  · iexists _; isplitr
    swap; · iexact H8
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x64) a4.view f4 hz2,
      readAt_whole (Val := Elt F) (S := S1024x1) a6.view f6 hz2, readAt_whole (Val := Elt F) (S := S1024x64) a8.view f8 hz2]
    exact rfl

/-! ## The conditions, the idle window and the schedule, over the grid -/

/-- The first conditional is taken exactly at the points with j = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The last conditional is taken exactly at the points with j = 7. -/
theorem hcond1_2 : ∀ t : Fin cfg1.N, k1_cond2 (grid1.coords t) = 1#1 ↔ t.val % 8 = 7 :=
  (by decide +kernel : ∀ t : Fin grid1.N, k1_cond2 (grid1.coords t) = 1#1 ↔ t.val % 8 = 7)

/-- The three inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

/-- The output window is idle away from j = 7, -/
theorem idleAt1_3 : ∀ t : Fin cfg1.N, ¬ t.val % 8 = 7 → cfg1.idle 3 (grid1.coords t) = true :=
  (by decide +kernel : ∀ t : Fin grid1.N, ¬ t.val % 8 = 7 → idle1 3 (grid1.coords t) = true)
/-- live at j = 7, -/
theorem liveAt1_3 : ∀ t : Fin cfg1.N, t.val % 8 = 7 → cfg1.idle 3 (grid1.coords t) = false :=
  (by decide +kernel : ∀ t : Fin grid1.N, t.val % 8 = 7 → idle1 3 (grid1.coords t) = false)
/-- and not written back where it is idle. -/
theorem noFlush1_3 (t : Fin cfg1.N) (h : ¬ t.val % 8 = 7) : (cfg1.win 3).flush t = false :=
  Bool.eq_false_iff.mpr fun hf => h ((flush1_3 t).mp hf)

/-- Each window's current staging memref at point `t`, as the body is called with it. -/
abbrev ms1_0 (t : Fin cfg1.N) : Memref sig .tc .vmem S1024x64 .f32 := win1_0.stage (cfg1.slots t 0)
abbrev ms1_1 (t : Fin cfg1.N) : Memref sig .tc .vmem S1024x64 .f32 := win1_1.stage (cfg1.slots t 1)
abbrev ms1_2 (t : Fin cfg1.N) : Memref sig .tc .vmem S1024x64 .bf16 := win1_2.stage (cfg1.slots t 2)
abbrev ms1_3 (t : Fin cfg1.N) : Memref sig .tc .vmem S1024x64 .f32 := win1_3.stage (cfg1.slots t 3)

/-! ## The region invariant, point by point -/

theorem PhiS1_zero (c : Dev nD) (n : ℕ) (h : n ≤ cfg1.N) (hz : n = 0) : PhiS1 V c n h = Pipeline.ΦA spec1 c := by
  subst hz; rfl

/-- After point `n`: the scratch buffers at that point's carried state. -/
theorem PhiS1_succ (c : Dev nD) (n : ℕ) (hn : n < cfg1.N) :
    PhiS1 V c (n + 1) hn = iprop(owns (c : Thread nD τ) scM0 fullShare (scAt V c n hn).1
      ∗ owns (c : Thread nD τ) scM1 fullShare (scAt V c n hn).2.1
      ∗ owns (c : Thread nD τ) scM2 fullShare (scAt V c n hn).2.2
      ∗ stgRest1 c ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(owns (c : Thread nD τ) scM0 fullShare (scAt V c (n - 1) (by omega)).1
      ∗ owns (c : Thread nD τ) scM1 fullShare (scAt V c (n - 1) (by omega)).2.1
      ∗ owns (c : Thread nD τ) scM2 fullShare (scAt V c (n - 1) (by omega)).2.2
      ∗ stgRest1 c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region, taken apart: the three scratch buffers at anything, the other scoped buffers,
    the generator register. -/
theorem PhiA1_split (c : Dev nD) :
    (Pipeline.ΦA spec1 c : sProp 𝕄) ⊢ iprop((∃ d, owns (c : Thread nD τ) scM0 fullShare d)
      ∗ (∃ d, owns (c : Thread nD τ) scM1 fullShare d) ∗ (∃ d, owns (c : Thread nD τ) scM2 fullShare d)
      ∗ stgRest1 c ∗ (∃ r, prngReg c r)) := by
  unfold Pipeline.ΦA; rw [scopedRest1_eq]; unfold stgRest1; simp only [scM0, scM1, scM2, owns_whole]
  iintro ⟨⟨G0, G1, G2, G3, G4, G5, G6, G7, G8, G9, G10, S0, S1, S2⟩, Hg⟩
  isplitl [S0]; · iexact S0
  isplitl [S1]; · iexact S1
  isplitl [S2]; · iexact S2
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  iexact G10

/-- And put together again. -/
theorem PhiA1_join (c : Dev nD) :
    iprop((∃ d, owns (c : Thread nD τ) scM0 fullShare d)
      ∗ (∃ d, owns (c : Thread nD τ) scM1 fullShare d) ∗ (∃ d, owns (c : Thread nD τ) scM2 fullShare d)
      ∗ stgRest1 c ∗ (∃ r, prngReg c r)) ⊢ (Pipeline.ΦA spec1 c : sProp 𝕄) := by
  unfold Pipeline.ΦA; rw [scopedRest1_eq]; unfold stgRest1; simp only [scM0, scM1, scM2, owns_whole]
  iintro ⟨S0, S1, S2, ⟨G0, G1, G2, G3, G4, G5, G6, G7, G8, G9, G10⟩, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [S0]; · iexact S0
  isplitl [S1]; · iexact S1
  iexact S2

/-! ## What the body finds in each input window's buffer: the window's block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body must leave in an input's buffer: its block, as found. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- In the output's buffer at j = 7: the finished tile of the carried state. -/
theorem leaves1_3 (c : Dev nD) (t : Fin cfg1.N) (h7 : t.val % 8 = 7) :
    (dat1 V c).leavesExact 3 t = owns (c : Thread nD τ) (ms1_3 t) fullShare (outFin (scAt V c t.val t.isLt)) := by
  rw [show (dat1 V c).leavesExact 3 t = owns (c : Thread nD τ) (ms1_3 t) fullShare ((dat1 V c).after 3 t) from by
    unfold Dat.leavesExact; rw [liveAt1_3 t h7], after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The body at any point. The inputs' buffers hold their blocks; the point's position modulo 8 says which case it
    is in. At j = 0 the scratch buffers come at anything (from the launch at the very first point, from the query
    tile before otherwise) and go back at the step from the start state, which is the carried state there; at
    j > 0 they come at what the point before left and go back at its step. The output's buffer is handed back as
    found except at j = 7, where it goes back at the finished tile. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 8 = 0
  · have h7 : ¬ t.val % 8 = 7 := by omega
    rw [Dat.leavesExact_idle (dat1 V c) 3 t (idleAt1_3 t h7) (noFlush1_3 t h7)]
    rw [scAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨S0, S1, S2, HR, Hg⟩
      iapply (sound_kernel1_A c Set.univ (grid1.coords t) _ _ _ _ _ _ _ _ _ _ _ _ _ _
        ((hcond1_0 t).mpr h0) (fun h => h7 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨S0, S1, S2, HR, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _
        ((hcond1_0 t).mpr h0) (fun h => h7 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [S0]; · iexists _; iexact S0
      isplitl [S1]; · iexists _; iexact S1
      isplitl [S2]; · iexists _; iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [scAt_next V c t h0]
    rw [PhiS1_castSucc V c t, PhiS1_pos V c _ _ hz]
    by_cases h7 : t.val % 8 = 7
    · rw [leaves1_3 V c t h7, scAt_next V c t h0]
      iintro ⟨⟨S0, S1, S2, HR, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _
        (fun h => h0 ((hcond1_0 t).mp h)) ((hcond1_2 t).mpr h7) (iblk1 V c 0 t) (iblk1 V c 1 t) (iblk1 V c 2 t) _ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h7) (noFlush1_3 t h7)]
      iintro ⟨⟨S0, S1, S2, HR, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _
        (fun h => h0 ((hcond1_0 t).mp h)) (fun h => h7 ((hcond1_2 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexists _; iexact H3

/-- The library's body obligation for the attention kernel, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped rest and the generator register back: the scratch buffers'
    named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  iintro ⟨S0, S1, S2, HR, Hg⟩
  iapply (PhiA1_join c)
  isplitl [S0]; · iexists _; iexact S0
  isplitl [S1]; · iexists _; iexact S1
  isplitl [S2]; · iexists _; iexact S2
  isplitl [HR]; · iexact HR
  iexact Hg

end Cert.Kernel.Hand

end
-- ==== Proof.KernelRun.lean ====
/-
  The run of the kernel's program: @main is the projection call followed by the attention call, with no host
  operation between them. The core's unscoped buffers hold the launch memory when the first region is entered; what
  the projection's write-backs leave in the Q, K and V arrays (everything else unchanged) when the second is entered;
  and after it the result array at what the attention's write-backs leave. Every weakly fair execution terminates,
  the result array ends at that value and the four argument arrays end as launched.
-/
import proofs.«422835_j70282844832522_3_alg».proof.Proof.Gen.Kernel.Launch
import proofs.«422835_j70282844832522_3_alg».proof.Proof.Gen.Kernel.Skeleton
import proofs.«422835_j70282844832522_3_alg».proof.Proof.Gen.Kernel.Points
import proofs.«422835_j70282844832522_3_alg».proof.Proof.KernelR0
import proofs.«422835_j70282844832522_3_alg».proof.Proof.KernelR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch (the first region's entry). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- At the projection's exit (the attention's entry): its arrays at what the pipeline leaves (the inputs as entered,
    each output's write-backs folded), every other buffer as entered. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- At the attention's exit (the return): its arrays at what the pipeline leaves, every other buffer as entered. -/
def W2 (c : Dev nD) : Valuation τ sig (Elt F) :=
  Pipeline.withArrays spec1 c (W1 m c) fun w => (dat1 (V1 m) c).arrAt w cfg1.N
abbrev V2 : (c : Dev nD) → (b : Ref sig .tc) → Buf (Elt F) ((c : Thread nD τ).loc b) := fun c b => W2 m c b

/-! ### Reading the two folds: at an array of the region the fold gives what the write-backs leave, at any other
    buffer what the region was entered with -/

private theorem W1_at (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
private theorem W1_away (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
private theorem W2_at (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
private theorem W2_away (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-- The attention finds the Q array where the projection's write-backs left it, -/
theorem V1_main_v0_0 (c : Dev nD) : V1 m c main_v0_0 = (dat0 (V0 m) c).arrAt 4 cfg0.N := by
  exact W1_at m c 4
/-- the K array likewise, -/
theorem V1_main_v0_1 (c : Dev nD) : V1 m c main_v0_1 = (dat0 (V0 m) c).arrAt 5 cfg0.N := by
  exact W1_at m c 5
/-- and the V array. -/
theorem V1_main_v0_2 (c : Dev nD) : V1 m c main_v0_2 = (dat0 (V0 m) c).arrAt 6 cfg0.N := by
  exact W1_at m c 6

/-! ### An argument is an input window of the projection and no array of the attention, so both folds pass it by:
    it ends as launched -/

private theorem W2_main_arg0 (c : Dev nD) : W2 m c (Proc.devRef .tc main_arg0) = m ((c : Thread nD τ).loc main_arg0) :=
  (W2_away m c main_arg0 (by decide)).trans <| (W1_at m c 0).trans <|
    ((dat0 (V0 m) c).arrAt_in 0 rfl _).trans (A_eq0 (V0 m) c 0)
private theorem W2_main_arg1 (c : Dev nD) : W2 m c (Proc.devRef .tc main_arg1) = m ((c : Thread nD τ).loc main_arg1) :=
  (W2_away m c main_arg1 (by decide)).trans <| (W1_at m c 1).trans <|
    ((dat0 (V0 m) c).arrAt_in 1 rfl _).trans (A_eq0 (V0 m) c 1)
private theorem W2_main_arg2 (c : Dev nD) : W2 m c (Proc.devRef .tc main_arg2) = m ((c : Thread nD τ).loc main_arg2) :=
  (W2_away m c main_arg2 (by decide)).trans <| (W1_at m c 2).trans <|
    ((dat0 (V0 m) c).arrAt_in 2 rfl _).trans (A_eq0 (V0 m) c 2)
private theorem W2_main_arg3 (c : Dev nD) : W2 m c (Proc.devRef .tc main_arg3) = m ((c : Thread nD τ).loc main_arg3) :=
  (W2_away m c main_arg3 (by decide)).trans <| (W1_at m c 3).trans <|
    ((dat0 (V0 m) c).arrAt_in 3 rfl _).trans (A_eq0 (V0 m) c 3)

/-! ## The proof data family -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c

/-! ## The run -/

/-- No variant, no pair of cores that owe each other, hence no level. -/
private abbrev noVar : Variants := Variants.none
private abbrev noPairs : GSem nD τ sig → Finset Unit := fun _ => ∅
private abbrev lvl0 : GSem nD τ sig → Unit → ℕ := fun _ _ => 0

/-- What a core carries beside its unscoped buffers across both regions: its generator register, at some state, and
    the record that it owes nothing. -/
private abbrev ride (c : Dev nD) : sProp 𝕄 :=
  iprop((∃ r, prngReg c r) ∗ ∃ W, owes (c : Thread nD τ) (0 : CellTallies nD τ sig Unit) W)

/-- The last thread state but for the dues: every unscoped buffer at the attention's exit contents, the generator
    register at some state. -/
private abbrev endState (c : Dev nD) : sProp 𝕄 :=
  iprop(StableHlo.held (c : Thread nD τ) (Pipeline.ucRefs τ sig) (W2 m c) ∗ ∃ r, prngReg c r)

/-- Every array of the projection holds at its exit what the fold says, -/
private theorem exit0_arr (c : Dev nD) (w : Fin cfg0.W) :
    (dat0 (V0 m) c).arrAt w cfg0.N = V1 m c (Pipeline.arrRef spec0 w) := (W1_at m c w).symm
/-- and every other buffer what it held at launch. -/
private theorem exit0_rest (c : Dev nD) : ∀ b, b ∉ Finset.univ.image (Pipeline.arrRef spec0) → V1 m c b = V0 m c b :=
  fun b hb => W1_away m c b fun w e => hb (Finset.mem_image.mpr ⟨w, Finset.mem_univ _, e⟩)
/-- The same of the attention, against the projection's exit contents. -/
private theorem exit1_arr (c : Dev nD) (w : Fin cfg1.W) :
    (dat1 (V1 m) c).arrAt w cfg1.N = V2 m c (Pipeline.arrRef spec1 w) := (W2_at m c w).symm
private theorem exit1_rest (c : Dev nD) : ∀ b, b ∉ Finset.univ.image (Pipeline.arrRef spec1) → V2 m c b = V1 m c b :=
  fun b hb => W2_away m c b fun w e => hb (Finset.mem_image.mpr ⟨w, Finset.mem_univ _, e⟩)

set_option backward.isDefEq.respectTransparency.types false in
/-- THE PROJECTION as a segment of the run: entered with every unscoped buffer at the launch contents, left with them
    at `W1`. At entry its seven arrays are taken out of the unscoped buffers (the result array bypasses the region);
    the generator register goes into the pipeline's invariant beside the scoped buffers no window stages, and comes
    back out of it; at exit the arrays go back among the unscoped buffers at what the write-backs left. -/
private def seg0 : Pipeline.RegionSeg (pcfgs (F := F)) adm (pdats m) () defs₀ noVar noPairs lvl0 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ noPairs lvl0 0 fun _ _ => rfl
  pre c := iprop(StableHlo.held (c : Thread nD τ) (Pipeline.ucRefs τ sig) (W0 m c) ∗ ride c)
  post c := iprop(StableHlo.held (c : Thread nD τ) (Pipeline.ucRefs τ sig) (W1 m c) ∗ ride c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hcut := Pipeline.arrays_of_unscopedBufs (p := 0) (pcfgs (F := F)) adm (pdats m) launch0.win launch0.arr_whole c
      ((pdats m 0 c).share_full fun _ => rfl) (V0 m c) fun w => A_eq0 (V0 m) c w
    rw [Pipeline.unscopedBufs_held] at hcut
    iintro ⟨⟨Hbufs, Hgen, Hdue⟩, -, -⟩
    ihave Hparts := hcut $$ Hbufs
    icases Hparts with ⟨Harr, Hby⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hby
  hin c := by
    rw [show (pdats m 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdats m 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hglue := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exit0_arr m c) (exit0_rest m c)
    rw [Pipeline.unscopedBufs_held] at hglue
    iintro ⟨Harr, Hdue, Hgen, Hby⟩
    imodintro
    isplitl [Harr Hby]
    · iapply hglue; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- THE ATTENTION as a segment: entered with every unscoped buffer at `W1`, left with them at `W2`. Its four arrays
    are taken out and put back as the projection's were (the four arguments bypass it). Its invariant is not the bare
    scoped rest: the register and the scoped buffers no window stages make that (the class invariant), and the
    region's own entry law carries it to its invariant at the first point; at the last point its exit law gives the
    class invariant back, which splits again. -/
private def seg1 : Pipeline.RegionSeg (pcfgs (F := F)) adm (pdats m) () defs₀ noVar noPairs lvl0 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ noPairs lvl0 1 fun _ _ => rfl
  pre c := iprop(StableHlo.held (c : Thread nD τ) (Pipeline.ucRefs τ sig) (W1 m c) ∗ ride c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hcut := Pipeline.arrays_of_unscopedBufs (p := 1) (pcfgs (F := F)) adm (pdats m) launch1.win launch1.arr_whole c
      ((pdats m 1 c).share_full fun _ => rfl) (V1 m c) fun w => A_eq1 (V1 m) c w
    rw [Pipeline.unscopedBufs_held] at hcut
    iintro ⟨⟨Hbufs, Hgen, Hdue⟩, -, -⟩
    ihave Hparts := hcut $$ Hbufs
    icases Hparts with ⟨Harr, Hby⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hby
  hin c := by
    refine BIBase.Entails.trans ?_ (hin1 (V1 m) c)
    unfold Pipeline.ΦA
    iintro ⟨Hgen, -, Hsc⟩
    isplitl [Hsc]; · iexact Hsc
    iexact Hgen
  hout c := by
    rw [Pipeline.ownSems0_none]
    refine BIBase.Entails.trans (hout1 (V1 m) c) ?_
    unfold Pipeline.ΦA
    iintro ⟨Hsc, Hgen⟩
    isplitl [Hgen]; · iexact Hgen
    isplitr; · iempintro
    iexact Hsc
  hexit c := by
    have hglue := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (exit1_arr m c) (exit1_rest m c)
    rw [Pipeline.unscopedBufs_held] at hglue
    iintro ⟨Harr, Hdue, Hgen, Hby⟩
    imodintro
    isplitl [Harr Hby Hgen]
    · isplitl [Harr Hby]
      · iapply hglue; isplitl [Harr] <;> iassumption
      iexact Hgen
    unfold Pipeline.Dat.owesAt Pipeline.owesWithin
    icases Hdue with ⟨%W, -, Hdue⟩; iexists W; iexact Hdue

/-- An unscoped TensorCore reference is one of those the thread state holds. -/
private theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- At the compiled mesh, from any memory with zero counters: every weakly fair execution of @main terminates, nothing
    faulting, the result array ends at what the attention's write-backs leave of its proof data, and the four
    argument arrays end as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ noVar noPairs lvl0 m ρ main
    [.region (seg0 m), .region (seg1 m)]
    (fun c Q => by rw [main_segs adm (pdats m) () noVar noPairs lvl0 (seg0 m) (seg1 m) c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m c) ∗ ride c))
    (Tₙ := endState m)
    (hch := ⟨fun _ => .rfl, fun _ => .rfl, fun _ => .rfl⟩)
    (hinit := by
      refine Pipeline.initEach noPairs lvl0 fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = W2 m c b)
    (hfin := fun c s' => by
      iintro ⟨⟨Hbufs, -⟩, HSI⟩
      unfold StableHlo.held
      imodintro
      iapply (pointsTo_read_all (Pipeline.ucRefs τ sig) (fun b => (((c : Thread nD τ)).1, b)) (W2 m c) s')
      isplitl [Hbufs] <;> iassumption)
    (hQ := fun s h c =>
      ⟨(h c _ (held_ref main_v1 (by decide))).trans (W2_at m c 3),
       (h c _ (held_ref main_arg0 (by decide))).trans (W2_main_arg0 m c),
       (h c _ (held_ref main_arg1 (by decide))).trans (W2_main_arg1 m c),
       (h c _ (held_ref main_arg2 (by decide))).trans (W2_main_arg2 m c),
       (h c _ (held_ref main_arg3 (by decide))).trans (W2_main_arg3 m c)⟩)

end Cert.Kernel.Hand

end
-- ==== Proof.BitsClaims.lean ====
/-
  The word-level kernel's frame: the same two regions run to the end, nothing faults, and the four argument arrays end
  as launched — the run's statement read at the bit-exact instance, with what it says of the result array dropped.
-/
import proofs.«422835_j70282844832522_3_alg».proof.Defs
import proofs.«422835_j70282844832522_3_alg».proof.Proof.Gen.Kernel
import proofs.«422835_j70282844832522_3_alg».proof.Proof.Gen.Pre_finite_inputs
import proofs.«422835_j70282844832522_3_alg».proof.Proof.KernelRun

noncomputable section

namespace Cert.Proof.BitsClaims

open Idealize.ShloMosaic Idealize.ShloMosaic.TcCoe Idealize.SL.Sem

/-- The kernel as printed terminates without a fault and leaves its arguments as launched. -/
theorem frame_k : Cert.frame_Kernel := fun m ρ _ =>
  (θ_run Cert.Kernel.defs _ _).mono (fun _ h c => (h c).2) (Cert.Kernel.Hand.run_main (F := Bits) m ρ)

end Cert.Proof.BitsClaims

end
-- ==== Proof.R0.lean ====
/-
  Region 0 of the kernel's program: the projection call. On a grid of four row tiles of 2048 rows it
  reads a tile of the input and the three weight matrices whole, and writes the tile's rows of
  Q = (x · Wq) · (1/8), K = x · Wk and V = x · Wv. This module names what the body leaves in each output
  window's staging buffer as the body's own arithmetic (the skeleton's payloads) of the input blocks, proves the
  body's triple, and gives the region's proof data and body obligation at ANY contents `V` of the core's buffers
  at the region's entry.
-/
import proofs.«422835_j70282844832522_3_alg».proof.Proof.Gen.KernelIdeal.Launch
import proofs.«422835_j70282844832522_3_alg».proof.Proof.Gen.KernelIdeal.Skeleton
import proofs.«422835_j70282844832522_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of Q: the input tile times Wq, scaled by 1/8. -/
def outQ (x : Vec F S2048x512 .f32) (wq : Vec F S512x64 .f32) : Vec F S2048x64 .f32 := k0_pay1 x wq
/-- The tile of K: the input tile times Wk. -/
def outK (x : Vec F S2048x512 .f32) (wk : Vec F S512x64 .f32) : Vec F S2048x64 .f32 := k0_pay2 x wk
/-- The tile of V: the input tile times Wv (both rounded to bf16 on the way in, the product on the way out). -/
def outV (x : Vec F S2048x512 .f32) (wv : Vec F S512x64 .f32) : Vec F S2048x64 .bf16 := k0_pay3 x wv

/-- The proof data of the projection pipeline on core `c`: the arrays as the region finds them; after the body at
    point `t` each input's buffer at its block and the three outputs' at the tile's Q, K and V; the region
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

/-! ## What the body finds in each input window's buffer

An input window's body leaves its block in place, so at every point its current buffer holds the block the window's
index map names there, whether that point fetched it or not (an unfetched point's index has not moved). -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## Loads and stores through a whole buffer

Every access of the body is through the rectangle that is its buffer's whole shape at offset zero: a load through it
reads the contents, and one store through it leaves its payload whatever was there. -/

private theorem zeros2 : (![0, 0] : Fin 2 → ℕ) = fun _ => 0 := funext fun a => by fin_cases a <;> rfl

private theorem readAt_whole {κ : Kind} {sp : Space} {S : Shape} {e : EltTy} (v : View sig κ sp S e)
    (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

private theorem read_writes_whole {κ : Kind} {sp : Space} {S : Shape} {e : EltTy} (v : View sig κ sp S e)
    (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-! ## The body's triple -/

set_option maxHeartbeats 1000000 in
/-- The kernel body on whole staging memrefs, the four inputs' at read contents `x`, `wq`, `wk`, `wv` and the three
    outputs' at anything, runs to the continuation holding the inputs' as they were and the outputs' at the tile's
    Q, K and V of them: three loads, then per output one whole-buffer store of the body's own arithmetic. -/
theorem sound_kernel0 (c : Dev nD) (E : Set ℕ) (i : grid0.Coords)
    (a1 : Memref sig .tc .vmem S2048x512 .f32) (h1 : a1.IsWhole)
    (a2 : Memref sig .tc .vmem S512x64 .f32) (h2 : a2.IsWhole)
    (a3 : Memref sig .tc .vmem S512x64 .f32) (h3 : a3.IsWhole)
    (a4 : Memref sig .tc .vmem S512x64 .f32) (h4 : a4.IsWhole)
    (a5 : Memref sig .tc .vmem S2048x64 .f32) (h5 : a5.IsWhole)
    (a6 : Memref sig .tc .vmem S2048x64 .f32) (h6 : a6.IsWhole)
    (a7 : Memref sig .tc .vmem S2048x64 .bf16) (h7 : a7.IsWhole)
    (x : Vec F S2048x512 .f32) (wq wk wv : Vec F S512x64 .f32) (K : PUnit → sProp 𝕄) :
    iprop(owns (c : Thread nD τ) a1 fullShare x ∗ owns (c : Thread nD τ) a2 fullShare wq
        ∗ owns (c : Thread nD τ) a3 fullShare wk ∗ owns (c : Thread nD τ) a4 fullShare wv
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare wq
            ∗ owns (c : Thread nD τ) a3 fullShare wk ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__proj_kernel i a1 h1 a2 h2 a3 h3 a4 h4 a5 h5 a6 h6 a7 h7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole _ _ zeros2, readAt_whole _ _ zeros2, readAt_whole _ _ zeros2]; rfl
  isplitl [H6]
  · iexists _; isplitr
    swap; · iexact H6
    ipureintro
    rw [read_writes_whole _ _ zeros2, readAt_whole _ _ zeros2, readAt_whole _ _ zeros2]; rfl
  iexists _; isplitr
  swap; · iexact H7
  ipureintro
  rw [read_writes_whole _ _ zeros2, readAt_whole _ _ zeros2, readAt_whole _ _ zeros2]; rfl

/-! ## The body obligation, at a generic point -/

/-- What the body is called with at point `t`: the region invariant, the core's debt, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the projection kernel, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1.lean ====
/-
  Region 1 of the kernel's program: the attention call, on a grid of 8 query tiles by 8 key/value tiles
  (point t = 8·i + j), each tile 1024 rows. Three scratch buffers carry, for the current query tile, the running row
  maximum m, the running normalizer l and the running weighted sum acc across the key/value tiles: reset at j = 0,
  updated at every j by the online-softmax step, and at j = 7 the output tile acc / l is stored and written back.
  This module names the step as the body's own arithmetic (the skeleton's payloads), the carried state after every
  grid point, the region invariant holding the scratch buffers at that state, the proof data and the body obligation,
  at ANY contents `V` of the core's buffers at the region's entry.
-/
import proofs.«422835_j70282844832522_3_alg».proof.Proof.Gen.KernelIdeal.Launch
import proofs.«422835_j70282844832522_3_alg».proof.Proof.Gen.KernelIdeal.Skeleton
import proofs.«422835_j70282844832522_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the three scratch buffers carry for the current query tile: the running row maximum, the running
    normalizer and the running weighted sum. -/
abbrev Carry (F : FTy → Type) [FloatOps F] : Type := Vec F S1024x1 .f32 × Vec F S1024x1 .f32 × Vec F S1024x64 .f32

/-- The state a query tile starts from: maximum −∞, normalizer 0, sum 0. -/
def carry0 : Carry F := (k1_pay5, k1_pay6, k1_pay7)

/-- The new running maximum: the old one against the row maxima of this tile's scores. -/
def mStep (q k : Vec F S1024x64 .f32) (m : Vec F S1024x1 .f32) : Vec F S1024x1 .f32 := k1_pay3 (k1_pay10 q k m)
/-- The new normalizer: the old one rescaled by exp (m_old − m_new), plus the row sums of exp (s − m_new). -/
def lStep (q k : Vec F S1024x64 .f32) (m l : Vec F S1024x1 .f32) : Vec F S1024x1 .f32 :=
  k1_pay1 (k1_pay13 q k m m l) (k1_pay14 q k m)
/-- The new weighted sum: the old one rescaled the same way, plus exp (s − m_new) · v. -/
def accStep (q k : Vec F S1024x64 .f32) (v : Vec F S1024x64 .bf16) (m : Vec F S1024x1 .f32) (acc : Vec F S1024x64 .f32) :
    Vec F S1024x64 .f32 :=
  k1_pay2 (k1_pay8 v) (k1_pay11 q k m m) (k1_pay12 q k m) acc
/-- One online-softmax step of the carried state over a key/value tile. -/
def stepCarry (q k : Vec F S1024x64 .f32) (v : Vec F S1024x64 .bf16) (s : Carry F) : Carry F :=
  (mStep q k s.1, lStep q k s.1 s.2.1, accStep q k v s.1 s.2.2)
/-- The output tile of a finished query tile: the weighted sum over the normalizer. -/
def outFin (s : Carry F) : Vec F S1024x64 .f32 := k1_pay4 s.2.2 s.2.1

/-- The carried state after the body at position `n` of the grid: the step over that point's blocks, from the start
    state where a query tile begins (n a multiple of 8) and from what the point before left otherwise. -/
def scAt (c : Dev nD) : (n : ℕ) → n < cfg1.N → Carry F
  | 0, hn => stepCarry (iblk1 V c 0 ⟨0, hn⟩) (iblk1 V c 1 ⟨0, hn⟩) (iblk1 V c 2 ⟨0, hn⟩) carry0
  | n + 1, hn => stepCarry (iblk1 V c 0 ⟨n + 1, hn⟩) (iblk1 V c 1 ⟨n + 1, hn⟩) (iblk1 V c 2 ⟨n + 1, hn⟩)
      (if (n + 1) % 8 = 0 then carry0 else scAt c n (Nat.lt_of_succ_lt hn))

theorem scAt_first (c : Dev nD) (t : Fin cfg1.N) (h : t.val % 8 = 0) :
    scAt V c t.val t.isLt = stepCarry (iblk1 V c 0 t) (iblk1 V c 1 t) (iblk1 V c 2 t) carry0 := by
  obtain ⟨n, hn⟩ := t
  cases n with
  | zero => rfl
  | succ n => exact congrArg _ (if_pos h)

theorem scAt_next (c : Dev nD) (t : Fin cfg1.N) (h : ¬ t.val % 8 = 0) :
    scAt V c t.val t.isLt = stepCarry (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact congrArg _ (if_neg h)

/-- The three scratch operands, whole buffers. -/
abbrev scM0 : Memref sig .tc .vmem S1024x1 .f32 := Memref.whole cc1_scratch0
abbrev scM1 : Memref sig .tc .vmem S1024x1 .f32 := Memref.whole cc1_scratch1
abbrev scM2 : Memref sig .tc .vmem S1024x64 .f32 := Memref.whole cc1_scratch2

/-- The core's scoped buffers that are neither a staging buffer nor a scratch of this call (the projection call's
    staging buffers), each whole at some contents. -/
def stgRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region invariant before position `n`: before the first point whatever the launch hands the region (every
    scratch at anything); afterwards the scratch buffers at the carried state the point before left, the other scoped
    buffers at anything, and the generator register at some state. -/
def PhiS1 (c : Dev nD) : (n : ℕ) → n ≤ cfg1.N → sProp 𝕄
  | 0, _ => Pipeline.ΦA spec1 c
  | n + 1, hn => iprop(owns (c : Thread nD τ) scM0 fullShare (scAt V c n hn).1
      ∗ owns (c : Thread nD τ) scM1 fullShare (scAt V c n hn).2.1
      ∗ owns (c : Thread nD τ) scM2 fullShare (scAt V c n hn).2.2
      ∗ stgRest1 c ∗ (∃ r, prngReg c r))

/-- The proof data of the attention pipeline on core `c`: the arrays as the region finds them; after the body at
    point `t` each input's buffer at its block and the output's at the finished tile of the carried state; the region
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outFin (scAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outFin (scAt V c t.val t.isLt) := by dsimp only [dat1]

/-! ## Whole-rectangle stores and loads

Every store and load of the body goes through the rectangle of its buffer's whole shape at zero offsets: a load
through it reads the contents, a store through it, made last, leaves its payload whatever was stored before, and a
load after such a store reads that payload. -/

section Whole

variable {Val : EltTy → Type} [∀ e, Nonempty (Val e)] {sg : RefSig} {κ : Kind} {sp : Space} {S : Shape} {e : EltTy}

/-- The zero offsets of a rank-2 rectangle, however they are spelt. -/
private theorem hz2 : (![0, 0] : Fin 2 → Nat) = fun _ => 0 := funext fun a => by fin_cases a <;> rfl

/-- A load through the whole-shape rectangle reads the contents. -/
private theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- A store through the whole-shape rectangle, made last, leaves its payload. -/
private theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A load through it after one store through it reads the store's payload. -/
private theorem readCov_whole (v : View sg κ sp S e) {off : Fin S.rank → Nat} (h : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v h inb w

end Whole

/-! ## The body's triple, one per control case

The body branches twice on the key/value coordinate j of the grid point: at j = 0 it first stores the start state
into the three scratch buffers, and at j = 7 it finally divides the weighted sum by the normalizer into the output
tile. In between, always, it loads the query, key and value tiles and the carried state, and stores the stepped
state back. Each triple is over arbitrary whole memrefs. -/

/-- The condition of the first conditional of the body: the key/value tile is the first of its query tile. -/
abbrev cond1_0 (i : grid1.Coords) : Prop :=
  (Scalar.cmpi .ne (Scalar.extui (Scalar.cmpi .eq (BitVec.ofNat 32 (i 1).val) 0#32)) 0#32) = 1#1

set_option maxHeartbeats 1000000 in
/-- j = 0: whatever the scratch buffers held, they end at the step from the start state; the output tile's buffer
    is not touched. -/
theorem sound_kernel1_A (c : Dev nD) (E : Set ℕ) (i : grid1.Coords)
    (a2 : Memref sig .tc .vmem S1024x64 .f32) (h2 : a2.IsWhole)
    (a3 : Memref sig .tc .vmem S1024x64 .f32) (h3 : a3.IsWhole)
    (a4 : Memref sig .tc .vmem S1024x64 .bf16) (h4 : a4.IsWhole)
    (a5 : Memref sig .tc .vmem S1024x64 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x64 .f32) (h8 : a8.IsWhole)
    (hc1 : cond1_0 i) (hc2 : ¬ k1_cond2 i = 1#1)
    (q k : Vec F S1024x64 .f32) (v : Vec F S1024x64 .bf16) (o : Vec F S1024x64 .f32)
    (K : PUnit → sProp 𝕄) :
    iprop(owns (c : Thread nD τ) a2 fullShare q ∗ owns (c : Thread nD τ) a3 fullShare k
        ∗ owns (c : Thread nD τ) a4 fullShare v ∗ owns (c : Thread nD τ) a5 fullShare o
        ∗ (∃ d, owns (c : Thread nD τ) a6 fullShare d) ∗ (∃ d, owns (c : Thread nD τ) a7 fullShare d)
        ∗ (∃ d, owns (c : Thread nD τ) a8 fullShare d)
        ∗ (iprop(owns (c : Thread nD τ) a2 fullShare q ∗ owns (c : Thread nD τ) a3 fullShare k
            ∗ owns (c : Thread nD τ) a4 fullShare v ∗ owns (c : Thread nD τ) a5 fullShare o
            ∗ owns (c : Thread nD τ) a6 fullShare (stepCarry q k v carry0).1
            ∗ owns (c : Thread nD τ) a7 fullShare (stepCarry q k v carry0).2.1
            ∗ owns (c : Thread nD τ) a8 fullShare (stepCarry q k v carry0).2.2) -∗ K ⟨⟩))
      ⊢ wp frame (wpE (defs₀ (F := F)) Variants.none c none) E
          (cc1__attn_kernel i a2 h2 a3 h3 a4 h4 a5 h5 a6 h6 a7 h7 a8 h8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2; subst hf3; subst hf4; subst hf5
  sl_exec (disch := first | exact hc1 | exact hc2)
  sl_step
  iapply Hk
  isplitl [H2]
  · iexists f2; isplitr; · ipureintro; exact rfl
    iexact H2
  isplitl [H3]
  · iexists f3; isplitr; · ipureintro; exact rfl
    iexact H3
  isplitl [H4]
  · iexists f4; isplitr; · ipureintro; exact rfl
    iexact H4
  isplitl [H5]
  · iexists f5; isplitr; · ipureintro; exact rfl
    iexact H5
  -- each scratch buffer: the step's store, made last, over the reset; the loads after the reset read the start state
  isplitl [H6]
  · iexists _; isplitr
    swap; · iexact H6
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readCov_whole (Val := Elt F) (S := S1024x1) a6.view hz2]
    exact rfl
  isplitl [H7]
  · iexists _; isplitr
    swap; · iexact H7
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readCov_whole (Val := Elt F) (S := S1024x1) a6.view hz2, readCov_whole (Val := Elt F) (S := S1024x1) a7.view hz2]
    exact rfl
  · iexists _; isplitr
    swap; · iexact H8
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x64) a4.view f4 hz2,
      readCov_whole (Val := Elt F) (S := S1024x1) a6.view hz2, readCov_whole (Val := Elt F) (S := S1024x64) a8.view hz2]
    exact rfl

set_option maxHeartbeats 1000000 in
/-- 0 < j < 7: the scratch buffers go from a state to its step; the output tile's buffer is not touched. -/
theorem sound_kernel1_B (c : Dev nD) (E : Set ℕ) (i : grid1.Coords)
    (a2 : Memref sig .tc .vmem S1024x64 .f32) (h2 : a2.IsWhole)
    (a3 : Memref sig .tc .vmem S1024x64 .f32) (h3 : a3.IsWhole)
    (a4 : Memref sig .tc .vmem S1024x64 .bf16) (h4 : a4.IsWhole)
    (a5 : Memref sig .tc .vmem S1024x64 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x64 .f32) (h8 : a8.IsWhole)
    (hc1 : ¬ cond1_0 i) (hc2 : ¬ k1_cond2 i = 1#1)
    (q k : Vec F S1024x64 .f32) (v : Vec F S1024x64 .bf16) (s : Carry F) (o : Vec F S1024x64 .f32)
    (K : PUnit → sProp 𝕄) :
    iprop(owns (c : Thread nD τ) a2 fullShare q ∗ owns (c : Thread nD τ) a3 fullShare k
        ∗ owns (c : Thread nD τ) a4 fullShare v ∗ owns (c : Thread nD τ) a5 fullShare o
        ∗ owns (c : Thread nD τ) a6 fullShare s.1 ∗ owns (c : Thread nD τ) a7 fullShare s.2.1
        ∗ owns (c : Thread nD τ) a8 fullShare s.2.2
        ∗ (iprop(owns (c : Thread nD τ) a2 fullShare q ∗ owns (c : Thread nD τ) a3 fullShare k
            ∗ owns (c : Thread nD τ) a4 fullShare v ∗ owns (c : Thread nD τ) a5 fullShare o
            ∗ owns (c : Thread nD τ) a6 fullShare (stepCarry q k v s).1
            ∗ owns (c : Thread nD τ) a7 fullShare (stepCarry q k v s).2.1
            ∗ owns (c : Thread nD τ) a8 fullShare (stepCarry q k v s).2.2) -∗ K ⟨⟩))
      ⊢ wp frame (wpE (defs₀ (F := F)) Variants.none c none) E
          (cc1__attn_kernel i a2 h2 a3 h3 a4 h4 a5 h5 a6 h6 a7 h7 a8 h8) K := by
  obtain ⟨m, l, acc⟩ := s
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  have hf6 : View.read (Elt F) a6.view f6 = m := hf6
  have hf7 : View.read (Elt F) a7.view f7 = l := hf7
  have hf8 : View.read (Elt F) a8.view f8 = acc := hf8
  subst hf2; subst hf3; subst hf4; subst hf5; subst hf6; subst hf7; subst hf8
  sl_exec (disch := first | exact hc1 | exact hc2)
  sl_step
  iapply Hk
  isplitl [H2]
  · iexists f2; isplitr; · ipureintro; exact rfl
    iexact H2
  isplitl [H3]
  · iexists f3; isplitr; · ipureintro; exact rfl
    iexact H3
  isplitl [H4]
  · iexists f4; isplitr; · ipureintro; exact rfl
    iexact H4
  isplitl [H5]
  · iexists f5; isplitr; · ipureintro; exact rfl
    iexact H5
  -- each scratch buffer: one store through its whole rectangle, its payload over the loads of the state
  isplitl [H6]
  · iexists _; isplitr
    swap; · iexact H6
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2]
    exact rfl
  isplitl [H7]
  · iexists _; isplitr
    swap; · iexact H7
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2, readAt_whole (Val := Elt F) (S := S1024x1) a7.view f7 hz2]
    exact rfl
  · iexists _; isplitr
    swap; · iexact H8
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x64) a4.view f4 hz2,
      readAt_whole (Val := Elt F) (S := S1024x1) a6.view f6 hz2, readAt_whole (Val := Elt F) (S := S1024x64) a8.view f8 hz2]
    exact rfl

set_option maxHeartbeats 1000000 in
/-- j = 7: as in between, and the output tile's buffer, whatever it held, ends at the stepped state's weighted sum
    over its normalizer. -/
theorem sound_kernel1_C (c : Dev nD) (E : Set ℕ) (i : grid1.Coords)
    (a2 : Memref sig .tc .vmem S1024x64 .f32) (h2 : a2.IsWhole)
    (a3 : Memref sig .tc .vmem S1024x64 .f32) (h3 : a3.IsWhole)
    (a4 : Memref sig .tc .vmem S1024x64 .bf16) (h4 : a4.IsWhole)
    (a5 : Memref sig .tc .vmem S1024x64 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x64 .f32) (h8 : a8.IsWhole)
    (hc1 : ¬ cond1_0 i) (hc2 : k1_cond2 i = 1#1)
    (q k : Vec F S1024x64 .f32) (v : Vec F S1024x64 .bf16) (s : Carry F)
    (K : PUnit → sProp 𝕄) :
    iprop(owns (c : Thread nD τ) a2 fullShare q ∗ owns (c : Thread nD τ) a3 fullShare k
        ∗ owns (c : Thread nD τ) a4 fullShare v ∗ (∃ d, owns (c : Thread nD τ) a5 fullShare d)
        ∗ owns (c : Thread nD τ) a6 fullShare s.1 ∗ owns (c : Thread nD τ) a7 fullShare s.2.1
        ∗ owns (c : Thread nD τ) a8 fullShare s.2.2
        ∗ (iprop(owns (c : Thread nD τ) a2 fullShare q ∗ owns (c : Thread nD τ) a3 fullShare k
            ∗ owns (c : Thread nD τ) a4 fullShare v
            ∗ owns (c : Thread nD τ) a5 fullShare (outFin (stepCarry q k v s))
            ∗ owns (c : Thread nD τ) a6 fullShare (stepCarry q k v s).1
            ∗ owns (c : Thread nD τ) a7 fullShare (stepCarry q k v s).2.1
            ∗ owns (c : Thread nD τ) a8 fullShare (stepCarry q k v s).2.2) -∗ K ⟨⟩))
      ⊢ wp frame (wpE (defs₀ (F := F)) Variants.none c none) E
          (cc1__attn_kernel i a2 h2 a3 h3 a4 h4 a5 h5 a6 h6 a7 h7 a8 h8) K := by
  obtain ⟨m, l, acc⟩ := s
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  have hf6 : View.read (Elt F) a6.view f6 = m := hf6
  have hf7 : View.read (Elt F) a7.view f7 = l := hf7
  have hf8 : View.read (Elt F) a8.view f8 = acc := hf8
  subst hf2; subst hf3; subst hf4; subst hf6; subst hf7; subst hf8
  sl_exec (disch := first | exact hc1 | exact hc2)
  sl_step
  iapply Hk
  isplitl [H2]
  · iexists f2; isplitr; · ipureintro; exact rfl
    iexact H2
  isplitl [H3]
  · iexists f3; isplitr; · ipureintro; exact rfl
    iexact H3
  isplitl [H4]
  · iexists f4; isplitr; · ipureintro; exact rfl
    iexact H4
  -- the output tile: one store; the two loads before it read the stores just made into the scratch buffers
  isplitl [H5]
  · iexists _; isplitr
    swap; · iexact H5
    ipureintro
    refine (read_writes_whole _ _ hz2 _ _ _).trans ?_
    sl_unfold_words
    rw [readCov_whole (Val := Elt F) (S := S1024x64) a8.view hz2, readCov_whole (Val := Elt F) (S := S1024x1) a7.view hz2,
      readAt_whole (Val := Elt F) (S := S1024x64) a2.view f2 hz2, readAt_whole (Val := Elt F) (S := S1024x64) a3.view f3 hz2,
      readAt_whole (Val := Elt F) (S := S1024x64) a4.view f4 hz2,
      readAt_whole (Val := Elt F) (S := S1024x1) a6.view f6 hz2, readAt_whole (Val := Elt F) (S := S1024x1) a7.view f7 hz2,
      readAt_whole (Val := Elt F) (S := S1024x64) a8.view f8 hz2]
    exact rfl
  isplitl [H6]
  · iexists _; isplitr
    swap; · iexact H6
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2]
    exact rfl
  isplitl [H7]
  · iexists _; isplitr
    swap; · iexact H7
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x1) a6.view f6 hz2, readAt_whole (Val := Elt F) (S := S1024x1) a7.view f7 hz2]
    exact rfl
  · iexists _; isplitr
    swap; · iexact H8
    ipureintro
    refine (read_writes_whole _ _ hz2 _ _ _).trans ?_
    sl_unfold_words
    rw [readAt_whole (Val := Elt F) (S := S1024x64) a2.view f2 hz2, readAt_whole (Val := Elt F) (S := S1024x64) a3.view f3 hz2,
      readAt_whole (Val := Elt F) (S := S1024x64) a4.view f4 hz2,
      readAt_whole (Val := Elt F) (S := S1024x1) a6.view f6 hz2, readAt_whole (Val := Elt F) (S := S1024x64) a8.view f8 hz2]
    exact rfl

/-! ## The conditions, the idle window and the schedule, over the grid -/

/-- The first conditional is taken exactly at the points with j = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The last conditional is taken exactly at the points with j = 7. -/
theorem hcond1_2 : ∀ t : Fin cfg1.N, k1_cond2 (grid1.coords t) = 1#1 ↔ t.val % 8 = 7 :=
  (by decide +kernel : ∀ t : Fin grid1.N, k1_cond2 (grid1.coords t) = 1#1 ↔ t.val % 8 = 7)

/-- The three inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

/-- The output window is idle away from j = 7, -/
theorem idleAt1_3 : ∀ t : Fin cfg1.N, ¬ t.val % 8 = 7 → cfg1.idle 3 (grid1.coords t) = true :=
  (by decide +kernel : ∀ t : Fin grid1.N, ¬ t.val % 8 = 7 → idle1 3 (grid1.coords t) = true)
/-- live at j = 7, -/
theorem liveAt1_3 : ∀ t : Fin cfg1.N, t.val % 8 = 7 → cfg1.idle 3 (grid1.coords t) = false :=
  (by decide +kernel : ∀ t : Fin grid1.N, t.val % 8 = 7 → idle1 3 (grid1.coords t) = false)
/-- and not written back where it is idle. -/
theorem noFlush1_3 (t : Fin cfg1.N) (h : ¬ t.val % 8 = 7) : (cfg1.win 3).flush t = false :=
  Bool.eq_false_iff.mpr fun hf => h ((flush1_3 t).mp hf)

/-- Each window's current staging memref at point `t`, as the body is called with it. -/
abbrev ms1_0 (t : Fin cfg1.N) : Memref sig .tc .vmem S1024x64 .f32 := win1_0.stage (cfg1.slots t 0)
abbrev ms1_1 (t : Fin cfg1.N) : Memref sig .tc .vmem S1024x64 .f32 := win1_1.stage (cfg1.slots t 1)
abbrev ms1_2 (t : Fin cfg1.N) : Memref sig .tc .vmem S1024x64 .bf16 := win1_2.stage (cfg1.slots t 2)
abbrev ms1_3 (t : Fin cfg1.N) : Memref sig .tc .vmem S1024x64 .f32 := win1_3.stage (cfg1.slots t 3)

/-! ## The region invariant, point by point -/

theorem PhiS1_zero (c : Dev nD) (n : ℕ) (h : n ≤ cfg1.N) (hz : n = 0) : PhiS1 V c n h = Pipeline.ΦA spec1 c := by
  subst hz; rfl

/-- After point `n`: the scratch buffers at that point's carried state. -/
theorem PhiS1_succ (c : Dev nD) (n : ℕ) (hn : n < cfg1.N) :
    PhiS1 V c (n + 1) hn = iprop(owns (c : Thread nD τ) scM0 fullShare (scAt V c n hn).1
      ∗ owns (c : Thread nD τ) scM1 fullShare (scAt V c n hn).2.1
      ∗ owns (c : Thread nD τ) scM2 fullShare (scAt V c n hn).2.2
      ∗ stgRest1 c ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(owns (c : Thread nD τ) scM0 fullShare (scAt V c (n - 1) (by omega)).1
      ∗ owns (c : Thread nD τ) scM1 fullShare (scAt V c (n - 1) (by omega)).2.1
      ∗ owns (c : Thread nD τ) scM2 fullShare (scAt V c (n - 1) (by omega)).2.2
      ∗ stgRest1 c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region, taken apart: the three scratch buffers at anything, the other scoped buffers,
    the generator register. -/
theorem PhiA1_split (c : Dev nD) :
    (Pipeline.ΦA spec1 c : sProp 𝕄) ⊢ iprop((∃ d, owns (c : Thread nD τ) scM0 fullShare d)
      ∗ (∃ d, owns (c : Thread nD τ) scM1 fullShare d) ∗ (∃ d, owns (c : Thread nD τ) scM2 fullShare d)
      ∗ stgRest1 c ∗ (∃ r, prngReg c r)) := by
  unfold Pipeline.ΦA; rw [scopedRest1_eq]; unfold stgRest1; simp only [scM0, scM1, scM2, owns_whole]
  iintro ⟨⟨G0, G1, G2, G3, G4, G5, G6, G7, G8, G9, G10, S0, S1, S2⟩, Hg⟩
  isplitl [S0]; · iexact S0
  isplitl [S1]; · iexact S1
  isplitl [S2]; · iexact S2
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  iexact G10

/-- And put together again. -/
theorem PhiA1_join (c : Dev nD) :
    iprop((∃ d, owns (c : Thread nD τ) scM0 fullShare d)
      ∗ (∃ d, owns (c : Thread nD τ) scM1 fullShare d) ∗ (∃ d, owns (c : Thread nD τ) scM2 fullShare d)
      ∗ stgRest1 c ∗ (∃ r, prngReg c r)) ⊢ (Pipeline.ΦA spec1 c : sProp 𝕄) := by
  unfold Pipeline.ΦA; rw [scopedRest1_eq]; unfold stgRest1; simp only [scM0, scM1, scM2, owns_whole]
  iintro ⟨S0, S1, S2, ⟨G0, G1, G2, G3, G4, G5, G6, G7, G8, G9, G10⟩, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [S0]; · iexact S0
  isplitl [S1]; · iexact S1
  iexact S2

/-! ## What the body finds in each input window's buffer: the window's block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body must leave in an input's buffer: its block, as found. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- In the output's buffer at j = 7: the finished tile of the carried state. -/
theorem leaves1_3 (c : Dev nD) (t : Fin cfg1.N) (h7 : t.val % 8 = 7) :
    (dat1 V c).leavesExact 3 t = owns (c : Thread nD τ) (ms1_3 t) fullShare (outFin (scAt V c t.val t.isLt)) := by
  rw [show (dat1 V c).leavesExact 3 t = owns (c : Thread nD τ) (ms1_3 t) fullShare ((dat1 V c).after 3 t) from by
    unfold Dat.leavesExact; rw [liveAt1_3 t h7], after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The body at any point. The inputs' buffers hold their blocks; the point's position modulo 8 says which case it
    is in. At j = 0 the scratch buffers come at anything (from the launch at the very first point, from the query
    tile before otherwise) and go back at the step from the start state, which is the carried state there; at
    j > 0 they come at what the point before left and go back at its step. The output's buffer is handed back as
    found except at j = 7, where it goes back at the finished tile. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 8 = 0
  · have h7 : ¬ t.val % 8 = 7 := by omega
    rw [Dat.leavesExact_idle (dat1 V c) 3 t (idleAt1_3 t h7) (noFlush1_3 t h7)]
    rw [scAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨S0, S1, S2, HR, Hg⟩
      iapply (sound_kernel1_A c Set.univ (grid1.coords t) _ _ _ _ _ _ _ _ _ _ _ _ _ _
        ((hcond1_0 t).mpr h0) (fun h => h7 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨S0, S1, S2, HR, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _
        ((hcond1_0 t).mpr h0) (fun h => h7 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [S0]; · iexists _; iexact S0
      isplitl [S1]; · iexists _; iexact S1
      isplitl [S2]; · iexists _; iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [scAt_next V c t h0]
    rw [PhiS1_castSucc V c t, PhiS1_pos V c _ _ hz]
    by_cases h7 : t.val % 8 = 7
    · rw [leaves1_3 V c t h7, scAt_next V c t h0]
      iintro ⟨⟨S0, S1, S2, HR, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _
        (fun h => h0 ((hcond1_0 t).mp h)) ((hcond1_2 t).mpr h7) (iblk1 V c 0 t) (iblk1 V c 1 t) (iblk1 V c 2 t) _ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h7) (noFlush1_3 t h7)]
      iintro ⟨⟨S0, S1, S2, HR, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _
        (fun h => h0 ((hcond1_0 t).mp h)) (fun h => h7 ((hcond1_2 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0]; · iexact S0
        isplitl [S1]; · iexact S1
        isplitl [S2]; · iexact S2
        isplitl [HR]; · iexact HR
        iexact Hg
      isplitl [Ho]; · iexact Ho
      isplitl [H0]; · iexact H0
      isplitl [H1]; · iexact H1
      isplitl [H2]; · iexact H2
      iexists _; iexact H3

/-- The library's body obligation for the attention kernel, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped rest and the generator register back: the scratch buffers'
    named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  iintro ⟨S0, S1, S2, HR, Hg⟩
  iapply (PhiA1_join c)
  isplitl [S0]; · iexists _; iexact S0
  isplitl [S1]; · iexists _; iexact S1
  isplitl [S2]; · iexists _; iexact S2
  isplitl [HR]; · iexact HR
  iexact Hg

end Cert.KernelIdeal.Hand

end
-- ==== Proof.Run.lean ====
/-
  The run of the kernel's program: @main is the projection call followed by the attention call, with no host
  operation between them. The core's unscoped buffers hold the launch memory when the first region is entered; what
  the projection's write-backs leave in the Q, K and V arrays (everything else unchanged) when the second is entered;
  and after it the result array at what the attention's write-backs leave. Every weakly fair execution terminates,
  the result array ends at that value and the four argument arrays end as launched.
-/
import proofs.«422835_j70282844832522_3_alg».proof.Proof.Gen.KernelIdeal.Launch
import proofs.«422835_j70282844832522_3_alg».proof.Proof.Gen.KernelIdeal.Skeleton
import proofs.«422835_j70282844832522_3_alg».proof.Proof.Gen.KernelIdeal.Points
import proofs.«422835_j70282844832522_3_alg».proof.Proof.R0
import proofs.«422835_j70282844832522_3_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch (the first region's entry). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- At the projection's exit (the attention's entry): its arrays at what the pipeline leaves (the inputs as entered,
    each output's write-backs folded), every other buffer as entered. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- At the attention's exit (the return): its arrays at what the pipeline leaves, every other buffer as entered. -/
def W2 (c : Dev nD) : Valuation τ sig (Elt F) :=
  Pipeline.withArrays spec1 c (W1 m c) fun w => (dat1 (V1 m) c).arrAt w cfg1.N
abbrev V2 : (c : Dev nD) → (b : Ref sig .tc) → Buf (Elt F) ((c : Thread nD τ).loc b) := fun c b => W2 m c b

/-! ### Reading the two folds: at an array of the region the fold gives what the write-backs leave, at any other
    buffer what the region was entered with -/

private theorem W1_at (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
private theorem W1_away (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
private theorem W2_at (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
private theorem W2_away (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-- The attention finds the Q array where the projection's write-backs left it, -/
theorem V1_main_v0_0 (c : Dev nD) : V1 m c main_v0_0 = (dat0 (V0 m) c).arrAt 4 cfg0.N := by
  exact W1_at m c 4
/-- the K array likewise, -/
theorem V1_main_v0_1 (c : Dev nD) : V1 m c main_v0_1 = (dat0 (V0 m) c).arrAt 5 cfg0.N := by
  exact W1_at m c 5
/-- and the V array. -/
theorem V1_main_v0_2 (c : Dev nD) : V1 m c main_v0_2 = (dat0 (V0 m) c).arrAt 6 cfg0.N := by
  exact W1_at m c 6

/-! ### An argument is an input window of the projection and no array of the attention, so both folds pass it by:
    it ends as launched -/

private theorem W2_main_arg0 (c : Dev nD) : W2 m c (Proc.devRef .tc main_arg0) = m ((c : Thread nD τ).loc main_arg0) :=
  (W2_away m c main_arg0 (by decide)).trans <| (W1_at m c 0).trans <|
    ((dat0 (V0 m) c).arrAt_in 0 rfl _).trans (A_eq0 (V0 m) c 0)
private theorem W2_main_arg1 (c : Dev nD) : W2 m c (Proc.devRef .tc main_arg1) = m ((c : Thread nD τ).loc main_arg1) :=
  (W2_away m c main_arg1 (by decide)).trans <| (W1_at m c 1).trans <|
    ((dat0 (V0 m) c).arrAt_in 1 rfl _).trans (A_eq0 (V0 m) c 1)
private theorem W2_main_arg2 (c : Dev nD) : W2 m c (Proc.devRef .tc main_arg2) = m ((c : Thread nD τ).loc main_arg2) :=
  (W2_away m c main_arg2 (by decide)).trans <| (W1_at m c 2).trans <|
    ((dat0 (V0 m) c).arrAt_in 2 rfl _).trans (A_eq0 (V0 m) c 2)
private theorem W2_main_arg3 (c : Dev nD) : W2 m c (Proc.devRef .tc main_arg3) = m ((c : Thread nD τ).loc main_arg3) :=
  (W2_away m c main_arg3 (by decide)).trans <| (W1_at m c 3).trans <|
    ((dat0 (V0 m) c).arrAt_in 3 rfl _).trans (A_eq0 (V0 m) c 3)

/-! ## The proof data family -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c

/-! ## The run -/

/-- No variant, no pair of cores that owe each other, hence no level. -/
private abbrev noVar : Variants := Variants.none
private abbrev noPairs : GSem nD τ sig → Finset Unit := fun _ => ∅
private abbrev lvl0 : GSem nD τ sig → Unit → ℕ := fun _ _ => 0

/-- What a core carries beside its unscoped buffers across both regions: its generator register, at some state, and
    the record that it owes nothing. -/
private abbrev ride (c : Dev nD) : sProp 𝕄 :=
  iprop((∃ r, prngReg c r) ∗ ∃ W, owes (c : Thread nD τ) (0 : CellTallies nD τ sig Unit) W)

/-- The last thread state but for the dues: every unscoped buffer at the attention's exit contents, the generator
    register at some state. -/
private abbrev endState (c : Dev nD) : sProp 𝕄 :=
  iprop(StableHlo.held (c : Thread nD τ) (Pipeline.ucRefs τ sig) (W2 m c) ∗ ∃ r, prngReg c r)

/-- Every array of the projection holds at its exit what the fold says, -/
private theorem exit0_arr (c : Dev nD) (w : Fin cfg0.W) :
    (dat0 (V0 m) c).arrAt w cfg0.N = V1 m c (Pipeline.arrRef spec0 w) := (W1_at m c w).symm
/-- and every other buffer what it held at launch. -/
private theorem exit0_rest (c : Dev nD) : ∀ b, b ∉ Finset.univ.image (Pipeline.arrRef spec0) → V1 m c b = V0 m c b :=
  fun b hb => W1_away m c b fun w e => hb (Finset.mem_image.mpr ⟨w, Finset.mem_univ _, e⟩)
/-- The same of the attention, against the projection's exit contents. -/
private theorem exit1_arr (c : Dev nD) (w : Fin cfg1.W) :
    (dat1 (V1 m) c).arrAt w cfg1.N = V2 m c (Pipeline.arrRef spec1 w) := (W2_at m c w).symm
private theorem exit1_rest (c : Dev nD) : ∀ b, b ∉ Finset.univ.image (Pipeline.arrRef spec1) → V2 m c b = V1 m c b :=
  fun b hb => W2_away m c b fun w e => hb (Finset.mem_image.mpr ⟨w, Finset.mem_univ _, e⟩)

set_option backward.isDefEq.respectTransparency.types false in
/-- THE PROJECTION as a segment of the run: entered with every unscoped buffer at the launch contents, left with them
    at `W1`. At entry its seven arrays are taken out of the unscoped buffers (the result array bypasses the region);
    the generator register goes into the pipeline's invariant beside the scoped buffers no window stages, and comes
    back out of it; at exit the arrays go back among the unscoped buffers at what the write-backs left. -/
private def seg0 : Pipeline.RegionSeg (pcfgs (F := F)) adm (pdats m) () defs₀ noVar noPairs lvl0 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ noPairs lvl0 0 fun _ _ => rfl
  pre c := iprop(StableHlo.held (c : Thread nD τ) (Pipeline.ucRefs τ sig) (W0 m c) ∗ ride c)
  post c := iprop(StableHlo.held (c : Thread nD τ) (Pipeline.ucRefs τ sig) (W1 m c) ∗ ride c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hcut := Pipeline.arrays_of_unscopedBufs (p := 0) (pcfgs (F := F)) adm (pdats m) launch0.win launch0.arr_whole c
      ((pdats m 0 c).share_full fun _ => rfl) (V0 m c) fun w => A_eq0 (V0 m) c w
    rw [Pipeline.unscopedBufs_held] at hcut
    iintro ⟨⟨Hbufs, Hgen, Hdue⟩, -, -⟩
    ihave Hparts := hcut $$ Hbufs
    icases Hparts with ⟨Harr, Hby⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hby
  hin c := by
    rw [show (pdats m 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdats m 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hglue := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exit0_arr m c) (exit0_rest m c)
    rw [Pipeline.unscopedBufs_held] at hglue
    iintro ⟨Harr, Hdue, Hgen, Hby⟩
    imodintro
    isplitl [Harr Hby]
    · iapply hglue; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- THE ATTENTION as a segment: entered with every unscoped buffer at `W1`, left with them at `W2`. Its four arrays
    are taken out and put back as the projection's were (the four arguments bypass it). Its invariant is not the bare
    scoped rest: the register and the scoped buffers no window stages make that (the class invariant), and the
    region's own entry law carries it to its invariant at the first point; at the last point its exit law gives the
    class invariant back, which splits again. -/
private def seg1 : Pipeline.RegionSeg (pcfgs (F := F)) adm (pdats m) () defs₀ noVar noPairs lvl0 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ noPairs lvl0 1 fun _ _ => rfl
  pre c := iprop(StableHlo.held (c : Thread nD τ) (Pipeline.ucRefs τ sig) (W1 m c) ∗ ride c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hcut := Pipeline.arrays_of_unscopedBufs (p := 1) (pcfgs (F := F)) adm (pdats m) launch1.win launch1.arr_whole c
      ((pdats m 1 c).share_full fun _ => rfl) (V1 m c) fun w => A_eq1 (V1 m) c w
    rw [Pipeline.unscopedBufs_held] at hcut
    iintro ⟨⟨Hbufs, Hgen, Hdue⟩, -, -⟩
    ihave Hparts := hcut $$ Hbufs
    icases Hparts with ⟨Harr, Hby⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hby
  hin c := by
    refine BIBase.Entails.trans ?_ (hin1 (V1 m) c)
    unfold Pipeline.ΦA
    iintro ⟨Hgen, -, Hsc⟩
    isplitl [Hsc]; · iexact Hsc
    iexact Hgen
  hout c := by
    rw [Pipeline.ownSems0_none]
    refine BIBase.Entails.trans (hout1 (V1 m) c) ?_
    unfold Pipeline.ΦA
    iintro ⟨Hsc, Hgen⟩
    isplitl [Hgen]; · iexact Hgen
    isplitr; · iempintro
    iexact Hsc
  hexit c := by
    have hglue := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (exit1_arr m c) (exit1_rest m c)
    rw [Pipeline.unscopedBufs_held] at hglue
    iintro ⟨Harr, Hdue, Hgen, Hby⟩
    imodintro
    isplitl [Harr Hby Hgen]
    · isplitl [Harr Hby]
      · iapply hglue; isplitl [Harr] <;> iassumption
      iexact Hgen
    unfold Pipeline.Dat.owesAt Pipeline.owesWithin
    icases Hdue with ⟨%W, -, Hdue⟩; iexists W; iexact Hdue

/-- An unscoped TensorCore reference is one of those the thread state holds. -/
private theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- At the compiled mesh, from any memory with zero counters: every weakly fair execution of @main terminates, nothing
    faulting, the result array ends at what the attention's write-backs leave of its proof data, and the four
    argument arrays end as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ noVar noPairs lvl0 m ρ main
    [.region (seg0 m), .region (seg1 m)]
    (fun c Q => by rw [main_segs adm (pdats m) () noVar noPairs lvl0 (seg0 m) (seg1 m) c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m c) ∗ ride c))
    (Tₙ := endState m)
    (hch := ⟨fun _ => .rfl, fun _ => .rfl, fun _ => .rfl⟩)
    (hinit := by
      refine Pipeline.initEach noPairs lvl0 fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = W2 m c b)
    (hfin := fun c s' => by
      iintro ⟨⟨Hbufs, -⟩, HSI⟩
      unfold StableHlo.held
      imodintro
      iapply (pointsTo_read_all (Pipeline.ucRefs τ sig) (fun b => (((c : Thread nD τ)).1, b)) (W2 m c) s')
      isplitl [Hbufs] <;> iassumption)
    (hQ := fun s h c =>
      ⟨(h c _ (held_ref main_v1 (by decide))).trans (W2_at m c 3),
       (h c _ (held_ref main_arg0 (by decide))).trans (W2_main_arg0 m c),
       (h c _ (held_ref main_arg1 (by decide))).trans (W2_main_arg1 m c),
       (h c _ (held_ref main_arg2 (by decide))).trans (W2_main_arg2 m c),
       (h c _ (held_ref main_arg3 (by decide))).trans (W2_main_arg3 m c)⟩)

end Cert.KernelIdeal.Hand

end
-- ==== Proof.Spec.lean ====
/-
  The mathematics both programs are compared through, over the extended reals, on plain finite index types.

  Arrays are read as curried functions (`cur`). `proj x w` is a matrix product. The kernel's logits are computed
  from Q = (x·Wq)·c and K = x·Wk as a three-term sum (`scoreK`: q·k + q·(k − k) + (q − q)·k, the two correction
  terms vanishing on finite entries). For one output row the kernel folds the 8192 columns in 8 blocks of 1024,
  carrying a running maximum, normalizer and weighted sum (`rowStep`, `rowOnline`), and divides at the end
  (`attnOnline`). The reference takes the row maximum and the normalizer over all 8192 columns at once and sums the
  normalized weights against the values (`attnRef`).
-/
import Idealize.ShloMosaic.PureOps.Ideal
import Idealize.ShloMosaic.Lib.ValueIdx

noncomputable section

namespace Cert.Spec

open Idealize.ShloMosaic Idealize.ShloMosaic.ValueIdx

/-- A rank-2 array as a curried function of its two coordinates. -/
def cur {a b : Nat} (A : (⟨2, ![a, b]⟩ : Shape).Idx → EReal) : Fin a → Fin b → EReal := fun i j => A (ix2 i j)
/-- And back. -/
def uncur {a b : Nat} (f : Fin a → Fin b → EReal) : (⟨2, ![a, b]⟩ : Shape).Idx → EReal := fun i => f (i 0) (i 1)

theorem uncur_ix2 {a b : Nat} (f : Fin a → Fin b → EReal) (i : Fin a) (j : Fin b) : uncur f (ix2 i j) = f i j := rfl

/-- The float constants the two programs spell, as the extended reals their patterns denote. -/
abbrev cEighth : EReal := Ideal.ofBits .f32 0x3E000000#32   -- 0.125
abbrev cEight : EReal := Ideal.ofBits .f32 0x41000000#32    -- 8.0
abbrev cNegInf : EReal := Ideal.ofBits .f32 0xFF800000#32   -- −∞
abbrev cZero : EReal := Ideal.ofBits .f32 0x00000000#32     -- 0

/-- A matrix product [n,512] · [512,64]. -/
def proj {n : Nat} (x : Fin n → Fin 512 → EReal) (w : Fin 512 → Fin 64 → EReal) : Fin n → Fin 64 → EReal :=
  fun r d => ∑ k : Fin 512, x r k * w k d

/-- The kernel's Q: the projection scaled by the constant 0.125. -/
def projQ {n : Nat} (x : Fin n → Fin 512 → EReal) (wq : Fin 512 → Fin 64 → EReal) : Fin n → Fin 64 → EReal :=
  fun r d => proj x wq r d * cEighth

/-- The kernel's logit of query row `r` against key row `c`: the product of the rows and the two split-precision
    correction terms. -/
def scoreK (Q K : Fin 8192 → Fin 64 → EReal) (r c : Fin 8192) : EReal :=
  ((∑ d : Fin 64, Q r d * K c d) + ∑ d : Fin 64, Q r d * (K c d - K c d)) + ∑ d : Fin 64, (Q r d - Q r d) * K c d

/-- Column `c'` of block `j` (blocks of 1024 columns). -/
def col (j : ℕ) (c' : Fin 1024) : Fin 8192 := ⟨(1024 * j + c'.val) % 8192, Nat.mod_lt _ (by decide)⟩

/-- What one output row carries across the column blocks. -/
structure RowSt where
  m : EReal
  l : EReal
  acc : Fin 64 → EReal

/-- The start: maximum −∞, normalizer 0, sum 0. -/
def rowInit : RowSt := ⟨cNegInf, cZero, fun _ => cZero⟩

/-- One online-softmax step over a block of 1024 logits `s` and value rows `v`. -/
def rowStep (s : Fin 1024 → EReal) (v : Fin 1024 → Fin 64 → EReal) (st : RowSt) : RowSt :=
  let mn := max st.m ((Finset.univ : Finset (Fin 1024)).fold max cNegInf s)
  let a := Ideal.exp (st.m - mn)
  { m := mn
    l := a * st.l + ∑ c : Fin 1024, Ideal.exp (s c - mn)
    acc := fun d => a * st.acc d + ∑ c : Fin 1024, Ideal.exp (s c - mn) * v c d }

/-- The carried state of a row after blocks 0..j. -/
def rowOnline (s : Fin 8192 → EReal) (v : Fin 8192 → Fin 64 → EReal) : ℕ → RowSt
  | 0 => rowStep (fun c' => s (col 0 c')) (fun c' => v (col 0 c')) rowInit
  | j + 1 => rowStep (fun c' => s (col (j + 1) c')) (fun c' => v (col (j + 1) c')) (rowOnline s v j)

/-- The kernel's attention output from the arrays Q, K, V its second call finds. -/
def attnOnline (Q K V : Fin 8192 → Fin 64 → EReal) : Fin 8192 → Fin 64 → EReal :=
  fun r d => Ideal.div ((rowOnline (scoreK Q K r) V 7).acc d) ((rowOnline (scoreK Q K r) V 7).l)

/-- The kernel's whole result from its four arguments. -/
def kernelOut (x : Fin 8192 → Fin 512 → EReal) (wq wk wv : Fin 512 → Fin 64 → EReal) : Fin 8192 → Fin 64 → EReal :=
  attnOnline (projQ x wq) (proj x wk) (proj x wv)

/-- The reference's scaled logits. -/
def scoreR (x : Fin 8192 → Fin 512 → EReal) (wq wk : Fin 512 → Fin 64 → EReal) (r c : Fin 8192) : EReal :=
  Ideal.div (∑ d : Fin 64, proj x wq r d * proj x wk c d) cEight
/-- Their row maximum, as the reference takes it (against −∞ once more). -/
def maxR (s : Fin 8192 → EReal) : EReal := max cNegInf ((Finset.univ : Finset (Fin 8192)).fold max cNegInf s)
/-- The row's normalizer. -/
def sumR (s : Fin 8192 → EReal) : EReal := cZero + ∑ c : Fin 8192, Ideal.exp (s c - maxR s)
/-- The reference's result: softmax weights against the values. -/
def attnRef (x : Fin 8192 → Fin 512 → EReal) (wq wk wv : Fin 512 → Fin 64 → EReal) : Fin 8192 → Fin 64 → EReal :=
  fun r d => ∑ c : Fin 8192, Ideal.div (Ideal.exp (scoreR x wq wk r c - maxR (scoreR x wq wk r))) (sumR (scoreR x wq wk r)) * proj x wv c d

end Cert.Spec

end
-- ==== Proof.ProjValue.lean ====
/-
  What the projection call leaves in its three output arrays, at the extended reals: every grid point writes its
  2048-row tile, the four tiles cover the arrays, and a tile's entry is the matrix product's entry (scaled by the
  constant 0.125 for Q). So the arrays end at `Spec.projQ`, `Spec.proj`, `Spec.proj` of the arrays the region found.
-/
import proofs.«422835_j70282844832522_3_alg».proof.Proof.R0
import proofs.«422835_j70282844832522_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

-- the core's buffer contents when the region is entered, at the extended reals
variable (V : (c : Dev nD) → (b : Ref sig .tc) → Buf (Elt Ideal) ((c : Thread nD τ).loc b))

/-! ## The tile's matrix product at an index

The body's product contracts axis 1 of the left operand against axis 0 of the right, with no batch axis: at the output
index (p, q) and contraction coordinate k the operands are read at (p, k) and (k, q). -/

private theorem lhs_axis0 (i : S2048x64.Idx) (u : dot_S2048x512_S512x64_S2048x64_1_0_0_1_n_n.contr.Idx) :
    (dot_S2048x512_S512x64_S2048x64_1_0_0_1_n_n.lhsIdx i u 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
private theorem lhs_axis1 (i : S2048x64.Idx) (u : dot_S2048x512_S512x64_S2048x64_1_0_0_1_n_n.contr.Idx) :
    (dot_S2048x512_S512x64_S2048x64_1_0_0_1_n_n.lhsIdx i u 1).val = (u ⟨0, by decide⟩).val :=
  dot_S2048x512_S512x64_S2048x64_1_0_0_1_n_n.lhsIdx_val_of_single rfl i u
private theorem rhs_axis0 (i : S2048x64.Idx) (u : dot_S2048x512_S512x64_S2048x64_1_0_0_1_n_n.contr.Idx) :
    (dot_S2048x512_S512x64_S2048x64_1_0_0_1_n_n.rhsIdx i u 0).val = (u ⟨0, by decide⟩).val :=
  dot_S2048x512_S512x64_S2048x64_1_0_0_1_n_n.rhsIdx_val_of_single rfl i u
private theorem rhs_axis1 (i : S2048x64.Idx) (u : dot_S2048x512_S512x64_S2048x64_1_0_0_1_n_n.contr.Idx) :
    (dot_S2048x512_S512x64_S2048x64_1_0_0_1_n_n.rhsIdx i u 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The product into the zero accumulator, at (p, q): the sum over the 512 contraction coordinates. -/
private theorem tileProduct_apply {φ₁ φ₂ : FTy} (prec : Option ContractPrecision) (x : FVec Ideal S2048x512 φ₁) (w : FVec Ideal S512x64 φ₂)
    (p : Fin 2048) (q : Fin 64) :
    matmul dot_S2048x512_S512x64_S2048x64_1_0_0_1_n_n prec x w (constant (F := Ideal) S2048x64 .f32 0x00000000#32) (ix2 p q)
      = ∑ k : Fin 512, x (ix2 p k) * w (ix2 k q) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 p q) ((contrEquiv1 dot_S2048x512_S512x64_S2048x64_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2048x512_S512x64_S2048x64_1_0_0_1_n_n.rhsIdx (ix2 p q) ((contrEquiv1 dot_S2048x512_S512x64_S2048x64_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The K tile at (p, q): row p of the input tile against column q of the weights. -/
private theorem outK_apply (x : Vec Ideal S2048x512 .f32) (w : Vec Ideal S512x64 .f32) (p : Fin 2048) (q : Fin 64) :
    outK x w (ix2 p q) = ∑ k : Fin 512, x (ix2 p k) * w (ix2 k q) := by
  unfold outK k0_pay2
  exact tileProduct_apply _ x w p q

/-- The Q tile at (p, q): the same product, times the constant. -/
private theorem outQ_apply (x : Vec Ideal S2048x512 .f32) (w : Vec Ideal S512x64 .f32) (p : Fin 2048) (q : Fin 64) :
    outQ x w (ix2 p q) = (∑ k : Fin 512, x (ix2 p k) * w (ix2 k q)) * Spec.cEighth := by
  unfold outQ k0_pay1
  show (matmul dot_S2048x512_S512x64_S2048x64_1_0_0_1_n_n (some .fp32) x w (constant (F := Ideal) S2048x64 .f32 0x00000000#32) (ix2 p q)) * _ = _
  rw [tileProduct_apply]
  rfl

/-- The V tile at (p, q): the format changes are the identity on extended reals, so again the product. -/
private theorem outV_apply (x : Vec Ideal S2048x512 .f32) (w : Vec Ideal S512x64 .f32) (p : Fin 2048) (q : Fin 64) :
    outV x w (ix2 p q) = ∑ k : Fin 512, x (ix2 p k) * w (ix2 k q) := by
  unfold outV k0_pay3
  show (matmul dot_S2048x512_S512x64_S2048x64_1_0_0_1_n_n none (truncf .bf16 x bitsLt_bf16_f32) (truncf .bf16 w bitsLt_bf16_f32) (constant (F := Ideal) S2048x64 .f32 0x00000000#32) (ix2 p q)) = _
  rw [tileProduct_apply]
  rfl

/-! ## The grid's index maps

At each of the four points the input tile and the three output tiles are row tile `t` (block index `(t, 0)`),
and the three weight matrices are read whole at every point (block index `(0, 0)`). -/

private theorem tile_index : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as entries of the arrays -/

/-- Entry (p, k) of the input tile at point `t` is entry (2048·t + p, k) of the input array. -/
private theorem inputTile_apply (c : Dev nD) (t : Fin cfg0.N) (p : Fin 2048) (k : Fin 512) (r : Fin 8192) (hr : r.val = 2048 * t.val + p.val) :
    (iblk0 V c 0 t : Vec Ideal S2048x512 .f32) (ix2 p k) = (V c main_arg0 : S8192x512.Idx → EReal) (ix2 r k) := by
  obtain ⟨e0, e1, -⟩ := tile_index t
  show V c main_arg0 (((cfg0.win 0).blk t).view.emb (ix2 p k)) = V c main_arg0 (ix2 r k)
  congr 1
  funext a; apply Fin.ext
  match a with
  | ⟨0, _⟩ => show win0_0.index t (0 : Fin 2) * 2048 + 1 * p.val = r.val; omega
  | ⟨1, _⟩ => show win0_0.index t (1 : Fin 2) * 512 + 1 * k.val = k.val; omega

/-- The Q weights' block at any point is the whole matrix. -/
private theorem wqBlock_apply (c : Dev nD) (t : Fin cfg0.N) (k : Fin 512) (q : Fin 64) :
    (iblk0 V c 1 t : Vec Ideal S512x64 .f32) (ix2 k q) = (V c main_arg1 : S512x64.Idx → EReal) (ix2 k q) := by
  obtain ⟨-, -, e0, e1, -⟩ := tile_index t
  show V c main_arg1 (((cfg0.win 1).blk t).view.emb (ix2 k q)) = V c main_arg1 (ix2 k q)
  congr 1
  funext a; apply Fin.ext
  match a with
  | ⟨0, _⟩ => show win0_1.index t (0 : Fin 2) * 512 + 1 * k.val = k.val; omega
  | ⟨1, _⟩ => show win0_1.index t (1 : Fin 2) * 64 + 1 * q.val = q.val; omega

/-- The K weights' block at any point is the whole matrix. -/
private theorem wkBlock_apply (c : Dev nD) (t : Fin cfg0.N) (k : Fin 512) (q : Fin 64) :
    (iblk0 V c 2 t : Vec Ideal S512x64 .f32) (ix2 k q) = (V c main_arg2 : S512x64.Idx → EReal) (ix2 k q) := by
  obtain ⟨-, -, -, -, e0, e1, -⟩ := tile_index t
  show V c main_arg2 (((cfg0.win 2).blk t).view.emb (ix2 k q)) = V c main_arg2 (ix2 k q)
  congr 1
  funext a; apply Fin.ext
  match a with
  | ⟨0, _⟩ => show win0_2.index t (0 : Fin 2) * 512 + 1 * k.val = k.val; omega
  | ⟨1, _⟩ => show win0_2.index t (1 : Fin 2) * 64 + 1 * q.val = q.val; omega

/-- The V weights' block at any point is the whole matrix. -/
private theorem wvBlock_apply (c : Dev nD) (t : Fin cfg0.N) (k : Fin 512) (q : Fin 64) :
    (iblk0 V c 3 t : Vec Ideal S512x64 .f32) (ix2 k q) = (V c main_arg3 : S512x64.Idx → EReal) (ix2 k q) := by
  obtain ⟨-, -, -, -, -, -, e0, e1, -⟩ := tile_index t
  show V c main_arg3 (((cfg0.win 3).blk t).view.emb (ix2 k q)) = V c main_arg3 (ix2 k q)
  congr 1
  funext a; apply Fin.ext
  match a with
  | ⟨0, _⟩ => show win0_3.index t (0 : Fin 2) * 512 + 1 * k.val = k.val; omega
  | ⟨1, _⟩ => show win0_3.index t (1 : Fin 2) * 64 + 1 * q.val = q.val; omega

/-! ## The Q array -/

/-- What point `t` writes back to the Q array is its block of the whole-array product. -/
private theorem writtenQ_eq (c : Dev nD) (t : Fin cfg0.N) :
    (dat0 V c).flushed 4 t = ((cfg0.win 4).blk t).view.read (Elt Ideal)
      (Spec.uncur (Spec.projQ (Spec.cur (a := 8192) (b := 512) (V c main_arg0)) (Spec.cur (a := 512) (b := 64) (V c main_arg1)))) := by
  show (cfg0.win 4).cut (grid0.coords t) ((dat0 V c).after 4 t) = _
  rw [after0_4]
  funext j
  obtain ⟨p, q, rfl⟩ : ∃ (p : Fin 2048) (q : Fin 64), j = ix2 p q := ⟨j 0, j 1, eq_ix2 j⟩
  obtain ⟨-, -, -, -, -, -, -, -, e0, e1, -⟩ := tile_index t
  have hN : cfg0.N = 4 := N_0
  have ht : t.val < 4 := hN ▸ t.isLt
  refine (outQ_apply _ _ p q).trans ?_
  -- the block's entry (p, q) sits at row 2048·t + p, column q of the array
  have hemb : ((cfg0.win 4).blk t).view.emb (ix2 p q) = (ix2 (⟨2048 * t.val + p.val, by omega⟩ : Fin 8192) q : S8192x64.Idx) := by
    funext a; apply Fin.ext
    match a with
    | ⟨0, _⟩ => show win0_4.index t (0 : Fin 2) * 2048 + 1 * p.val = 2048 * t.val + p.val; omega
    | ⟨1, _⟩ => show win0_4.index t (1 : Fin 2) * 64 + 1 * q.val = q.val; omega
  show (_ : EReal) = Spec.uncur (Spec.projQ (Spec.cur (a := 8192) (b := 512) (V c main_arg0)) (Spec.cur (a := 512) (b := 64) (V c main_arg1))) (((cfg0.win 4).blk t).view.emb (ix2 p q))
  rw [hemb, Spec.uncur_ix2]
  show (_ : EReal) * Spec.cEighth = (∑ k : Fin 512, _) * Spec.cEighth
  refine congrArg (fun s : EReal => s * Spec.cEighth) (Finset.sum_congr rfl fun k _ => ?_)
  rw [inputTile_apply V c t p k ⟨2048 * t.val + p.val, by omega⟩ rfl, wqBlock_apply V c t k q]
  rfl

/-- An index of the Q array is in point `t`'s block iff each coordinate is in the block's range on its axis. -/
private theorem mem_tileQ (t : Fin cfg0.N) (i : S8192x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v0_0).slice (win0_4.rect t)).set ↔ _
  rw [View.set_slice_whole, Rect.mem_set_unit]
  exact Iff.rfl

/-- Row `r` of the Q array lies in the block of point `r / 2048`, and every point writes its block back. -/
private theorem rows_coveredQ (i : S8192x64.Idx) :
    ∃ t : Fin cfg0.N, (cfg0.win 4).flush t = true ∧ i ∈ ((cfg0.win 4).blk t).view.set := by
  have hN : cfg0.N = 4 := N_0
  have h0 : (i 0).val < 8192 := idx2_lt0 i
  have h1 : (i 1).val < 64 := idx2_lt1 i
  have hlt : (i 0).val / 2048 < cfg0.N := by rw [hN]; omega
  obtain ⟨-, -, -, -, -, -, -, -, e0, e1, -⟩ := tile_index ⟨(i 0).val / 2048, hlt⟩
  refine ⟨⟨(i 0).val / 2048, hlt⟩, flush0_4 _, ?_⟩
  rw [mem_tileQ]
  intro a
  match a with
  | ⟨0, _⟩ =>
    show win0_4.index ⟨(i 0).val / 2048, hlt⟩ (0 : Fin 2) * 2048 ≤ (i 0).val ∧ (i 0).val < win0_4.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_4.index ⟨(i 0).val / 2048, hlt⟩ (1 : Fin 2) * 64 ≤ (i 1).val ∧ (i 1).val < win0_4.index ⟨(i 0).val / 2048, hlt⟩ (1 : Fin 2) * 64 + 64
    rw [e1]; omega

/-- The Q array after the projection call. -/
theorem arrQ (c : Dev nD) :
    (dat0 V c).arrAt 4 cfg0.N
      = Spec.uncur (Spec.projQ (Spec.cur (a := 8192) (b := 512) (V c main_arg0)) (Spec.cur (a := 512) (b := 64) (V c main_arg1))) :=
  (dat0 V c).arrAt_eq_of_cover 4 _ (fun t _ => writtenQ_eq V c t) rows_coveredQ

/-! ## The K array -/

/-- What point `t` writes back to the K array is its block of the whole-array product. -/
private theorem writtenK_eq (c : Dev nD) (t : Fin cfg0.N) :
    (dat0 V c).flushed 5 t = ((cfg0.win 5).blk t).view.read (Elt Ideal)
      (Spec.uncur (Spec.proj (Spec.cur (a := 8192) (b := 512) (V c main_arg0)) (Spec.cur (a := 512) (b := 64) (V c main_arg2)))) := by
  show (cfg0.win 5).cut (grid0.coords t) ((dat0 V c).after 5 t) = _
  rw [after0_5]
  funext j
  obtain ⟨p, q, rfl⟩ : ∃ (p : Fin 2048) (q : Fin 64), j = ix2 p q := ⟨j 0, j 1, eq_ix2 j⟩
  obtain ⟨-, -, -, -, -, -, -, -, -, -, e0, e1, -⟩ := tile_index t
  have hN : cfg0.N = 4 := N_0
  have ht : t.val < 4 := hN ▸ t.isLt
  refine (outK_apply _ _ p q).trans ?_
  -- the block's entry (p, q) sits at row 2048·t + p, column q of the array
  have hemb : ((cfg0.win 5).blk t).view.emb (ix2 p q) = (ix2 (⟨2048 * t.val + p.val, by omega⟩ : Fin 8192) q : S8192x64.Idx) := by
    funext a; apply Fin.ext
    match a with
    | ⟨0, _⟩ => show win0_5.index t (0 : Fin 2) * 2048 + 1 * p.val = 2048 * t.val + p.val; omega
    | ⟨1, _⟩ => show win0_5.index t (1 : Fin 2) * 64 + 1 * q.val = q.val; omega
  show (_ : EReal) = Spec.uncur (Spec.proj (Spec.cur (a := 8192) (b := 512) (V c main_arg0)) (Spec.cur (a := 512) (b := 64) (V c main_arg2))) (((cfg0.win 5).blk t).view.emb (ix2 p q))
  rw [hemb, Spec.uncur_ix2]
  show (_ : EReal) = ∑ k : Fin 512, _
  refine Finset.sum_congr rfl fun k _ => ?_
  rw [inputTile_apply V c t p k ⟨2048 * t.val + p.val, by omega⟩ rfl, wkBlock_apply V c t k q]
  rfl

/-- An index of the K array is in point `t`'s block iff each coordinate is in the block's range on its axis. -/
private theorem mem_tileK (t : Fin cfg0.N) (i : S8192x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v0_1).slice (win0_5.rect t)).set ↔ _
  rw [View.set_slice_whole, Rect.mem_set_unit]
  exact Iff.rfl

/-- Row `r` of the K array lies in the block of point `r / 2048`, and every point writes its block back. -/
private theorem rows_coveredK (i : S8192x64.Idx) :
    ∃ t : Fin cfg0.N, (cfg0.win 5).flush t = true ∧ i ∈ ((cfg0.win 5).blk t).view.set := by
  have hN : cfg0.N = 4 := N_0
  have h0 : (i 0).val < 8192 := idx2_lt0 i
  have h1 : (i 1).val < 64 := idx2_lt1 i
  have hlt : (i 0).val / 2048 < cfg0.N := by rw [hN]; omega
  obtain ⟨-, -, -, -, -, -, -, -, -, -, e0, e1, -⟩ := tile_index ⟨(i 0).val / 2048, hlt⟩
  refine ⟨⟨(i 0).val / 2048, hlt⟩, flush0_5 _, ?_⟩
  rw [mem_tileK]
  intro a
  match a with
  | ⟨0, _⟩ =>
    show win0_5.index ⟨(i 0).val / 2048, hlt⟩ (0 : Fin 2) * 2048 ≤ (i 0).val ∧ (i 0).val < win0_5.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, hlt⟩ (1 : Fin 2) * 64 ≤ (i 1).val ∧ (i 1).val < win0_5.index ⟨(i 0).val / 2048, hlt⟩ (1 : Fin 2) * 64 + 64
    rw [e1]; omega

/-- The K array after the projection call. -/
theorem arrK (c : Dev nD) :
    (dat0 V c).arrAt 5 cfg0.N
      = Spec.uncur (Spec.proj (Spec.cur (a := 8192) (b := 512) (V c main_arg0)) (Spec.cur (a := 512) (b := 64) (V c main_arg2))) :=
  (dat0 V c).arrAt_eq_of_cover 5 _ (fun t _ => writtenK_eq V c t) rows_coveredK

/-! ## The V array -/

/-- What point `t` writes back to the V array is its block of the whole-array product. -/
private theorem writtenV_eq (c : Dev nD) (t : Fin cfg0.N) :
    (dat0 V c).flushed 6 t = ((cfg0.win 6).blk t).view.read (Elt Ideal)
      (Spec.uncur (Spec.proj (Spec.cur (a := 8192) (b := 512) (V c main_arg0)) (Spec.cur (a := 512) (b := 64) (V c main_arg3)))) := by
  show (cfg0.win 6).cut (grid0.coords t) ((dat0 V c).after 6 t) = _
  rw [after0_6]
  funext j
  obtain ⟨p, q, rfl⟩ : ∃ (p : Fin 2048) (q : Fin 64), j = ix2 p q := ⟨j 0, j 1, eq_ix2 j⟩
  obtain ⟨-, -, -, -, -, -, -, -, -, -, -, -, e0, e1⟩ := tile_index t
  have hN : cfg0.N = 4 := N_0
  have ht : t.val < 4 := hN ▸ t.isLt
  refine (outV_apply _ _ p q).trans ?_
  -- the block's entry (p, q) sits at row 2048·t + p, column q of the array
  have hemb : ((cfg0.win 6).blk t).view.emb (ix2 p q) = (ix2 (⟨2048 * t.val + p.val, by omega⟩ : Fin 8192) q : S8192x64.Idx) := by
    funext a; apply Fin.ext
    match a with
    | ⟨0, _⟩ => show win0_6.index t (0 : Fin 2) * 2048 + 1 * p.val = 2048 * t.val + p.val; omega
    | ⟨1, _⟩ => show win0_6.index t (1 : Fin 2) * 64 + 1 * q.val = q.val; omega
  show (_ : EReal) = Spec.uncur (Spec.proj (Spec.cur (a := 8192) (b := 512) (V c main_arg0)) (Spec.cur (a := 512) (b := 64) (V c main_arg3))) (((cfg0.win 6).blk t).view.emb (ix2 p q))
  rw [hemb, Spec.uncur_ix2]
  show (_ : EReal) = ∑ k : Fin 512, _
  refine Finset.sum_congr rfl fun k _ => ?_
  rw [inputTile_apply V c t p k ⟨2048 * t.val + p.val, by omega⟩ rfl, wvBlock_apply V c t k q]
  rfl

/-- An index of the V array is in point `t`'s block iff each coordinate is in the block's range on its axis. -/
private theorem mem_tileV (t : Fin cfg0.N) (i : S8192x64.Idx) :
    i ∈ ((cfg0.win 6).blk t).view.set ↔ ∀ a : Fin 2, win0_6.index t a * S2048x64.size a ≤ (i a).val ∧ (i a).val < win0_6.index t a * S2048x64.size a + S2048x64.size a := by
  show i ∈ ((View.whole main_v0_2).slice (win0_6.rect t)).set ↔ _
  rw [View.set_slice_whole, Rect.mem_set_unit]
  exact Iff.rfl

/-- Row `r` of the V array lies in the block of point `r / 2048`, and every point writes its block back. -/
private theorem rows_coveredV (i : S8192x64.Idx) :
    ∃ t : Fin cfg0.N, (cfg0.win 6).flush t = true ∧ i ∈ ((cfg0.win 6).blk t).view.set := by
  have hN : cfg0.N = 4 := N_0
  have h0 : (i 0).val < 8192 := idx2_lt0 i
  have h1 : (i 1).val < 64 := idx2_lt1 i
  have hlt : (i 0).val / 2048 < cfg0.N := by rw [hN]; omega
  obtain ⟨-, -, -, -, -, -, -, -, -, -, -, -, e0, e1⟩ := tile_index ⟨(i 0).val / 2048, hlt⟩
  refine ⟨⟨(i 0).val / 2048, hlt⟩, flush0_6 _, ?_⟩
  rw [mem_tileV]
  intro a
  match a with
  | ⟨0, _⟩ =>
    show win0_6.index ⟨(i 0).val / 2048, hlt⟩ (0 : Fin 2) * 2048 ≤ (i 0).val ∧ (i 0).val < win0_6.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_6.index ⟨(i 0).val / 2048, hlt⟩ (1 : Fin 2) * 64 ≤ (i 1).val ∧ (i 1).val < win0_6.index ⟨(i 0).val / 2048, hlt⟩ (1 : Fin 2) * 64 + 64
    rw [e1]; omega

/-- The V array after the projection call. -/
theorem arrV (c : Dev nD) :
    (dat0 V c).arrAt 6 cfg0.N
      = Spec.uncur (Spec.proj (Spec.cur (a := 8192) (b := 512) (V c main_arg0)) (Spec.cur (a := 512) (b := 64) (V c main_arg3))) :=
  (dat0 V c).arrAt_eq_of_cover 6 _ (fun t _ => writtenV_eq V c t) rows_coveredV

end Cert.KernelIdeal.HandValue

end
-- ==== Proof.AttnValue.lean ====
/-
  What the attention call leaves in the result array, at the extended reals. Only the points with j = 7 write the
  output tile back, one per query tile, and those eight tiles cover the array. Row p of query tile i is row
  r = 1024·i + p of the arrays; the carried state after point 8·i + j, read at that row, is the row-level online
  recursion `Spec.rowOnline` after column blocks 0..j of the kernel's logits `Spec.scoreK` of the Q and K arrays the
  region found, against the V array it found; the stored tile is the weighted sum over the normalizer. So the
  array ends at `Spec.attnOnline` of those three arrays.
-/
import proofs.«422835_j70282844832522_3_alg».proof.Proof.R1
import proofs.«422835_j70282844832522_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

-- the core's buffer contents when the region is entered, at the extended reals
variable (V : (c : Dev nD) → (b : Ref sig .tc) → Buf (Elt Ideal) ((c : Thread nD τ).loc b))

/-! ## Keepdims layout operations read at an index -/

section Layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The small payloads read at an index -/

private theorem pay3_eq (x : FVec Ideal S1024x1 .f32) : k1_pay3 (F := Ideal) x = x := by
  unfold k1_pay3; exact shapeCast_self _ _

private theorem pay8_eq (v : Vec Ideal S1024x64 .bf16) : k1_pay8 (F := Ideal) v = v := by
  unfold k1_pay8; exact shapeCast_self _ _

private theorem pay5_apply (p : Fin 1024) (u : Fin 1) : k1_pay5 (F := Ideal) (ix2 p u) = Spec.cNegInf := by
  unfold k1_pay5; rw [shapeCast_self]; rfl

private theorem pay6_apply (p : Fin 1024) (u : Fin 1) : k1_pay6 (F := Ideal) (ix2 p u) = Spec.cZero := by
  unfold k1_pay6; rw [shapeCast_self]; rfl

private theorem pay7_apply (p : Fin 1024) (d : Fin 64) : k1_pay7 (F := Ideal) (ix2 p d) = Spec.cZero := by
  unfold k1_pay7; rw [shapeCast_self]; rfl

/-- The stored tile: the weighted sum over the row's normalizer. -/
private theorem pay4_apply (acc : Vec Ideal S1024x64 .f32) (l : Vec Ideal S1024x1 .f32) (p : Fin 1024) (d : Fin 64) :
    k1_pay4 (F := Ideal) acc l (ix2 p d) = Ideal.div (acc (ix2 p d)) (l (ix2 p (0 : Fin 1))) := by
  unfold k1_pay4
  rw [divf_apply, broadcastTo_a1_ab_apply]

/-- The normalizer's update: the rescaled old one plus the row sum. -/
private theorem pay1_apply (a : FVec Ideal S1024x1 .f32) (b : FVec Ideal S1024 .f32) (p : Fin 1024) (u : Fin 1) :
    k1_pay1 (F := Ideal) a b (ix2 p u) = a (ix2 p u) + b (ix1 p) := by
  unfold k1_pay1
  rw [shapeCast_self, addf_apply, shapeCast_a_a1_apply]

/-! ## The two contractions read at an index -/

private theorem lhs_qk_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
private theorem lhs_qk_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
private theorem rhs_qk_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
private theorem rhs_qk_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- A [1024,64] · [64,1024] product into the zero accumulator, at (p, c'): the sum over the 64 inner coordinates. -/
private theorem matmul_qk_apply (a : FVec Ideal S1024x64 .bf16) (b : FVec Ideal S64x1024 .bf16) (p c' : Fin 1024) :
    matmul dot_S1024x64_S64x1024_S1024x1024_1_0_0_1_n_n none a b (constant (F := Ideal) S1024x1024 .f32 0x00000000#32) (ix2 p c')
      = ∑ d : Fin 64, a (ix2 p d) * b (ix2 d c') := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p c') ((contrEquiv1 dot_S1024x64_S64x1024_S1024x1024_1_0_0_1_n_n 64 rfl rfl).symm k) = ix2 p k := funext fun a => Fin.ext (by
    match a with
    | ⟨0, _⟩ => exact lhs_qk_0 _ _
    | ⟨1, _⟩ => exact (lhs_qk_1 _ _).trans hk)
  have er : dot_S1024x64_S64x1024_S1024x1024_1_0_0_1_n_n.rhsIdx (ix2 p c') ((contrEquiv1 dot_S1024x64_S64x1024_S1024x1024_1_0_0_1_n_n 64 rfl rfl).symm k) = ix2 k c' := funext fun a => Fin.ext (by
    match a with
    | ⟨0, _⟩ => exact (rhs_qk_0 _ _).trans hk
    | ⟨1, _⟩ => exact rhs_qk_1 _ _)
  rw [el, er]

private theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
private theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
private theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
private theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A [1024,1024] · [1024,64] product into the zero accumulator, at (p, d): the sum over the 1024 inner coordinates. -/
private theorem matmul_pv_apply (a : FVec Ideal S1024x1024 .bf16) (b : FVec Ideal S1024x64 .bf16) (p : Fin 1024) (d : Fin 64) :
    matmul dot_S1024x1024_S1024x64_S1024x64_1_0_0_1_n_n none a b (constant (F := Ideal) S1024x64 .f32 0x00000000#32) (ix2 p d)
      = ∑ c' : Fin 1024, a (ix2 p c') * b (ix2 c' d) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p d) ((contrEquiv1 dot_S1024x1024_S1024x64_S1024x64_1_0_0_1_n_n 1024 rfl rfl).symm k) = ix2 p k := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 p d) ((contrEquiv1 dot_S1024x1024_S1024x64_S1024x64_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-! ## The step's payloads read at an index -/

/-- The logits tile at (p, c'): the product of query row p and key row c', and the two correction sums. -/
private def logit (q k : FVec Ideal S1024x64 .f32) (p c' : Fin 1024) : EReal :=
  ((∑ d : Fin 64, q (ix2 p d) * k (ix2 c' d)) + ∑ d : Fin 64, q (ix2 p d) * (k (ix2 c' d) - k (ix2 c' d)))
    + ∑ d : Fin 64, (q (ix2 p d) - q (ix2 p d)) * k (ix2 c' d)

/-- The transposed key tile at (d, c') is the key tile at (c', d). -/
private theorem transpose_k_apply (x : FVec Ideal S1024x64 .bf16) (d : Fin 64) (c' : Fin 1024) :
    transpose S64x1024 [1, 0] x transposes_S1024x64_p1_0_S64x1024 (ix2 d c') = x (ix2 c' d) :=
  transpose_ix2_apply x _ d c'

/-- A query tile against a transposed key tile, at (p, c'): the sum over the 64 lanes of row p against row c'. -/
private theorem matmul_qkT_apply (a b : FVec Ideal S1024x64 .bf16) (p c' : Fin 1024) :
    matmul dot_S1024x64_S64x1024_S1024x1024_1_0_0_1_n_n none a
        (transpose S64x1024 [1, 0] b transposes_S1024x64_p1_0_S64x1024) (constant (F := Ideal) S1024x1024 .f32 0x00000000#32) (ix2 p c')
      = ∑ d : Fin 64, a (ix2 p d) * b (ix2 c' d) :=
  (matmul_qk_apply a _ p c').trans (Finset.sum_congr rfl fun d _ => congrArg (a (ix2 p d) * ·) (transpose_k_apply b d c'))

private theorem pay9_apply (q k : FVec Ideal S1024x64 .f32) (p c' : Fin 1024) :
    k1_pay9 (F := Ideal) q k (ix2 p c') = logit q k p c' := by
  unfold k1_pay9
  simp only [shapeCast_self]
  rw [addf_apply, addf_apply, matmul_qkT_apply, matmul_qkT_apply, matmul_qkT_apply]
  rfl

/-- The reduced index (p) with the column c' put back is (p, c'). -/
private theorem lift_row (p c' : Fin 1024) : (reduces_S1024x1024_S1024).lift (ix1 p) c' = ix2 p c' := by
  funext a
  match a with
  | ⟨0, _⟩ => exact Fin.ext rfl
  | ⟨1, _⟩ => exact Fin.ext rfl

/-- The new running maximum of row p: the old one against the row maximum of the logits. -/
private theorem pay10_apply (q k : FVec Ideal S1024x64 .f32) (m : FVec Ideal S1024x1 .f32) (p : Fin 1024) (u : Fin 1) :
    k1_pay10 (F := Ideal) q k m (ix2 p u)
      = max (m (ix2 p u)) ((Finset.univ : Finset (Fin 1024)).fold max Spec.cNegInf (fun c' => logit q k p c')) := by
  unfold k1_pay10
  rw [maximumf_apply, shapeCast_a_a1_apply]
  refine congrArg (max _) ?_
  refine (Ideal.multiReduction_maximumf_single (k1_pay9 (F := Ideal) q k) 0xFF800000#32 reduces_S1024x1024_S1024 _ _ (ix1 p)).trans ?_
  show (Finset.univ : Finset (Fin 1024)).fold max Spec.cNegInf (fun c' => k1_pay9 (F := Ideal) q k ((reduces_S1024x1024_S1024).lift (ix1 p) c')) = _
  exact congrArg (fun f => (Finset.univ : Finset (Fin 1024)).fold max Spec.cNegInf f)
    (funext fun c' => (congrArg (k1_pay9 (F := Ideal) q k) (lift_row p c')).trans (pay9_apply q k p c'))

/-- exp (m' − m_new) at row p. -/
private theorem pay11_apply (q k : FVec Ideal S1024x64 .f32) (m m' : FVec Ideal S1024x1 .f32) (p : Fin 1024) (u : Fin 1) :
    k1_pay11 (F := Ideal) q k m m' (ix2 p u) = Ideal.exp (m' (ix2 p u) - k1_pay10 (F := Ideal) q k m (ix2 p u)) := rfl

/-- exp (s − m_new) at (p, c'). -/
private theorem pay12_apply (q k : FVec Ideal S1024x64 .f32) (m : FVec Ideal S1024x1 .f32) (p c' : Fin 1024) :
    k1_pay12 (F := Ideal) q k m (ix2 p c') = Ideal.exp (logit q k p c' - k1_pay10 (F := Ideal) q k m (ix2 p (0 : Fin 1))) := by
  unfold k1_pay12
  show Ideal.exp (k1_pay9 (F := Ideal) q k (ix2 p c') - broadcastTo S1024x1024 (k1_pay10 (F := Ideal) q k m) broadcasts_S1024x1_S1024x1024 (ix2 p c')) = _
  rw [broadcastTo_a1_ab_apply, pay9_apply]

private theorem pay13_apply (q k : FVec Ideal S1024x64 .f32) (m m' l : FVec Ideal S1024x1 .f32) (p : Fin 1024) (u : Fin 1) :
    k1_pay13 (F := Ideal) q k m m' l (ix2 p u) = k1_pay11 (F := Ideal) q k m m' (ix2 p u) * l (ix2 p u) := rfl

/-- The row sum of exp (s − m_new). -/
private theorem pay14_apply (q k : FVec Ideal S1024x64 .f32) (m : FVec Ideal S1024x1 .f32) (p : Fin 1024) :
    k1_pay14 (F := Ideal) q k m (ix1 p) = ∑ c' : Fin 1024, k1_pay12 (F := Ideal) q k m (ix2 p c') := by
  unfold k1_pay14
  refine (Ideal.multiReduction_add_single (k1_pay12 (F := Ideal) q k m) 0x00000000#32 reduces_S1024x1024_S1024 _ _ (ix1 p)).trans ?_
  show ∑ c' : Fin 1024, k1_pay12 (F := Ideal) q k m ((reduces_S1024x1024_S1024).lift (ix1 p) c') = _
  refine Finset.sum_congr rfl fun c' _ => ?_
  rw [lift_row]

/-- The weighted sum's update: the rescaled old one plus the weights against the value tile. -/
private theorem pay2_apply (v : FVec Ideal S1024x64 .bf16) (a : FVec Ideal S1024x1 .f32) (P : FVec Ideal S1024x1024 .f32)
    (acc : FVec Ideal S1024x64 .f32) (p : Fin 1024) (d : Fin 64) :
    k1_pay2 (F := Ideal) v a P acc (ix2 p d)
      = a (ix2 p (0 : Fin 1)) * acc (ix2 p d) + ∑ c' : Fin 1024, P (ix2 p c') * v (ix2 c' d) := by
  unfold k1_pay2
  rw [shapeCast_self, addf_apply, mulf_apply, broadcastTo_a1_ab_apply, matmul_pv_apply]
  rfl

/-! ## One step of the carried state, row by row -/

/-- Row p of a carried state. -/
private def rowOf (s : Carry Ideal) (p : Fin 1024) : Spec.RowSt :=
  ⟨s.1 (ix2 p (0 : Fin 1)), s.2.1 (ix2 p (0 : Fin 1)), fun d => s.2.2 (ix2 p d)⟩

/-- The state a query tile starts from is, at every row, the row recursion's start. -/
private theorem rowOf_carry0 (p : Fin 1024) : rowOf (carry0 (F := Ideal)) p = Spec.rowInit := by
  unfold rowOf carry0 Spec.rowInit
  simp only [pay5_apply, pay6_apply, pay7_apply]

private theorem mStep_apply (q k : FVec Ideal S1024x64 .f32) (m : FVec Ideal S1024x1 .f32) (p : Fin 1024) :
    mStep (F := Ideal) q k m (ix2 p (0 : Fin 1))
      = max (m (ix2 p (0 : Fin 1))) ((Finset.univ : Finset (Fin 1024)).fold max Spec.cNegInf (fun c' => logit q k p c')) := by
  unfold mStep
  rw [pay3_eq, pay10_apply]

private theorem lStep_apply (q k : FVec Ideal S1024x64 .f32) (m l : FVec Ideal S1024x1 .f32) (p : Fin 1024) :
    lStep (F := Ideal) q k m l (ix2 p (0 : Fin 1))
      = Ideal.exp (m (ix2 p (0 : Fin 1)) - mStep (F := Ideal) q k m (ix2 p (0 : Fin 1))) * l (ix2 p (0 : Fin 1))
        + ∑ c' : Fin 1024, Ideal.exp (logit q k p c' - mStep (F := Ideal) q k m (ix2 p (0 : Fin 1))) := by
  unfold lStep mStep
  rw [pay3_eq, pay1_apply, pay13_apply, pay11_apply, pay14_apply]
  exact congrArg (_ + ·) (Finset.sum_congr rfl fun c' _ => pay12_apply q k m p c')

private theorem accStep_apply (q k : FVec Ideal S1024x64 .f32) (v : FVec Ideal S1024x64 .bf16) (m : FVec Ideal S1024x1 .f32)
    (acc : FVec Ideal S1024x64 .f32) (p : Fin 1024) (d : Fin 64) :
    accStep (F := Ideal) q k v m acc (ix2 p d)
      = Ideal.exp (m (ix2 p (0 : Fin 1)) - mStep (F := Ideal) q k m (ix2 p (0 : Fin 1))) * acc (ix2 p d)
        + ∑ c' : Fin 1024, Ideal.exp (logit q k p c' - mStep (F := Ideal) q k m (ix2 p (0 : Fin 1))) * v (ix2 c' d) := by
  unfold accStep mStep
  rw [pay3_eq, pay8_eq, pay2_apply, pay11_apply]
  exact congrArg (_ + ·) (Finset.sum_congr rfl fun c' _ => congrArg (· * _) (pay12_apply q k m p c'))

/-- One step of the carried state over a key/value tile is, at row p, the row recursion's step over that row's
    logits and the value tile. -/
private theorem rowOf_step (q k : FVec Ideal S1024x64 .f32) (v : FVec Ideal S1024x64 .bf16) (s : Carry Ideal) (p : Fin 1024) :
    rowOf (stepCarry q k v s) p = Spec.rowStep (fun c' => logit q k p c') (fun c' d => v (ix2 c' d)) (rowOf s p) := by
  obtain ⟨m, l, acc⟩ := s
  unfold rowOf stepCarry Spec.rowStep
  dsimp only
  rw [lStep_apply, mStep_apply]
  simp only [accStep_apply, mStep_apply]

/-! ## The blocks the windows read, as rows of the arrays -/

/-- The index maps over the grid: at point t = 8·i + j the query and result windows sit at block i, the key and
    value windows at block j, all at lane block 0. -/
private theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- The query tile at point t is rows 1024·(t / 8) … of the Q array. -/
private theorem iblkQ_apply (c : Dev nD) (t : Fin cfg1.N) (p : Fin 1024) (d : Fin 64) (r : Fin 8192)
    (hr : r.val = 1024 * (t.val / 8) + p.val) :
    (iblk1 V c 0 t : Vec Ideal S1024x64 .f32) (ix2 p d) = (V c main_v0_0 : S8192x64.Idx → EReal) (ix2 r d) := by
  obtain ⟨e0, e1, -⟩ := idx_facts1 t
  unfold iblk1
  rw [View.read_apply]
  show V c main_v0_0 _ = V c main_v0_0 _
  congr 1
  funext a
  apply Fin.ext
  match a with
  | ⟨0, _⟩ => show win1_0.index t 0 * 1024 + 1 * p.val = r.val; rw [e0, hr]; omega
  | ⟨1, _⟩ => show win1_0.index t 1 * 64 + 1 * d.val = d.val; rw [e1]; omega

/-- The key tile at point t is rows 1024·(t % 8) … of the K array. -/
private theorem iblkK_apply (c : Dev nD) (t : Fin cfg1.N) (p : Fin 1024) (d : Fin 64) (r : Fin 8192)
    (hr : r.val = 1024 * (t.val % 8) + p.val) :
    (iblk1 V c 1 t : Vec Ideal S1024x64 .f32) (ix2 p d) = (V c main_v0_1 : S8192x64.Idx → EReal) (ix2 r d) := by
  obtain ⟨-, -, e2, e3, -⟩ := idx_facts1 t
  unfold iblk1
  rw [View.read_apply]
  show V c main_v0_1 _ = V c main_v0_1 _
  congr 1
  funext a
  apply Fin.ext
  match a with
  | ⟨0, _⟩ => show win1_1.index t 0 * 1024 + 1 * p.val = r.val; rw [e2, hr]; omega
  | ⟨1, _⟩ => show win1_1.index t 1 * 64 + 1 * d.val = d.val; rw [e3]; omega

/-- The value tile at point t is rows 1024·(t % 8) … of the V array. -/
private theorem iblkV_apply (c : Dev nD) (t : Fin cfg1.N) (p : Fin 1024) (d : Fin 64) (r : Fin 8192)
    (hr : r.val = 1024 * (t.val % 8) + p.val) :
    (iblk1 V c 2 t : Vec Ideal S1024x64 .bf16) (ix2 p d) = (V c main_v0_2 : S8192x64.Idx → EReal) (ix2 r d) := by
  obtain ⟨-, -, -, -, e4, e5, -⟩ := idx_facts1 t
  unfold iblk1
  rw [View.read_apply]
  show V c main_v0_2 _ = V c main_v0_2 _
  congr 1
  funext a
  apply Fin.ext
  match a with
  | ⟨0, _⟩ => show win1_2.index t 0 * 1024 + 1 * p.val = r.val; rw [e4, hr]; omega
  | ⟨1, _⟩ => show win1_2.index t 1 * 64 + 1 * d.val = d.val; rw [e5]; omega

/-! ## The carried state after every point, row by row -/

/-- Column c' of column block j, for j below 8, is array row 1024·j + c'. -/
private theorem col_val (j : ℕ) (hj : j < 8) (c' : Fin 1024) : (Spec.col j c').val = 1024 * j + c'.val := by
  show (1024 * j + c'.val) % 8192 = _
  have := c'.isLt
  omega

/-- The logits tile of the blocks at point t, at (p, c'): the kernel's logit of array row 1024·(t / 8) + p against
    column c' of column block t % 8. -/
private theorem logit_blocks (c : Dev nD) (t : Fin cfg1.N) (p : Fin 1024) (r : Fin 8192) (hr : r.val = 1024 * (t.val / 8) + p.val)
    (c' : Fin 1024) :
    logit (iblk1 V c 0 t) (iblk1 V c 1 t) p c'
      = Spec.scoreK (Spec.cur (a := 8192) (b := 64) (V c main_v0_0)) (Spec.cur (a := 8192) (b := 64) (V c main_v0_1)) r
          (Spec.col (t.val % 8) c') := by
  have hq : ∀ d, (iblk1 V c 0 t : Vec Ideal S1024x64 .f32) (ix2 p d) = Spec.cur (a := 8192) (b := 64) (V c main_v0_0) r d :=
    fun d => iblkQ_apply V c t p d r hr
  have hk : ∀ d, (iblk1 V c 1 t : Vec Ideal S1024x64 .f32) (ix2 c' d)
      = Spec.cur (a := 8192) (b := 64) (V c main_v0_1) (Spec.col (t.val % 8) c') d :=
    fun d => iblkK_apply V c t c' d _ (col_val _ (Nat.mod_lt _ (by decide)) c')
  unfold logit Spec.scoreK
  simp only [hq, hk]

/-- One step over the blocks at point t = 8·i + j, read at row p: the row recursion's step over column block j. -/
private theorem step_row (c : Dev nD) (t : Fin cfg1.N) (i j : ℕ) (ht : t.val = 8 * i + j) (hj : j < 8) (p : Fin 1024) (r : Fin 8192)
    (hr : r.val = 1024 * i + p.val) (st : Carry Ideal) :
    rowOf (stepCarry (iblk1 V c 0 t) (iblk1 V c 1 t) (iblk1 V c 2 t) st) p
      = Spec.rowStep
          (fun c' => Spec.scoreK (Spec.cur (a := 8192) (b := 64) (V c main_v0_0)) (Spec.cur (a := 8192) (b := 64) (V c main_v0_1)) r (Spec.col j c'))
          (fun c' => Spec.cur (a := 8192) (b := 64) (V c main_v0_2) (Spec.col j c')) (rowOf st p) := by
  have hdiv : t.val / 8 = i := by omega
  have hmod : t.val % 8 = j := by omega
  refine (rowOf_step (iblk1 V c 0 t) (iblk1 V c 1 t) (iblk1 V c 2 t) st p).trans ?_
  have h1 : (fun c' => logit (iblk1 V c 0 t) (iblk1 V c 1 t) p c')
      = fun c' => Spec.scoreK (Spec.cur (a := 8192) (b := 64) (V c main_v0_0)) (Spec.cur (a := 8192) (b := 64) (V c main_v0_1)) r (Spec.col j c') :=
    funext fun c' => by rw [logit_blocks V c t p r (by omega) c', hmod]
  have h2 : (fun (c' : Fin 1024) (d : Fin 64) => (iblk1 V c 2 t : Vec Ideal S1024x64 .bf16) (ix2 c' d))
      = fun c' => Spec.cur (a := 8192) (b := 64) (V c main_v0_2) (Spec.col j c') :=
    funext fun c' => funext fun d => iblkV_apply V c t c' d (Spec.col j c') (by rw [col_val j hj c', hmod])
  exact congrArg₂ (fun a b => Spec.rowStep a b (rowOf st p)) h1 h2

private theorem scAt_congr (c : Dev nD) {n n' : ℕ} (e : n = n') (h : n < cfg1.N) (h' : n' < cfg1.N) :
    scAt V c n h = scAt V c n' h' := by
  subst e; rfl

/-- The carried state after point 8·i + j, at row p of the query tile: the row recursion of array row 1024·i + p
    after column blocks 0..j. -/
private theorem scAt_row (c : Dev nD) (i : ℕ) (hi : i < 8) (p : Fin 1024) (r : Fin 8192) (hr : r.val = 1024 * i + p.val) :
    ∀ (j : ℕ) (hj : j < 8) (h : 8 * i + j < cfg1.N),
      rowOf (scAt V c (8 * i + j) h) p
        = Spec.rowOnline (Spec.scoreK (Spec.cur (a := 8192) (b := 64) (V c main_v0_0)) (Spec.cur (a := 8192) (b := 64) (V c main_v0_1)) r)
            (Spec.cur (a := 8192) (b := 64) (V c main_v0_2)) j := by
  intro j
  induction j with
  | zero =>
    intro hj h
    refine (congrArg (rowOf · p) (scAt_first V c ⟨8 * i + 0, h⟩ (by show (8 * i + 0) % 8 = 0; omega))).trans ?_
    refine (step_row V c ⟨8 * i + 0, h⟩ i 0 rfl hj p r hr carry0).trans ?_
    rw [rowOf_carry0]
    rfl
  | succ j ih =>
    intro hj h
    have hprev : 8 * i + j < cfg1.N := by omega
    refine (congrArg (rowOf · p) ((scAt_next V c ⟨8 * i + (j + 1), h⟩ (by show ¬ (8 * i + (j + 1)) % 8 = 0; omega)).trans
      (congrArg (stepCarry _ _ _) (scAt_congr V c (by show 8 * i + (j + 1) - 1 = 8 * i + j; omega) _ hprev)))).trans ?_
    refine (step_row V c ⟨8 * i + (j + 1), h⟩ i (j + 1) rfl hj p r hr _).trans ?_
    rw [ih (by omega) hprev]
    rfl

/-! ## The stored tiles, the cover, and the array -/

/-- The tile stored at a point with j = 7, at row p: the attention row of array row 1024·(t / 8) + p. -/
private theorem outFin_row (c : Dev nD) (t : Fin cfg1.N) (h7 : t.val % 8 = 7) (p : Fin 1024) (d : Fin 64) (r : Fin 8192)
    (hr : r.val = 1024 * (t.val / 8) + p.val) :
    outFin (scAt V c t.val t.isLt) (ix2 p d)
      = Spec.attnOnline (Spec.cur (a := 8192) (b := 64) (V c main_v0_0)) (Spec.cur (a := 8192) (b := 64) (V c main_v0_1))
          (Spec.cur (a := 8192) (b := 64) (V c main_v0_2)) r d := by
  have hN : cfg1.N = 64 := N_1
  have ht := t.isLt
  have hi : t.val / 8 < 8 := by omega
  have h8 : 8 * (t.val / 8) + 7 < cfg1.N := by omega
  have hrow := scAt_row V c (t.val / 8) hi p r hr 7 (by omega) h8
  rw [scAt_congr V c (show t.val = 8 * (t.val / 8) + 7 by omega) t.isLt h8]
  unfold outFin
  rw [pay4_apply]
  show Ideal.div ((rowOf (scAt V c (8 * (t.val / 8) + 7) h8) p).acc d) ((rowOf (scAt V c (8 * (t.val / 8) + 7) h8) p).l) = _
  rw [hrow]
  rfl

/-- What a point with j = 7 writes back is its block of the attention array. -/
private theorem flushed_eq (c : Dev nD) (t : Fin cfg1.N) (hf : (cfg1.win 3).flush t = true) :
    (dat1 V c).flushed 3 t = ((cfg1.win 3).blk t).view.read (Elt Ideal)
      (Spec.uncur (Spec.attnOnline (Spec.cur (a := 8192) (b := 64) (V c main_v0_0)) (Spec.cur (a := 8192) (b := 64) (V c main_v0_1))
        (Spec.cur (a := 8192) (b := 64) (V c main_v0_2)))) := by
  have hN : cfg1.N = 64 := N_1
  have ht := t.isLt
  have h7 : t.val % 8 = 7 := (flush1_3 t).mp hf
  obtain ⟨-, -, -, -, -, -, e6, e7⟩ := idx_facts1 t
  show (cfg1.win 3).cut (grid1.coords t) ((dat1 V c).after 3 t) = _
  rw [after1_3]
  funext y
  rw [View.read_apply]
  have hp : (y 0).val < 1024 := ((cfg1.win 3).xinj (grid1.coords t) y 0).isLt
  have hd : (y 1).val < 64 := ((cfg1.win 3).xinj (grid1.coords t) y 1).isLt
  have hz : (cfg1.win 3).xinj (grid1.coords t) y = ix2 (⟨(y 0).val, hp⟩ : Fin 1024) (⟨(y 1).val, hd⟩ : Fin 64) := by
    funext a
    match a with
    | ⟨0, _⟩ => rfl
    | ⟨1, _⟩ => rfl
  have he : ((cfg1.win 3).blk t).view.emb y
      = ix2 (⟨1024 * (t.val / 8) + (y 0).val, by omega⟩ : Fin 8192) (⟨(y 1).val, hd⟩ : Fin 64) := by
    funext a
    apply Fin.ext
    match a with
    | ⟨0, _⟩ => show win1_3.index t 0 * 1024 + 1 * (y 0).val = 1024 * (t.val / 8) + (y 0).val; rw [e6]; omega
    | ⟨1, _⟩ => show win1_3.index t 1 * 64 + 1 * (y 1).val = (y 1).val; rw [e7]; omega
  show outFin (scAt V c t.val t.isLt) ((cfg1.win 3).xinj (grid1.coords t) y)
    = Spec.uncur (Spec.attnOnline (Spec.cur (a := 8192) (b := 64) (V c main_v0_0)) (Spec.cur (a := 8192) (b := 64) (V c main_v0_1))
        (Spec.cur (a := 8192) (b := 64) (V c main_v0_2))) (((cfg1.win 3).blk t).view.emb y)
  rw [hz, he]
  exact outFin_row V c t h7 _ _ _ rfl

/-- An index of the result array is in point t's block iff each coordinate is in the block's range on its axis. -/
private theorem mem_blk3 (t : Fin cfg1.N) (i : S8192x64.Idx) :
    i ∈ ((cfg1.win 3).blk t).view.set
      ↔ ∀ a : Fin 2, win1_3.index t a * S1024x64.size a ≤ (i a).val ∧ (i a).val < win1_3.index t a * S1024x64.size a + S1024x64.size a := by
  show i ∈ ((View.whole main_v1).slice (win1_3.rect t)).set ↔ _
  rw [View.set_slice_whole, Rect.mem_set_unit]
  exact Iff.rfl

/-- Array row r is covered by the writing point of its query tile, 8·(r / 1024) + 7. -/
private theorem cover3 (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 64 := N_1
  have h0 : (i 0).val < 8192 := (i 0).isLt
  have h1 : (i 1).val < 64 := (i 1).isLt
  have hlt : 8 * ((i 0).val / 1024) + 7 < cfg1.N := by omega
  obtain ⟨-, -, -, -, -, -, e6, e7⟩ := idx_facts1 ⟨8 * ((i 0).val / 1024) + 7, hlt⟩
  have e6' : win1_3.index ⟨8 * ((i 0).val / 1024) + 7, hlt⟩ 0 = (i 0).val / 1024 := by
    rw [e6]; show (8 * ((i 0).val / 1024) + 7) / 8 = _; omega
  refine ⟨⟨8 * ((i 0).val / 1024) + 7, hlt⟩, (flush1_3 _).mpr (by show (8 * ((i 0).val / 1024) + 7) % 8 = 7; omega), ?_⟩
  rw [mem_blk3]
  intro a
  match a with
  | ⟨0, _⟩ =>
    show win1_3.index ⟨8 * ((i 0).val / 1024) + 7, hlt⟩ 0 * 1024 ≤ (i 0).val
      ∧ (i 0).val < win1_3.index ⟨8 * ((i 0).val / 1024) + 7, hlt⟩ 0 * 1024 + 1024
    rw [e6']; omega
  | ⟨1, _⟩ =>
    show win1_3.index ⟨8 * ((i 0).val / 1024) + 7, hlt⟩ 1 * 64 ≤ (i 1).val
      ∧ (i 1).val < win1_3.index ⟨8 * ((i 0).val / 1024) + 7, hlt⟩ 1 * 64 + 64
    rw [e7]; omega

/-- The result array after the attention call. -/
theorem arrO (c : Dev nD) :
    (dat1 V c).arrAt 3 cfg1.N
      = Spec.uncur (Spec.attnOnline (Spec.cur (a := 8192) (b := 64) (V c main_v0_0)) (Spec.cur (a := 8192) (b := 64) (V c main_v0_1))
          (Spec.cur (a := 8192) (b := 64) (V c main_v0_2))) :=
  (dat1 V c).arrAt_eq_of_cover 3 _ (fun t hf => flushed_eq V c t hf) (cover3 c)

end Cert.KernelIdeal.HandValue

end
-- ==== Proof.OnlineFold.lean ====
/-
  The invariant of the blockwise online softmax, for REAL logits and values. Folding the 8192 columns in 8 blocks of
  1024, after blocks 0..j the running maximum is the maximum M_j of the logits seen so far, the normalizer is
  Σ exp (s − M_j) and the weighted sum Σ exp (s − M_j)·v over those columns: the step rescales what it carries by
  exp (M_{j-1} − M_j), and exp (M_{j-1} − M_j)·exp (s − M_{j-1}) = exp (s − M_j). At the first block the carried
  maximum is −∞, whose exponential is 0, so the (zero) start state drops out. After the eighth block the sums run
  over all columns.
-/
import proofs.«422835_j70282844832522_3_alg».proof.Proof.Spec
import Idealize.ShloMosaic.PureOps.Ideal.Laws
import Mathlib.Analysis.SpecialFunctions.Exp
import Mathlib.Data.EReal.Basic
import Mathlib.Data.EReal.Operations
import Mathlib.Algebra.BigOperators.Group.Finset.Basic
import Mathlib.Algebra.BigOperators.Ring.Finset
import Mathlib.Data.Finset.Fold
import Mathlib.Data.Finset.Lattice.Fold
import Mathlib.Data.Fintype.BigOperators
import Mathlib.Logic.Equiv.Fin.Basic

set_option maxRecDepth 16384

noncomputable section

namespace Cert.Spec

open Idealize.ShloMosaic

/-! ### The two constants of the start state -/

/-- The pattern of −∞ denotes `⊥`. -/
private theorem cNegInf_eq : cNegInf = ⊥ := by
  simp [Ideal.ofBits, Ideal.ieee]

/-- The pattern of +0.0 denotes `0`. -/
private theorem cZero_eq : cZero = 0 := Ideal.ofBits_zero_f32

/-! ### Coercion of real sums, exponentials and block maxima into the extended reals -/

/-- The coercion `ℝ → EReal` is additive, so it commutes with finite sums. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a difference of two reals, taken in the extended reals, is the real exponential. -/
private theorem exp_sub_coe (x y : ℝ) :
    Ideal.exp ((x : EReal) - (y : EReal)) = ((Real.exp (x - y) : ℝ) : EReal) := by
  rw [← EReal.coe_sub]; rfl

/-- The real maximum of a block of 1024 numbers. -/
private def blk (f : Fin 1024 → ℝ) : ℝ :=
  (Finset.univ : Finset (Fin 1024)).sup' ⟨0, Finset.mem_univ _⟩ f

private theorem le_blk (f : Fin 1024 → ℝ) (c : Fin 1024) : f c ≤ blk f :=
  Finset.le_sup' f (Finset.mem_univ c)

private theorem blk_attained (f : Fin 1024 → ℝ) : ∃ c, f c = blk f := by
  obtain ⟨i, _, h⟩ := Finset.exists_mem_eq_sup' (s := (Finset.univ : Finset (Fin 1024))) ⟨0, Finset.mem_univ _⟩ f
  exact ⟨i, h.symm⟩

/-- Folding `max` from −∞ over the coercions of a block is the coercion of the block's real maximum: it is an upper
    bound of the block and one of its members. -/
private theorem fold_max_coe (f : Fin 1024 → ℝ) :
    (Finset.univ : Finset (Fin 1024)).fold max cNegInf (fun c => (f c : EReal)) = ((blk f : ℝ) : EReal) := by
  rw [cNegInf_eq]
  apply le_antisymm
  · rw [Finset.fold_max_le]
    exact ⟨bot_le, fun x _ => EReal.coe_le_coe_iff.2 (le_blk f x)⟩
  · obtain ⟨i, h⟩ := blk_attained f
    rw [Finset.le_fold_max]
    exact Or.inr ⟨i, Finset.mem_univ _, by rw [h]⟩

/-! ### One step on real data -/

/-- A step from a real carried state: the new maximum is the real maximum of the old one and the block's, the carried
    normalizer and sum are rescaled by the exponential of the drop of the maximum and the block's terms are added. -/
private theorem rowStep_coe (s : Fin 1024 → ℝ) (v : Fin 1024 → Fin 64 → ℝ) (m l : ℝ) (acc : Fin 64 → ℝ) :
    rowStep (fun c => (s c : EReal)) (fun c d => (v c d : EReal))
        ⟨(m : EReal), (l : EReal), fun d => (acc d : EReal)⟩
      = ⟨((max m (blk s) : ℝ) : EReal),
          ((Real.exp (m - max m (blk s)) * l + ∑ c, Real.exp (s c - max m (blk s)) : ℝ) : EReal),
          fun d => ((Real.exp (m - max m (blk s)) * acc d
            + ∑ c, Real.exp (s c - max m (blk s)) * v c d : ℝ) : EReal)⟩ := by
  have hmax : max (m : EReal) ((Finset.univ : Finset (Fin 1024)).fold max cNegInf (fun c => (s c : EReal)))
      = ((max m (blk s) : ℝ) : EReal) := by
    rw [fold_max_coe]; exact (EReal.coe_strictMono.monotone.map_max).symm
  simp only [rowStep, hmax, exp_sub_coe, ← EReal.coe_mul, ← coe_sum, ← EReal.coe_add]

/-- The first step, from the start state: the carried maximum −∞ has exponential 0, so only the block's terms
    remain, taken against the block's own maximum. -/
private theorem rowStep_init (s : Fin 1024 → ℝ) (v : Fin 1024 → Fin 64 → ℝ) :
    rowStep (fun c => (s c : EReal)) (fun c d => (v c d : EReal)) rowInit
      = ⟨((blk s : ℝ) : EReal), ((∑ c, Real.exp (s c - blk s) : ℝ) : EReal),
          fun d => ((∑ c, Real.exp (s c - blk s) * v c d : ℝ) : EReal)⟩ := by
  have hfold := fold_max_coe s
  rw [cNegInf_eq] at hfold
  simp only [rowStep, rowInit, cNegInf_eq, cZero_eq, hfold, cNegInf_eq, cZero_eq, max_bot_left, EReal.bot_sub, Ideal.exp_bot, zero_mul,
    zero_add, exp_sub_coe, ← EReal.coe_mul, ← coe_sum]

/-! ### The real prefix maximum, normalizer and weighted sum -/

/-- The maximum of the logits of blocks 0..j. -/
private def pM (s : Fin 8192 → ℝ) : ℕ → ℝ
  | 0 => blk (fun c' => s (col 0 c'))
  | j + 1 => max (pM s j) (blk (fun c' => s (col (j + 1) c')))

/-- It bounds every logit of blocks 0..j. -/
private theorem le_pM (s : Fin 8192 → ℝ) (j : ℕ) : ∀ i ≤ j, ∀ c' : Fin 1024, s (col i c') ≤ pM s j := by
  induction j with
  | zero =>
    intro i hi c'
    obtain rfl : i = 0 := Nat.le_zero.1 hi
    exact le_blk (fun c' => s (col 0 c')) c'
  | succ j ih =>
    intro i hi c'
    rcases Nat.lt_or_ge i (j + 1) with h | h
    · exact le_trans (ih i (Nat.lt_succ_iff.1 h) c') (le_max_left _ _)
    · obtain rfl : i = j + 1 := le_antisymm hi h
      exact le_trans (le_blk (fun c' => s (col (j + 1) c')) c') (le_max_right _ _)

/-- And it is one of them. -/
private theorem pM_attained (s : Fin 8192 → ℝ) (j : ℕ) : ∃ i ≤ j, ∃ c' : Fin 1024, s (col i c') = pM s j := by
  induction j with
  | zero =>
    obtain ⟨c', h⟩ := blk_attained (fun c' => s (col 0 c'))
    exact ⟨0, le_rfl, c', h⟩
  | succ j ih =>
    rcases max_choice (pM s j) (blk (fun c' => s (col (j + 1) c'))) with h | h
    · obtain ⟨i, hi, c', hc⟩ := ih
      exact ⟨i, Nat.le_succ_of_le hi, c', by rw [hc]; exact h.symm⟩
    · obtain ⟨c', hc⟩ := blk_attained (fun c' => s (col (j + 1) c'))
      exact ⟨j + 1, le_rfl, c', by rw [hc]; exact h.symm⟩

/-- Rescaling the terms of blocks 0..j from the maximum `M` to the maximum `M'` and adding block j+1's terms gives
    the terms of blocks 0..j+1 against `M'`: exp (M − M')·exp (x − M) = exp (x − M'). -/
private theorem rescale (s : Fin 8192 → ℝ) (w : ℕ → Fin 1024 → ℝ) (j : ℕ) (M M' : ℝ) :
    Real.exp (M - M') * (∑ i ∈ Finset.range (j + 1), ∑ c' : Fin 1024, Real.exp (s (col i c') - M) * w i c')
        + ∑ c' : Fin 1024, Real.exp (s (col (j + 1) c') - M') * w (j + 1) c'
      = ∑ i ∈ Finset.range (j + 1 + 1), ∑ c' : Fin 1024, Real.exp (s (col i c') - M') * w i c' := by
  rw [Finset.sum_range_succ _ (j + 1), Finset.mul_sum]
  congr 1
  refine Finset.sum_congr rfl fun i _ => ?_
  rw [Finset.mul_sum]
  refine Finset.sum_congr rfl fun c' _ => ?_
  rw [← mul_assoc, ← Real.exp_add]
  congr 2
  ring

/-- The invariant: after blocks 0..j the carried maximum is the real prefix maximum, the normalizer the sum of
    exp (s − M_j) over the columns of those blocks, and the weighted sum that of exp (s − M_j)·v. -/
private theorem rowOnline_inv (s : Fin 8192 → ℝ) (v : Fin 8192 → Fin 64 → ℝ) (j : ℕ) :
    rowOnline (fun c => ((s c : ℝ) : EReal)) (fun c d => ((v c d : ℝ) : EReal)) j
      = ⟨((pM s j : ℝ) : EReal),
          ((∑ i ∈ Finset.range (j + 1), ∑ c' : Fin 1024, Real.exp (s (col i c') - pM s j) : ℝ) : EReal),
          fun d => ((∑ i ∈ Finset.range (j + 1), ∑ c' : Fin 1024,
            Real.exp (s (col i c') - pM s j) * v (col i c') d : ℝ) : EReal)⟩ := by
  induction j with
  | zero =>
    rw [rowOnline]
    refine (rowStep_init (fun c' => s (col 0 c')) (fun c' => v (col 0 c'))).trans ?_
    simp only [pM, zero_add, Finset.range_one, Finset.sum_singleton]
  | succ j ih =>
    rw [rowOnline, ih]
    refine (rowStep_coe (fun c' => s (col (j + 1) c')) (fun c' => v (col (j + 1) c')) _ _ _).trans ?_
    have hL := rescale s (fun _ _ => 1) j (pM s j) (pM s (j + 1))
    simp only [mul_one] at hL
    have hA := fun d => rescale s (fun i c' => v (col i c') d) j (pM s j) (pM s (j + 1))
    simp only [pM] at hL hA ⊢
    simp only [hL, hA]

/-! ### The eight blocks tile the 8192 columns -/

/-- Every column lies in one of the blocks 0..7. -/
private theorem col_cover (c : Fin 8192) : ∃ i ≤ 7, ∃ c' : Fin 1024, col i c' = c := by
  refine ⟨c.val / 1024, by omega, ⟨c.val % 1024, Nat.mod_lt _ (by norm_num)⟩, ?_⟩
  apply Fin.ext
  show (1024 * (c.val / 1024) + c.val % 1024) % 8192 = c.val
  omega

/-- A sum over all columns is the sum over the blocks 0..7 of the sums over each block. -/
private theorem sum_tile (f : Fin 8192 → ℝ) :
    ∑ c : Fin 8192, f c = ∑ i ∈ Finset.range 8, ∑ c' : Fin 1024, f (col i c') := by
  rw [← Fin.sum_univ_eq_sum_range (fun i => ∑ c' : Fin 1024, f (col i c')) 8,
    ← Fintype.sum_prod_type' (fun (i : Fin 8) (c' : Fin 1024) => f (col i.val c'))]
  refine (Fintype.sum_equiv (finProdFinEquiv (m := 8) (n := 1024)) _ _ fun p => ?_).symm
  congr 1
  apply Fin.ext
  show (1024 * p.1.val + p.2.val) % 8192 = p.2.val + 1024 * p.1.val
  omega

/-- For real logits `s` and real values `v`, the row state after all eight column blocks: there is a real `M`, the
    maximum of the logits (an upper bound that is attained), such that the normalizer is Σ_c exp (s c − M) and the
    weighted sum Σ_c exp (s c − M)·v c d, over all 8192 columns. -/
theorem rowOnline_last (s : Fin 8192 → ℝ) (v : Fin 8192 → Fin 64 → ℝ) :
    ∃ M : ℝ, (∀ c, s c ≤ M) ∧ (∃ c, s c = M)
      ∧ (rowOnline (fun c => ((s c : ℝ) : EReal)) (fun c d => ((v c d : ℝ) : EReal)) 7).l
          = ((∑ c : Fin 8192, Real.exp (s c - M) : ℝ) : EReal)
      ∧ ∀ d : Fin 64, (rowOnline (fun c => ((s c : ℝ) : EReal)) (fun c d => ((v c d : ℝ) : EReal)) 7).acc d
          = ((∑ c : Fin 8192, Real.exp (s c - M) * v c d : ℝ) : EReal) := by
  refine ⟨pM s 7, ?_, ?_, ?_, ?_⟩
  · intro c
    obtain ⟨i, hi, c', rfl⟩ := col_cover c
    exact le_pM s 7 i hi c'
  · obtain ⟨i, _, c', h⟩ := pM_attained s 7
    exact ⟨col i c', h⟩
  · rw [rowOnline_inv, sum_tile]
  · intro d
    rw [rowOnline_inv, sum_tile]

end Cert.Spec

end
-- ==== Proof.Online.lean ====
/-
  The law that joins the two programs: on FINITE inputs the kernel's blockwise online softmax is the reference's
  two-pass softmax attention. Finite inputs make every projection entry, logit and value a real number, so the two
  split-precision correction terms of the kernel's logits vanish, (x·Wq·(1/8))·k = (x·Wq·k)/8, and for reals the
  online recursion's invariant holds: after column blocks 0..j the running maximum is the maximum over those
  columns, the normalizer is Σ exp (s − max) and the weighted sum Σ exp (s − max)·v over them (the rescaling by
  exp (m_old − m_new) is exp's addition law); after the last block acc / l = Σ (exp (s − M) / L)·v.
-/
import proofs.«422835_j70282844832522_3_alg».proof.Proof.Spec
import proofs.«422835_j70282844832522_3_alg».proof.Proof.OnlineFold
import Mathlib.Analysis.SpecialFunctions.Exp
import Mathlib.Data.EReal.Basic
import Mathlib.Data.EReal.Operations
import Mathlib.Algebra.BigOperators.Group.Finset.Basic
import Mathlib.Data.Finset.Fold
import Mathlib.Algebra.BigOperators.Field
import Mathlib.Algebra.Order.BigOperators.Group.Finset
import Mathlib.Tactic.Ring
import Mathlib.Tactic.NormNum

set_option maxRecDepth 16384

noncomputable section

namespace Cert.Spec

open Idealize.ShloMosaic

/-! ### The four constants, each pattern evaluated once -/

/-- The pattern of 0.125 denotes the real 1/8. -/
private theorem cEighth_eq : cEighth = ((1 / 8 : ℝ) : EReal) := by
  simp [Ideal.ofBits, Ideal.ieee, -EReal.coe_mul]; norm_num

/-- The pattern of 8.0 denotes the real 8. -/
private theorem cEight_eq : cEight = ((8 : ℝ) : EReal) := by
  simp [Ideal.ofBits, Ideal.ieee, -EReal.coe_mul]; norm_num

/-- The pattern of −∞ denotes the bottom element. -/
private theorem cNegInf_eq : cNegInf = ⊥ := by
  simp [Ideal.ofBits, Ideal.ieee]

/-- The pattern of +0 denotes 0. -/
private theorem cZero_eq : cZero = 0 := by
  simp [Ideal.ofBits, Ideal.ieee]

/-! ### Coercion of the reals through finite sums and the corner-free operations -/

/-- The coercion ℝ → EReal is additive, so it commutes with finite sums. -/
private theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals with a nonzero divisor is the real quotient. -/
private theorem div_coe_coe (a L : ℝ) (hL : L ≠ 0) :
    Ideal.div ((a : ℝ) : EReal) ((L : ℝ) : EReal) = ((a / L : ℝ) : EReal) := by
  rw [Ideal.div_coe hL, ← EReal.coe_mul, mul_one_div]

/-! ### The projections and logits of real arrays -/

/-- The real matrix product [n,512]·[512,64]. -/
private def rproj {n : Nat} (X : Fin n → Fin 512 → ℝ) (W : Fin 512 → Fin 64 → ℝ) : Fin n → Fin 64 → ℝ :=
  fun r d => ∑ k : Fin 512, X r k * W k d

/-- The projection of coerced real arrays is the coercion of the real matrix product. -/
private theorem proj_coe {n : Nat} (X : Fin n → Fin 512 → ℝ) (W : Fin 512 → Fin 64 → ℝ) :
    proj (fun r k => ((X r k : ℝ) : EReal)) (fun k d => ((W k d : ℝ) : EReal))
      = fun r d => ((rproj X W r d : ℝ) : EReal) := by
  funext r d
  unfold proj rproj
  rw [coe_sum]
  exact Finset.sum_congr rfl fun k _ => (EReal.coe_mul _ _).symm

/-- The kernel's scaled projection likewise: the real product times 1/8. -/
private theorem projQ_coe {n : Nat} (X : Fin n → Fin 512 → ℝ) (W : Fin 512 → Fin 64 → ℝ) :
    projQ (fun r k => ((X r k : ℝ) : EReal)) (fun k d => ((W k d : ℝ) : EReal))
      = fun r d => ((rproj X W r d * (1 / 8) : ℝ) : EReal) := by
  funext r d
  unfold projQ
  rw [proj_coe, cEighth_eq, EReal.coe_mul]

/-- On real-valued Q and K both correction sums of the kernel's logit vanish (a − a = 0 for a real a), leaving the
    plain product of the rows. -/
private theorem scoreK_coe (Q K : Fin 8192 → Fin 64 → ℝ) (r : Fin 8192) :
    scoreK (fun r d => ((Q r d : ℝ) : EReal)) (fun c d => ((K c d : ℝ) : EReal)) r
      = fun c => ((∑ d : Fin 64, Q r d * K c d : ℝ) : EReal) := by
  funext c
  have h2 : (∑ d : Fin 64, ((Q r d : ℝ) : EReal) * (((K c d : ℝ) : EReal) - ((K c d : ℝ) : EReal))) = 0 :=
    Finset.sum_eq_zero fun d _ => by rw [← EReal.coe_sub, sub_self, EReal.coe_zero, mul_zero]
  have h3 : (∑ d : Fin 64, (((Q r d : ℝ) : EReal) - ((Q r d : ℝ) : EReal)) * ((K c d : ℝ) : EReal)) = 0 :=
    Finset.sum_eq_zero fun d _ => by rw [← EReal.coe_sub, sub_self, EReal.coe_zero, zero_mul]
  show ((∑ d : Fin 64, ((Q r d : ℝ) : EReal) * ((K c d : ℝ) : EReal))
      + ∑ d : Fin 64, ((Q r d : ℝ) : EReal) * (((K c d : ℝ) : EReal) - ((K c d : ℝ) : EReal)))
      + ∑ d : Fin 64, (((Q r d : ℝ) : EReal) - ((Q r d : ℝ) : EReal)) * ((K c d : ℝ) : EReal) = _
  rw [h2, h3, add_zero, add_zero, coe_sum]
  exact Finset.sum_congr rfl fun d _ => (EReal.coe_mul _ _).symm

/-- The common real logit of query row r against key row c: the product of the projected rows, over 8. -/
private def logit (X : Fin 8192 → Fin 512 → ℝ) (WQ WK : Fin 512 → Fin 64 → ℝ) (r c : Fin 8192) : ℝ :=
  (∑ d : Fin 64, rproj X WQ r d * rproj X WK c d) / 8

/-- Scaling the query row by 1/8 before the product is dividing the product by 8. -/
private theorem logitK_eq (X : Fin 8192 → Fin 512 → ℝ) (WQ WK : Fin 512 → Fin 64 → ℝ) (r c : Fin 8192) :
    (∑ d : Fin 64, (rproj X WQ r d * (1 / 8)) * rproj X WK c d) = logit X WQ WK r c := by
  unfold logit
  rw [Finset.sum_div]
  exact Finset.sum_congr rfl fun d _ => by ring

/-- The reference's logits of coerced real arrays are the coerced common logits. -/
private theorem scoreR_coe (X : Fin 8192 → Fin 512 → ℝ) (WQ WK : Fin 512 → Fin 64 → ℝ) (r : Fin 8192) :
    scoreR (fun r k => ((X r k : ℝ) : EReal)) (fun k d => ((WQ k d : ℝ) : EReal))
        (fun k d => ((WK k d : ℝ) : EReal)) r
      = fun c => ((logit X WQ WK r c : ℝ) : EReal) := by
  funext c
  unfold scoreR
  rw [proj_coe, proj_coe, cEight_eq, Ideal.div_coe (by norm_num : (8 : ℝ) ≠ 0)]
  have h : (∑ d : Fin 64, ((rproj X WQ r d : ℝ) : EReal) * ((rproj X WK c d : ℝ) : EReal))
      = ((∑ d : Fin 64, rproj X WQ r d * rproj X WK c d : ℝ) : EReal) := by
    rw [coe_sum]
    exact Finset.sum_congr rfl fun d _ => (EReal.coe_mul _ _).symm
  rw [h, ← EReal.coe_mul]
  congr 1
  unfold logit
  ring

/-! ### The reference's row maximum and normalizer -/

/-- The fold of max from ⊥ over coerced reals is their maximum: an upper bound that is attained. -/
private theorem fold_max_coe {n : Nat} (f : Fin n → ℝ) (M : ℝ) (hle : ∀ c, f c ≤ M) (hat : ∃ c, f c = M) :
    (Finset.univ : Finset (Fin n)).fold max (⊥ : EReal) (fun c => ((f c : ℝ) : EReal)) = ((M : ℝ) : EReal) := by
  apply le_antisymm
  · rw [Finset.fold_max_le]
    exact ⟨bot_le, fun c _ => EReal.coe_le_coe_iff.mpr (hle c)⟩
  · rw [Finset.le_fold_max]
    obtain ⟨c, hc⟩ := hat
    exact Or.inr ⟨c, Finset.mem_univ c, by rw [hc]⟩

/-- The reference's row maximum (max against ⊥ once more is the identity). -/
private theorem maxR_coe (f : Fin 8192 → ℝ) (M : ℝ) (hle : ∀ c, f c ≤ M) (hat : ∃ c, f c = M) :
    maxR (fun c => ((f c : ℝ) : EReal)) = ((M : ℝ) : EReal) := by
  unfold maxR
  rw [cNegInf_eq, fold_max_coe f M hle hat, max_bot_left]

/-- The reference's normalizer: the real sum of exp (s − M). -/
private theorem sumR_coe (f : Fin 8192 → ℝ) (M : ℝ) (hle : ∀ c, f c ≤ M) (hat : ∃ c, f c = M) :
    sumR (fun c => ((f c : ℝ) : EReal)) = ((∑ c : Fin 8192, Real.exp (f c - M) : ℝ) : EReal) := by
  unfold sumR
  rw [maxR_coe f M hle hat, cZero_eq, zero_add, coe_sum]
  exact Finset.sum_congr rfl fun c _ => by rw [← EReal.coe_sub, Ideal.exp_coe]

/-- The normalizer is positive: every term is, and there is a column. -/
private theorem sum_exp_pos {n : Nat} (f : Fin n → ℝ) (M : ℝ) (hat : ∃ c, f c = M) :
    0 < ∑ c : Fin n, Real.exp (f c - M) := by
  obtain ⟨c0, _⟩ := hat
  exact Finset.sum_pos (fun c _ => Real.exp_pos _) ⟨c0, Finset.mem_univ c0⟩

/-! ### The two sides of one output entry, through the row maximum M -/

/-- The kernel's entry: the carried weighted sum over the carried normalizer, as a real quotient. -/
private theorem kernel_val (X : Fin 8192 → Fin 512 → ℝ) (WQ WK WV : Fin 512 → Fin 64 → ℝ) (r : Fin 8192) (d : Fin 64)
    (M : ℝ)
    (hl : (rowOnline (fun c => ((logit X WQ WK r c : ℝ) : EReal)) (fun c d => ((rproj X WV c d : ℝ) : EReal)) 7).l
        = ((∑ c : Fin 8192, Real.exp (logit X WQ WK r c - M) : ℝ) : EReal))
    (hacc : ∀ d : Fin 64,
      (rowOnline (fun c => ((logit X WQ WK r c : ℝ) : EReal)) (fun c d => ((rproj X WV c d : ℝ) : EReal)) 7).acc d
        = ((∑ c : Fin 8192, Real.exp (logit X WQ WK r c - M) * rproj X WV c d : ℝ) : EReal))
    (hL : (∑ c : Fin 8192, Real.exp (logit X WQ WK r c - M)) ≠ 0) :
    kernelOut (fun r k => ((X r k : ℝ) : EReal)) (fun k d => ((WQ k d : ℝ) : EReal))
        (fun k d => ((WK k d : ℝ) : EReal)) (fun k d => ((WV k d : ℝ) : EReal)) r d
      = (((∑ c : Fin 8192, Real.exp (logit X WQ WK r c - M) * rproj X WV c d)
          / (∑ c : Fin 8192, Real.exp (logit X WQ WK r c - M)) : ℝ) : EReal) := by
  unfold kernelOut attnOnline
  rw [projQ_coe, proj_coe, proj_coe, scoreK_coe (fun r d => rproj X WQ r d * (1 / 8)) (rproj X WK) r]
  have hS : (fun c => ((∑ d : Fin 64, (rproj X WQ r d * (1 / 8)) * rproj X WK c d : ℝ) : EReal))
      = fun c => ((logit X WQ WK r c : ℝ) : EReal) := funext fun c => by rw [logitK_eq]
  rw [hS, hl, hacc d, div_coe_coe _ _ hL]

/-- The reference's entry: the real sum of the normalized weights against the values. -/
private theorem ref_val (X : Fin 8192 → Fin 512 → ℝ) (WQ WK WV : Fin 512 → Fin 64 → ℝ) (r : Fin 8192) (d : Fin 64)
    (M : ℝ) (hle : ∀ c, logit X WQ WK r c ≤ M) (hat : ∃ c, logit X WQ WK r c = M)
    (hL : (∑ c : Fin 8192, Real.exp (logit X WQ WK r c - M)) ≠ 0) :
    attnRef (fun r k => ((X r k : ℝ) : EReal)) (fun k d => ((WQ k d : ℝ) : EReal))
        (fun k d => ((WK k d : ℝ) : EReal)) (fun k d => ((WV k d : ℝ) : EReal)) r d
      = ((∑ c : Fin 8192, Real.exp (logit X WQ WK r c - M)
            / (∑ c : Fin 8192, Real.exp (logit X WQ WK r c - M)) * rproj X WV c d : ℝ) : EReal) := by
  unfold attnRef
  rw [scoreR_coe, proj_coe, maxR_coe (logit X WQ WK r) M hle hat, sumR_coe (logit X WQ WK r) M hle hat]
  refine Eq.trans ?_ (coe_sum _ _).symm
  refine Finset.sum_congr rfl fun c _ => ?_
  show Ideal.div (Ideal.exp (((logit X WQ WK r c : ℝ) : EReal) - ((M : ℝ) : EReal)))
      ((∑ c : Fin 8192, Real.exp (logit X WQ WK r c - M) : ℝ) : EReal) * ((rproj X WV c d : ℝ) : EReal) = _
  rw [← EReal.coe_sub, Ideal.exp_coe, div_coe_coe _ _ hL, ← EReal.coe_mul]

/-- One entry: with M the row's maximum logit and L its normalizer, (Σ e·v) / L = Σ (e / L)·v. -/
private theorem entry_eq (X : Fin 8192 → Fin 512 → ℝ) (WQ WK WV : Fin 512 → Fin 64 → ℝ) (r : Fin 8192) (d : Fin 64) :
    kernelOut (fun r k => ((X r k : ℝ) : EReal)) (fun k d => ((WQ k d : ℝ) : EReal))
        (fun k d => ((WK k d : ℝ) : EReal)) (fun k d => ((WV k d : ℝ) : EReal)) r d
      = attnRef (fun r k => ((X r k : ℝ) : EReal)) (fun k d => ((WQ k d : ℝ) : EReal))
        (fun k d => ((WK k d : ℝ) : EReal)) (fun k d => ((WV k d : ℝ) : EReal)) r d := by
  obtain ⟨M, hle, hat, hl, hacc⟩ := rowOnline_last (logit X WQ WK r) (rproj X WV)
  have hL : (∑ c : Fin 8192, Real.exp (logit X WQ WK r c - M)) ≠ 0 := (sum_exp_pos (logit X WQ WK r) M hat).ne'
  rw [kernel_val X WQ WK WV r d M hl hacc hL, ref_val X WQ WK WV r d M hle hat hL]
  refine congrArg (fun t : ℝ => ((t : ℝ) : EReal)) ?_
  rw [Finset.sum_div]
  exact Finset.sum_congr rfl fun c _ => by ring

/-- On finite argument arrays the kernel's result is the reference's. -/
theorem kernelOut_eq_attnRef (x : Fin 8192 → Fin 512 → EReal) (wq wk wv : Fin 512 → Fin 64 → EReal)
    (hx : ∀ r k, ∃ a : ℝ, x r k = (a : EReal)) (hwq : ∀ k d, ∃ a : ℝ, wq k d = (a : EReal))
    (hwk : ∀ k d, ∃ a : ℝ, wk k d = (a : EReal)) (hwv : ∀ k d, ∃ a : ℝ, wv k d = (a : EReal)) :
    kernelOut x wq wk wv = attnRef x wq wk wv := by
  choose X hX using hx
  choose WQ hWQ using hwq
  choose WK hWK using hwk
  choose WV hWV using hwv
  obtain rfl : x = fun r k => ((X r k : ℝ) : EReal) := funext fun r => funext fun k => hX r k
  obtain rfl : wq = fun k d => ((WQ k d : ℝ) : EReal) := funext fun k => funext fun d => hWQ k d
  obtain rfl : wk = fun k d => ((WK k d : ℝ) : EReal) := funext fun k => funext fun d => hWK k d
  obtain rfl : wv = fun k d => ((WV k d : ℝ) : EReal) := funext fun k => funext fun d => hWV k d
  funext r d
  exact entry_eq X WQ WK WV r d

end Cert.Spec

end
-- ==== Proof.RefValue.lean ====
/-
  The reference's result, read index by index off its generated run, at the extended reals: three projections, the
  logits (q·kᵀ)/8, their row maximum (against −∞ once more), exp of the differences, the row sums, the quotient and the
  product with the values — the softmax-attention formula `Spec.attnRef` of the four argument arrays.
-/
import proofs.«422835_j70282844832522_3_alg».proof.Proof.Gen.ReferenceIdeal.Read
import proofs.«422835_j70282844832522_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

section Stages

variable (x0 : (⟨S8192x512, .f32⟩ : BufTy).Contents (Elt Ideal)) (x1 x2 x3 : (⟨S512x64, .f32⟩ : BufTy).Contents (Elt Ideal))

/-! ## The index maps of the reading, at coordinates -/

private theorem lidx_v0 (r : Fin 8192) (d : Fin 64) (k : Fin 512) : lidx_main_v0 (ix2 r d) k = ix2 r k :=
  funext fun a => Fin.ext (by match a with | ⟨0, _⟩ => rfl | ⟨1, _⟩ => rfl)
private theorem ridx_v0 (r : Fin 8192) (d : Fin 64) (k : Fin 512) : ridx_main_v0 (ix2 r d) k = ix2 k d :=
  funext fun a => Fin.ext (by match a with | ⟨0, _⟩ => rfl | ⟨1, _⟩ => rfl)
private theorem lidx_v1 (r : Fin 8192) (d : Fin 64) (k : Fin 512) : lidx_main_v1 (ix2 r d) k = ix2 r k :=
  funext fun a => Fin.ext (by match a with | ⟨0, _⟩ => rfl | ⟨1, _⟩ => rfl)
private theorem ridx_v1 (r : Fin 8192) (d : Fin 64) (k : Fin 512) : ridx_main_v1 (ix2 r d) k = ix2 k d :=
  funext fun a => Fin.ext (by match a with | ⟨0, _⟩ => rfl | ⟨1, _⟩ => rfl)
private theorem lidx_v2 (r : Fin 8192) (d : Fin 64) (k : Fin 512) : lidx_main_v2 (ix2 r d) k = ix2 r k :=
  funext fun a => Fin.ext (by match a with | ⟨0, _⟩ => rfl | ⟨1, _⟩ => rfl)
private theorem ridx_v2 (r : Fin 8192) (d : Fin 64) (k : Fin 512) : ridx_main_v2 (ix2 r d) k = ix2 k d :=
  funext fun a => Fin.ext (by match a with | ⟨0, _⟩ => rfl | ⟨1, _⟩ => rfl)
/-- The transposed keys at (k, c) are the keys at (c, k). -/
private theorem idx_v3 (k : Fin 64) (c : Fin 8192) : idx_main_v3 (ix2 k c) = ix2 c k :=
  funext fun a => Fin.ext (by match a with | ⟨0, _⟩ => rfl | ⟨1, _⟩ => rfl)
private theorem lidx_v4 (r c : Fin 8192) (k : Fin 64) : lidx_main_v4 (ix2 r c) k = ix2 r k :=
  funext fun a => Fin.ext (by match a with | ⟨0, _⟩ => rfl | ⟨1, _⟩ => rfl)
private theorem ridx_v4 (r c : Fin 8192) (k : Fin 64) : ridx_main_v4 (ix2 r c) k = ix2 k c :=
  funext fun a => Fin.ext (by match a with | ⟨0, _⟩ => rfl | ⟨1, _⟩ => rfl)
/-- A row's maximum, kept as a column and spread over the row, is read at the row. -/
private theorem idx_v10_v11 (r c : Fin 8192) : idx_main_v10 (idx_main_v11 (ix2 r c)) = ix1 r :=
  funext fun a => Fin.ext (by match a with | ⟨0, _⟩ => rfl)
private theorem idx_v14 (r k : Fin 8192) : idx_main_v14 (ix1 r) k = ix2 r k :=
  funext fun a => Fin.ext (by match a with | ⟨0, _⟩ => rfl | ⟨1, _⟩ => rfl)
/-- A row's sum, kept as a column and spread over the row, is read at the row. -/
private theorem idx_v15_v16 (r c : Fin 8192) : idx_main_v15 (idx_main_v16 (ix2 r c)) = ix1 r :=
  funext fun a => Fin.ext (by match a with | ⟨0, _⟩ => rfl)
private theorem lidx_v18 (r : Fin 8192) (d : Fin 64) (k : Fin 8192) : lidx_main_v18 (ix2 r d) k = ix2 r k :=
  funext fun a => Fin.ext (by match a with | ⟨0, _⟩ => rfl | ⟨1, _⟩ => rfl)
private theorem ridx_v18 (r : Fin 8192) (d : Fin 64) (k : Fin 8192) : ridx_main_v18 (ix2 r d) k = ix2 k d :=
  funext fun a => Fin.ext (by match a with | ⟨0, _⟩ => rfl | ⟨1, _⟩ => rfl)

/-! ## The three projections -/

/-- The query projection at (r, d) is the matrix product of the curried arrays. -/
private theorem projQ_apply (r : Fin 8192) (d : Fin 64) :
    val_main_v0 (F := Ideal) x0 x1 (ix2 r d)
      = Spec.proj (Spec.cur (a := 8192) (b := 512) x0) (Spec.cur (a := 512) (b := 64) x1) r d := by
  rw [val_main_v0_apply]
  unfold Spec.proj Spec.cur
  refine Finset.sum_congr rfl fun k _ => ?_
  rw [lidx_v0, ridx_v0]

/-- The key projection at (r, d). -/
private theorem projK_apply (r : Fin 8192) (d : Fin 64) :
    val_main_v1 (F := Ideal) x0 x2 (ix2 r d)
      = Spec.proj (Spec.cur (a := 8192) (b := 512) x0) (Spec.cur (a := 512) (b := 64) x2) r d := by
  rw [val_main_v1_apply]
  unfold Spec.proj Spec.cur
  refine Finset.sum_congr rfl fun k _ => ?_
  rw [lidx_v1, ridx_v1]

/-- The value projection at (r, d). -/
private theorem projV_apply (r : Fin 8192) (d : Fin 64) :
    val_main_v2 (F := Ideal) x0 x3 (ix2 r d)
      = Spec.proj (Spec.cur (a := 8192) (b := 512) x0) (Spec.cur (a := 512) (b := 64) x3) r d := by
  rw [val_main_v2_apply]
  unfold Spec.proj Spec.cur
  refine Finset.sum_congr rfl fun k _ => ?_
  rw [lidx_v2, ridx_v2]

/-! ## The logits -/

/-- The scaled logit of query row `r` against key row `c`: the rows' product over the 64 features, divided by 8. -/
private theorem score_apply (r c : Fin 8192) :
    val_main_v6 (F := Ideal) x0 x1 x2 (ix2 r c)
      = Spec.scoreR (Spec.cur (a := 8192) (b := 512) x0) (Spec.cur (a := 512) (b := 64) x1) (Spec.cur (a := 512) (b := 64) x2) r c := by
  rw [val_main_v6_apply, val_main_v4_apply, val_main_v5_apply, val_main_cst_apply]
  unfold Spec.scoreR
  show Ideal.div _ _ = Ideal.div _ _
  refine congrArg (fun s => Ideal.div s Spec.cEight) (Finset.sum_congr rfl fun k _ => ?_)
  rw [lidx_v4, ridx_v4, val_main_v3_apply, idx_v3, projQ_apply, projK_apply]

/-! ## The row maximum -/

/-- A row index with column `k` put back on the reduced axis is (r, k). -/
private theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The maximum over the columns from −∞, at row `r`, is the fold of `max` over the row's 8192 entries. -/
private theorem rowMax_apply (y : FVec Ideal S8192x8192 .f32) (r : Fin 8192) :
    Host.reduce (FloatOps.maximumf (F := Ideal) (φ := .f32)) y (val_main_cst_0 (F := Ideal)) reducesTo_S8192x8192_S8192_d1 h_S_ (ix1 r)
      = (Finset.univ : Finset (Fin 8192)).fold max Spec.cNegInf (fun c => y (ix2 r c)) := by
  have h : S8192x8192.Reduces [1] S8192 := by decide
  rw [Host.reduce_eq_fold_single (FloatOps.maximumf (F := Ideal) (φ := .f32)) y _ reducesTo_S8192x8192_S8192_d1 h h_S_]
  have hf : (y ∘ h.lift (ix1 r)) = fun k : Fin 8192 => y (ix2 r k) := funext fun k => congrArg y (lift_row h r k)
  exact congrArg (fun f => Finset.fold max Spec.cNegInf f (Finset.univ : Finset (Fin 8192))) hf

/-- The reference's row maximum (the fold, against −∞ once more) is `Spec.maxR` of the row's logits. -/
private theorem maxR_apply (r : Fin 8192) :
    val_main_v9 (F := Ideal) x0 x1 x2 (ix1 r)
      = Spec.maxR (Spec.scoreR (Spec.cur (a := 8192) (b := 512) x0) (Spec.cur (a := 512) (b := 64) x1) (Spec.cur (a := 512) (b := 64) x2) r) := by
  rw [val_main_v9_apply, val_main_v8_apply, val_main_cst_1_apply]
  unfold val_main_v7
  have hm := rowMax_apply (val_main_v6 (F := Ideal) x0 x1 x2) r
  have hs : (fun c : Fin 8192 => val_main_v6 (F := Ideal) x0 x1 x2 (ix2 r c))
      = Spec.scoreR (Spec.cur (a := 8192) (b := 512) x0) (Spec.cur (a := 512) (b := 64) x1) (Spec.cur (a := 512) (b := 64) x2) r :=
    funext fun c => score_apply x0 x1 x2 r c
  rw [hs] at hm
  exact congrArg (max Spec.cNegInf) hm

/-! ## The weights -/

/-- exp of a logit less its row's maximum. -/
private theorem expDiff_apply (r c : Fin 8192) :
    val_main_v13 (F := Ideal) x0 x1 x2 (ix2 r c)
      = Ideal.exp (Spec.scoreR (Spec.cur (a := 8192) (b := 512) x0) (Spec.cur (a := 512) (b := 64) x1) (Spec.cur (a := 512) (b := 64) x2) r c
          - Spec.maxR (Spec.scoreR (Spec.cur (a := 8192) (b := 512) x0) (Spec.cur (a := 512) (b := 64) x1) (Spec.cur (a := 512) (b := 64) x2) r)) := by
  rw [val_main_v13_apply, val_main_v12_apply, val_main_v11_apply, val_main_v10_apply, idx_v10_v11, score_apply, maxR_apply]
  rfl

/-- The row's normalizer: the initial zero plus the sum of the row's exponentials. -/
private theorem sumR_apply (r : Fin 8192) :
    val_main_v14 (F := Ideal) x0 x1 x2 (ix1 r)
      = Spec.sumR (Spec.scoreR (Spec.cur (a := 8192) (b := 512) x0) (Spec.cur (a := 512) (b := 64) x1) (Spec.cur (a := 512) (b := 64) x2) r) := by
  rw [val_main_v14_apply, val_main_cst_2_apply]
  unfold Spec.sumR
  show Spec.cZero + _ = Spec.cZero + _
  refine congrArg (fun s => Spec.cZero + s) (Finset.sum_congr rfl fun k _ => ?_)
  rw [idx_v14, expDiff_apply]

/-- The normalized weight of column `c` in row `r`. -/
private theorem weight_apply (r c : Fin 8192) :
    val_main_v17 (F := Ideal) x0 x1 x2 (ix2 r c)
      = Ideal.div
          (Ideal.exp (Spec.scoreR (Spec.cur (a := 8192) (b := 512) x0) (Spec.cur (a := 512) (b := 64) x1) (Spec.cur (a := 512) (b := 64) x2) r c
            - Spec.maxR (Spec.scoreR (Spec.cur (a := 8192) (b := 512) x0) (Spec.cur (a := 512) (b := 64) x1) (Spec.cur (a := 512) (b := 64) x2) r)))
          (Spec.sumR (Spec.scoreR (Spec.cur (a := 8192) (b := 512) x0) (Spec.cur (a := 512) (b := 64) x1) (Spec.cur (a := 512) (b := 64) x2) r)) := by
  rw [val_main_v17_apply, val_main_v16_apply, val_main_v15_apply, idx_v15_v16, expDiff_apply, sumR_apply]
  rfl

end Stages

/-- The reference run's last stage is the softmax-attention formula of the argument arrays. -/
theorem ref_eq (x0 : (⟨S8192x512, .f32⟩ : BufTy).Contents (Elt Ideal)) (x1 x2 x3 : (⟨S512x64, .f32⟩ : BufTy).Contents (Elt Ideal)) :
    val_main_v18 (F := Ideal) x0 x1 x2 x3
      = Spec.uncur (Spec.attnRef (Spec.cur (a := 8192) (b := 512) x0) (Spec.cur (a := 512) (b := 64) x1)
          (Spec.cur (a := 512) (b := 64) x2) (Spec.cur (a := 512) (b := 64) x3)) := by
  funext i
  obtain ⟨r, d, rfl⟩ : ∃ (r : Fin 8192) (d : Fin 64), i = ix2 r d := ⟨i 0, i 1, eq_ix2 i⟩
  rw [Spec.uncur_ix2, val_main_v18_apply]
  unfold Spec.attnRef
  refine Finset.sum_congr rfl fun c _ => ?_
  rw [lidx_v18, ridx_v18, weight_apply, projV_apply]

end Cert.ReferenceIdeal.RefValue

end
-- ==== Proof.Finite.lean ====
/-
  What the precondition says: `finite_inputs` holds of four arrays exactly when every entry of each is finite, that
  is, a real number. Read off the printed predicate: an and of four all-reductions of the elementwise test
  |x| < +∞.
-/
import proofs.«422835_j70282844832522_3_alg».proof.Pre_finite_inputs
import proofs.«422835_j70282844832522_3_alg».proof.Proof.Gen.Pre_finite_inputs
import Idealize.ShloMosaic.PureOps.Ideal
import Idealize.ShloMosaic.Lib.ReduceAll
import Idealize.ShloMosaic.Lib.ValueIdx

set_option maxRecDepth 16384

noncomputable section

namespace Cert.Pre_finite_inputs.Finite

open Cert.Pre_finite_inputs Cert.Pre_finite_inputs.Gen
open Idealize.ShloMosaic

/-- An extended real whose absolute value `max x (-x)` lies below `⊤` is neither infinity, so it is a real. -/
private theorem real_of_abs_lt_top {x : EReal} (h : max x (-x) < ⊤) : ∃ r : ℝ, x = (r : EReal) := by
  have h1 : x ≠ ⊤ := by
    rintro rfl
    simp at h
  have h2 : x ≠ ⊥ := by
    rintro rfl
    simp at h
  exact ⟨x.toReal, (EReal.coe_toReal h1 h2).symm⟩

/-- The word `0x7F800000` is `+∞`. -/
private theorem inf_bits : Ideal.ofBits .f32 0x7F800000#32 = ⊤ := by
  simp [Ideal.ofBits, Ideal.ieee]

/-- A one-bit word made from a Boolean is 1 exactly when the Boolean is true. -/
private theorem ofBool_eq_one {b : Bool} : BitVec.ofBool b = 1#1 ↔ b = true := by cases b <;> decide

/-- One array's test: where the elementwise `|x| < +∞` reads 1, the entry is real. -/
private theorem real_of_test {s : Shape} (a : FVec Ideal s .f32) (hb : S_.BroadcastsInDim s (![] : Fin 0 → Fin s.rank))
    (i : s.Idx)
    (h : cmpf .olt (Host.absf a) (broadcastInDim s ![] hb (constant (F := Ideal) S_ .f32 0x7F800000#32)) i = 1#1) :
    ∃ r : ℝ, a i = (r : EReal) := by
  have h' : BitVec.ofBool (decide (max (a i) (-(a i)) < Ideal.ofBits .f32 0x7F800000#32)) = 1#1 := h
  rw [ofBool_eq_one, decide_eq_true_eq, inf_bits] at h'
  exact real_of_abs_lt_top h'

/-- One array's all-reduction: where the and over every entry's test reads 1, every entry is real. -/
private theorem real_of_all {s : Shape} (a : FVec Ideal s .f32) (hb : S_.BroadcastsInDim s (![] : Fin 0 → Fin s.rank))
    {axes : List (Fin s.rank)} (hr : s.ReducesTo axes S_) (hu : 0 < S_.numel) (j : S_.Idx)
    (h : Host.reduce IntOp.andi
        (cmpf .olt (Host.absf a) (broadcastInDim s ![] hb (constant (F := Ideal) S_ .f32 0x7F800000#32)))
        (constantI S_ 1 1#1) hr hu j = 1#1) (i : s.Idx) : ∃ r : ℝ, a i = (r : EReal) :=
  real_of_test a hb i (Host.reduce_andi_all _ _ hr hu j h i)

/-- If the printed predicate is all ones on four arrays of extended reals, every entry of each is a real number. -/
theorem real_of_fn (a0 : FVec Ideal S8192x512 .f32) (a1 a2 a3 : FVec Ideal S512x64 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h (fun a => a.elim0)
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all a0 _ _ _ _ e0, real_of_all a1 _ _ _ _ e1, real_of_all a2 _ _ _ _ e2, real_of_all a3 _ _ _ _ e3⟩

end Cert.Pre_finite_inputs.Finite

end
-- ==== Proof.IdealClaims.lean ====
/-
  The claims about the idealized programs, assembled.

  The idealized kernel runs (the two regions' frames), its result array ends at the blockwise online-softmax value
  `Spec.kernelOut` of the four arguments (the attention call's array over the projection call's arrays), and its
  arguments end unchanged. The reference runs, ending at the two-pass softmax attention `Spec.attnRef` of its
  arguments. On finite arguments — the precondition — the two values are one function (`Spec.kernelOut_eq_attnRef`).
  The idealization removed two round trips f32 → bf16 → f32, each the identity at the extended reals.
-/
import proofs.«422835_j70282844832522_3_alg».proof.Defs
import proofs.«422835_j70282844832522_3_alg».proof.Proof.Gen.KernelIdeal
import proofs.«422835_j70282844832522_3_alg».proof.Proof.Gen.ReferenceIdeal
import proofs.«422835_j70282844832522_3_alg».proof.Proof.Gen.Pre_finite_inputs
import proofs.«422835_j70282844832522_3_alg».proof.Proof.Gen.ReferenceIdeal.Run
import proofs.«422835_j70282844832522_3_alg».proof.Proof.Gen.ReferenceIdeal.Read
import proofs.«422835_j70282844832522_3_alg».proof.Proof.Run
import proofs.«422835_j70282844832522_3_alg».proof.Proof.ProjValue
import proofs.«422835_j70282844832522_3_alg».proof.Proof.AttnValue
import proofs.«422835_j70282844832522_3_alg».proof.Proof.Online
import proofs.«422835_j70282844832522_3_alg».proof.Proof.RefValue
import proofs.«422835_j70282844832522_3_alg».proof.Proof.Finite

noncomputable section

namespace Cert.Proof.IdealClaims

open Idealize.ShloMosaic Idealize.ShloMosaic.TcCoe Idealize.SL.Sem

/-- Currying an uncurried function gives it back. -/
theorem cur_uncur {a b : Nat} (f : Fin a → Fin b → EReal) : Spec.cur (Spec.uncur f) = f := rfl

/-- The idealized kernel terminates without a fault and leaves its arguments as launched. -/
theorem frame_ki : Cert.frame_KernelIdeal := fun m ρ _ =>
  (θ_run Cert.KernelIdeal.defs _ _).mono (fun _ h c => (h c).2) (Cert.KernelIdeal.Hand.run_main (F := Ideal) m ρ)

/-- The idealized reference terminates without a fault and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: a value rounded to bf16 and widened back is itself at the extended reals. -/
theorem preserves : Cert.preserves_Kernel_KernelIdeal :=
  ⟨IdealRules.truncf_extf.statement _ .f32 .bf16, IdealRules.truncf_extf.statement _ .f32 .bf16⟩

/-- What the idealized kernel's result array holds at the end, as a function of the launch memory: the attention call's
    array over the projection call's three arrays over the arguments. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.dat1 (Cert.KernelIdeal.Hand.V1 m) c).arrAt 3 Cert.KernelIdeal.cfg1.N
      = Spec.uncur (Spec.kernelOut
          (Spec.cur (a := 8192) (b := 512) (m ((c.tc : Thread Cert.KernelIdeal.nD Cert.KernelIdeal.τ).loc Cert.KernelIdeal.main_arg0)))
          (Spec.cur (a := 512) (b := 64) (m ((c.tc : Thread Cert.KernelIdeal.nD Cert.KernelIdeal.τ).loc Cert.KernelIdeal.main_arg1)))
          (Spec.cur (a := 512) (b := 64) (m ((c.tc : Thread Cert.KernelIdeal.nD Cert.KernelIdeal.τ).loc Cert.KernelIdeal.main_arg2)))
          (Spec.cur (a := 512) (b := 64) (m ((c.tc : Thread Cert.KernelIdeal.nD Cert.KernelIdeal.τ).loc Cert.KernelIdeal.main_arg3)))) := by
  rw [Cert.KernelIdeal.HandValue.arrO, Cert.KernelIdeal.Hand.V1_main_v0_0, Cert.KernelIdeal.Hand.V1_main_v0_1,
    Cert.KernelIdeal.Hand.V1_main_v0_2, Cert.KernelIdeal.HandValue.arrQ, Cert.KernelIdeal.HandValue.arrK,
    Cert.KernelIdeal.HandValue.arrV, cur_uncur, cur_uncur, cur_uncur]
  rfl

/-- From memories agreeing on the arguments, under the precondition, both idealized programs run and end with the
    same result array: the kernel's online softmax is the reference's softmax attention on finite inputs. -/
theorem algebraic : Cert.algebraic_KernelIdeal_ReferenceIdeal := by
  intro m ρ m' ρ' hpre hagree
  refine ⟨fun c => Spec.uncur (Spec.attnRef
      (Spec.cur (a := 8192) (b := 512) (m ((c.tc : Thread Cert.KernelIdeal.nD Cert.KernelIdeal.τ).loc Cert.KernelIdeal.main_arg0)))
      (Spec.cur (a := 512) (b := 64) (m ((c.tc : Thread Cert.KernelIdeal.nD Cert.KernelIdeal.τ).loc Cert.KernelIdeal.main_arg1)))
      (Spec.cur (a := 512) (b := 64) (m ((c.tc : Thread Cert.KernelIdeal.nD Cert.KernelIdeal.τ).loc Cert.KernelIdeal.main_arg2)))
      (Spec.cur (a := 512) (b := 64) (m ((c.tc : Thread Cert.KernelIdeal.nD Cert.KernelIdeal.τ).loc Cert.KernelIdeal.main_arg3)))), ?_, ?_⟩
  · refine (θ_run Cert.KernelIdeal.defs _ _).mono (fun _ h c => ⟨(h c).1.trans ?_, (h c).2⟩)
      (Cert.KernelIdeal.Hand.run_main (F := Ideal) m ρ)
    obtain ⟨h0, h1, h2, h3⟩ := Cert.Pre_finite_inputs.Finite.real_of_fn _ _ _ _ (hpre c)
    rw [kernel_value m c]
    refine congrArg Spec.uncur (Spec.kernelOut_eq_attnRef _ _ _ _ (fun r k => h0 _) (fun k d => h1 _) (fun k d => h2 _) (fun k d => h3 _))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.ref_eq, (hagree c).1, (hagree c).2.1,
      (hagree c).2.2.1, (hagree c).2.2.2]

end Cert.Proof.IdealClaims

end
-- ==== Proof.lean ====
/-
  The certificate of a two-call attention kernel against softmax attention, over the extended reals.

  The kernel projects x to Q = (x·Wq)/8, K = x·Wk, V = x·Wv in one call, and in a second call folds, for each tile of
  query rows, the key/value tiles one after the other with the online-softmax recurrence (running maximum, normalizer
  and weighted sum, rescaled by exp (m_old − m_new) at each step), dividing at the last. The reference computes
  softmax ((x·Wq)(x·Wk)ᵀ / 8) · (x·Wv) in two passes over whole rows. On finite inputs the two are equal: the
  recurrence's invariant is that after each tile the carried sums are the sums over the columns seen so far, taken
  relative to their maximum (Proof/OnlineFold.lean, Proof/Online.lean).

  The frames are the two regions' runs (Proof/R0.lean, Proof/R1.lean, Proof/Run.lean; for the word-level program the
  same text at its namespace); the kernel's value is read off those runs (Proof/ProjValue.lean, Proof/AttnValue.lean),
  the reference's off its own run (Proof/RefValue.lean); the precondition gives finiteness (Proof/Finite.lean).
-/
import proofs.«422835_j70282844832522_3_alg».proof.Defs
import proofs.«422835_j70282844832522_3_alg».proof.Proof.Gen.Kernel
import proofs.«422835_j70282844832522_3_alg».proof.Proof.Gen.KernelIdeal
import proofs.«422835_j70282844832522_3_alg».proof.Proof.Gen.ReferenceIdeal
import proofs.«422835_j70282844832522_3_alg».proof.Proof.Gen.Pre_finite_inputs
import proofs.«422835_j70282844832522_3_alg».proof.Proof.BitsClaims
import proofs.«422835_j70282844832522_3_alg».proof.Proof.IdealClaims

noncomputable section

namespace Cert.Proof

theorem claim : Cert.Claim :=
  ⟨Cert.Kernel.Gen.facts, Cert.KernelIdeal.Gen.facts, Cert.ReferenceIdeal.Gen.facts, Cert.Pre_finite_inputs.Gen.facts,
    BitsClaims.frame_k, IdealClaims.frame_ki, IdealClaims.frame_ri, IdealClaims.preserves, IdealClaims.algebraic⟩

end Cert.Proof

end
